-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1000x256 : Shape := ⟨3, ![16, 1000, 256]⟩
abbrev S16x1000x4 : Shape := ⟨3, ![16, 1000, 4]⟩
abbrev S1600 : Shape := ⟨1, ![1600]⟩
abbrev S1600x4 : Shape := ⟨2, ![1600, 4]⟩
abbrev S_ : Shape := ⟨0, ![]⟩

class Facts : Prop where
  bcast_S_S16x1000x256 : S_.BroadcastsInDim S16x1000x256 (![] : Fin 0 → Fin S16x1000x256.rank)
  reducesTo_S16x1000x256_S_d0_1_2 : S16x1000x256.ReducesTo [0, 1, 2] S_
  h_S_ : 0 < S_.numel
  bcast_S_S16x1000x4 : S_.BroadcastsInDim S16x1000x4 (![] : Fin 0 → Fin S16x1000x4.rank)
  reducesTo_S16x1000x4_S_d0_1_2 : S16x1000x4.ReducesTo [0, 1, 2] S_
  bcast_S_S1600x4 : S_.BroadcastsInDim S1600x4 (![] : Fin 0 → Fin S1600x4.rank)
  reducesTo_S1600x4_S_d0_1 : S1600x4.ReducesTo [0, 1] S_

variable [Facts]

def fn {F : FTy → Type} [FloatOps F] (main_arg0 : FVec F S16x1000x256 .f32) (main_arg1 : FVec F S16x1000x4 .f32) (main_arg2 : IVec S1600 32) (main_arg3 : FVec F S1600x4 .f32) : IVec S_ 1 :=
  let main_v0 : FVec F S16x1000x256 .f32 := Host.absf main_arg0
  let main_cst : FVec F S_ .f32 := constant S_ .f32 0x7F800000#32
  let main_v1 : FVec F S16x1000x256 .f32 := broadcastInDim S16x1000x256 ![] bcast_S_S16x1000x256 main_cst
  let main_v2 : IVec S16x1000x256 1 := cmpf .olt main_v0 main_v1
  let main_c : IVec S_ 1 := constantI S_ 1 1#1
  let main_v3 : IVec S_ 1 := (fun x v => Host.reduce IntOp.andi x v reducesTo_S16x1000x256_S_d0_1_2 h_S_) main_v2 main_c
  let main_v4 : FVec F S16x1000x4 .f32 := Host.absf main_arg1
  let main_cst_0 : FVec F S_ .f32 := constant S_ .f32 0x7F800000#32
  let main_v5 : FVec F S16x1000x4 .f32 := broadcastInDim S16x1000x4 ![] bcast_S_S16x1000x4 main_cst_0
  let main_v6 : IVec S16x1000x4 1 := cmpf .olt main_v4 main_v5
  let main_c_1 : IVec S_ 1 := constantI S_ 1 1#1
  let main_v7 : IVec S_ 1 := (fun x v => Host.reduce IntOp.andi x v reducesTo_S16x1000x4_S_d0_1_2 h_S_) main_v6 main_c_1
  let main_v8 : IVec S_ 1 := andi main_v3 main_v7
  let main_v9 : FVec F S1600x4 .f32 := Host.absf main_arg3
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  main_v13
-- ==== Kernel.lean ====
abbrev S16x1000x256 : Shape := ⟨3, ![16, 1000, 256]⟩
abbrev S16x1000x4 : Shape := ⟨3, ![16, 1000, 4]⟩
abbrev S1600 : Shape := ⟨1, ![1600]⟩
abbrev S1600x4 : Shape := ⟨2, ![1600, 4]⟩
abbrev S16000x256 : Shape := ⟨2, ![16000, 256]⟩
abbrev S16000x4 : Shape := ⟨2, ![16000, 4]⟩
abbrev S_ : Shape := ⟨0, ![]⟩
abbrev S1600x1 : Shape := ⟨2, ![1600, 1]⟩
abbrev S1x256 : Shape := ⟨2, ![1, 256]⟩
abbrev S1600x256 : Shape := ⟨2, ![1600, 256]⟩
abbrev S256x1600 : Shape := ⟨2, ![256, 1600]⟩
abbrev S16000x1 : Shape := ⟨2, ![16000, 1]⟩
abbrev S16000 : Shape := ⟨1, ![16000]⟩
abbrev S16000x8 : Shape := ⟨2, ![16000, 8]⟩
abbrev S1600x8 : Shape := ⟨2, ![1600, 8]⟩
abbrev S8x1600 : Shape := ⟨2, ![8, 1600]⟩
abbrev S16000x1600 : Shape := ⟨2, ![16000, 1600]⟩
abbrev S400x256 : Shape := ⟨2, ![400, 256]⟩
abbrev S400x8 : Shape := ⟨2, ![400, 8]⟩
abbrev S400x1600 : Shape := ⟨2, ![400, 1600]⟩
abbrev S400x1 : Shape := ⟨2, ![400, 1]⟩
abbrev S1x1600 : Shape := ⟨2, ![1, 1600]⟩
abbrev S16x1000x1600 : Shape := ⟨3, ![16, 1000, 1600]⟩

abbrev nBuf : Space → Nat
  | .hbm => 84
  | .vmem => 8
  | .smem => 0
  | _ => 0

abbrev bufTy : (tb : Table) → Fin (tcTables nBuf tb) → BufTy
  | .hbm, ⟨0, _⟩ => ⟨S16x1000x256, .f32⟩
  | .hbm, ⟨1, _⟩ => ⟨S16x1000x4, .f32⟩
  | .hbm, ⟨2, _⟩ => ⟨S1600, .i32⟩
  | .hbm, ⟨3, _⟩ => ⟨S1600x4, .f32⟩
  | .hbm, ⟨4, _⟩ => ⟨S16000x256, .f32⟩
  | .hbm, ⟨5, _⟩ => ⟨S16000x4, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1600, .i32⟩
  | .hbm, ⟨10, _⟩ => ⟨S1600, .i32⟩
  | .hbm, ⟨11, _⟩ => ⟨S_, .i32⟩
  | .hbm, ⟨12, _⟩ => ⟨S1600, .i32⟩
  | .hbm, ⟨13, _⟩ => ⟨S1600, .i32⟩
  | .hbm, ⟨14, _⟩ => ⟨S1600x1, .i32⟩
  | .hbm, ⟨15, _⟩ => ⟨S1x256, .i32⟩
  | .hbm, ⟨16, _⟩ => ⟨S1600x256, .i32⟩
  | .hbm, ⟨17, _⟩ => ⟨S1600x256, .i32⟩
  | .hbm, ⟨18, _⟩ => ⟨S1600x256, .i1⟩
  | .hbm, ⟨19, _⟩ => ⟨S1600x256, .bf16⟩
  | .hbm, ⟨20, _⟩ => ⟨S256x1600, .bf16⟩
  | .hbm, ⟨21, _⟩ => ⟨S16000x1, .f32⟩
  | .hbm, ⟨22, _⟩ => ⟨S16000, .f32⟩
  | .hbm, ⟨23, _⟩ => ⟨S16000x1, .f32⟩
  | .hbm, ⟨24, _⟩ => ⟨S16000, .f32⟩
  | .hbm, ⟨25, _⟩ => ⟨S16000x1, .f32⟩
  | .hbm, ⟨26, _⟩ => ⟨S16000, .f32⟩
  | .hbm, ⟨27, _⟩ => ⟨S16000x1, .f32⟩
  | .hbm, ⟨28, _⟩ => ⟨S16000, .f32⟩
  | .hbm, ⟨29, _⟩ => ⟨S_, .f32⟩
  | .hbm, ⟨30, _⟩ => ⟨S16000, .f32⟩
  | .hbm, ⟨31, _⟩ => ⟨S16000, .f32⟩
  | .hbm, ⟨32, _⟩ => ⟨S16000, .f32⟩
  | .hbm, ⟨33, _⟩ => ⟨S_, .f32⟩
  | .hbm, ⟨34, _⟩ => ⟨S16000, .f32⟩
  | .hbm, ⟨35, _⟩ => ⟨S16000, .f32⟩
  | .hbm, ⟨36, _⟩ => ⟨S16000, .f32⟩
  | .hbm, ⟨37, _⟩ => ⟨S_, .f32⟩
  | .hbm, ⟨38, _⟩ => ⟨S16000, .f32⟩
  | .hbm, ⟨39, _⟩ => ⟨S16000, .f32⟩
  | .hbm, ⟨40, _⟩ => ⟨S16000, .f32⟩
  | .hbm, ⟨41, _⟩ => ⟨S_, .f32⟩
  | .hbm, ⟨42, _⟩ => ⟨S16000, .f32⟩
  | .hbm, ⟨43, _⟩ => ⟨S16000, .f32⟩
  | .hbm, ⟨44, _⟩ => ⟨S16000, .f32⟩
  | .hbm, ⟨45, _⟩ => ⟨S16000x1, .f32⟩
  | .hbm, ⟨46, _⟩ => ⟨S16000x1, .f32⟩
  | .hbm, ⟨47, _⟩ => ⟨S16000x1, .f32⟩
  | .hbm, ⟨48, _⟩ => ⟨S16000x1, .f32⟩
  | .hbm, ⟨49, _⟩ => ⟨S16000x4, .f32⟩
  | .hbm, ⟨50, _⟩ => ⟨S16000x8, .f32⟩
  | .hbm, ⟨51, _⟩ => ⟨S1600x1, .f32⟩
  | .hbm, ⟨52, _⟩ => ⟨S1600, .f32⟩
  | .hbm, ⟨53, _⟩ => ⟨S1600x1, .f32⟩
  | .hbm, ⟨54, _⟩ => ⟨S1600, .f32⟩
  | .hbm, ⟨55, _⟩ => ⟨S1600x1, .f32⟩
  | .hbm, ⟨56, _⟩ => ⟨S1600, .f32⟩
  | .hbm, ⟨57, _⟩ => ⟨S1600x1, .f32⟩
  | .hbm, ⟨58, _⟩ => ⟨S1600, .f32⟩
  | .hbm, ⟨59, _⟩ => ⟨S_, .f32⟩
  | .hbm, ⟨60, _⟩ => ⟨S1600, .f32⟩
  | .hbm, ⟨61, _⟩ => ⟨S1600, .f32⟩
  | .hbm, ⟨62, _⟩ => ⟨S1600, .f32⟩
  | .hbm, ⟨63, _⟩ => ⟨S_, .f32⟩
  | .hbm, ⟨64, _⟩ => ⟨S1600, .f32⟩
  | .hbm, ⟨65, _⟩ => ⟨S1600, .f32⟩
  | .hbm, ⟨66, _⟩ => ⟨S1600, .f32⟩
  | .hbm, ⟨67, _⟩ => ⟨S_, .f32⟩
  | .hbm, ⟨68, _⟩ => ⟨S1600, .f32⟩
  | .hbm, ⟨69, _⟩ => ⟨S1600, .f32⟩
  | .hbm, ⟨70, _⟩ => ⟨S1600, .f32⟩
  | .hbm, ⟨71, _⟩ => ⟨S_, .f32⟩
  | .hbm, ⟨72, _⟩ => ⟨S1600, .f32⟩
  | .hbm, ⟨73, _⟩ => ⟨S1600, .f32⟩
  | .hbm, ⟨74, _⟩ => ⟨S1600, .f32⟩
  | .hbm, ⟨75, _⟩ => ⟨S1600x1, .f32⟩
  | .hbm, ⟨76, _⟩ => ⟨S1600x1, .f32⟩
  | .hbm, ⟨77, _⟩ => ⟨S1600x1, .f32⟩
  | .hbm, ⟨78, _⟩ => ⟨S1600x1, .f32⟩
  | .hbm, ⟨79, _⟩ => ⟨S1600x4, .f32⟩
  | .hbm, ⟨80, _⟩ => ⟨S1600x8, .f32⟩
  | .hbm, ⟨81, _⟩ => ⟨S8x1600, .f32⟩
  | .hbm, ⟨82, _⟩ => ⟨S16000x1600, .f32⟩
  | .hbm, ⟨83, _⟩ => ⟨S16x1000x1600, .f32⟩
  | .local _ .vmem, ⟨0, _⟩ => ⟨S400x256, .f32⟩
  | .local _ .vmem, ⟨1, _⟩ => ⟨S400x256, .f32⟩
  | .local _ .vmem, ⟨2, _⟩ => ⟨S400x8, .f32⟩
  | .local _ .vmem, ⟨3, _⟩ => ⟨S400x8, .f32⟩
  | .local _ .vmem, ⟨4, _⟩ => ⟨S256x1600, .bf16⟩
  | .local _ .vmem, ⟨5, _⟩ => ⟨S8x1600, .f32⟩
  | .local _ .vmem, ⟨6, _⟩ => ⟨S400x1600, .f32⟩
  | .local _ .vmem, ⟨7, _⟩ => ⟨S400x1600, .f32⟩
  | _, _ => ⟨S16x1000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1600 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x1000x256_S16000x256 : S16x1000x256.ShapeCasts S16000x256
  shapeCasts_S16x1000x4_S16000x4 : S16x1000x4.ShapeCasts S16000x4
  bcast_S_S1600 : S_.BroadcastsInDim S1600 (![] : Fin 0 → Fin S1600.rank)
  bcast_S1600_S1600x1_0 : S1600.BroadcastsInDim S1600x1 (![0] : Fin 1 → Fin S1600x1.rank)
  bcast_S1600x1_S1600x256_0_1 : S1600x1.BroadcastsInDim S1600x256 (![0, 1] : Fin 2 → Fin S1600x256.rank)
  bcast_S1x256_S1600x256_0_1 : S1x256.BroadcastsInDim S1600x256 (![0, 1] : Fin 2 → Fin S1600x256.rank)
  transposes_S1600x256_S256x1600_1_0 : S1600x256.Transposes [1, 0] S256x1600
  slices_S16000x4_S16000x1_0_0 : S16000x4.Slices ![0, 0] S16000x1
  shapeCasts_S16000x1_S16000 : S16000x1.ShapeCasts S16000
  slices_S16000x4_S16000x1_0_1 : S16000x4.Slices ![0, 1] S16000x1
  slices_S16000x4_S16000x1_0_2 : S16000x4.Slices ![0, 2] S16000x1
  slices_S16000x4_S16000x1_0_3 : S16000x4.Slices ![0, 3] S16000x1
  bcast_S_S16000 : S_.BroadcastsInDim S16000 (![] : Fin 0 → Fin S16000.rank)
  bcast_S16000_S16000x1_0 : S16000.BroadcastsInDim S16000x1 (![0] : Fin 1 → Fin S16000x1.rank)
  concatenates_S16000x1_S16000x1_S16000x1_S16000x1_S16000x4_d1 : Shape.Concatenates [S16000x1, S16000x1, S16000x1, S16000x1] S16000x4 1
  concatenates_S16000x4_S16000x4_S16000x8_d1 : Shape.Concatenates [S16000x4, S16000x4] S16000x8 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  concatenates_S1600x1_S1600x1_S1600x1_S1600x1_S1600x4_d1 : Shape.Concatenates [S1600x1, S1600x1, S1600x1, S1600x1] S1600x4 1
  concatenates_S1600x4_S1600x4_S1600x8_d1 : Shape.Concatenates [S1600x4, S1600x4] S1600x8 1
  transposes_S1600x8_S8x1600_1_0 : S1600x8.Transposes [1, 0] S8x1600
  inb_S400x256_S400x256_0_0 : ∀ a, (![0, 0] : Fin 2 → Nat) a + S400x256.size a ≤ S400x256.size a
  h_S400x256 : 0 < S400x256.numel
  shapeCasts_S400x256_S400x256 : S400x256.ShapeCasts S400x256
  bitsLt_bf16_f32 : FTy.bits .bf16 < FTy.bits .f32
  inb_S256x1600_S256x1600_0_0 : ∀ a, (![0, 0] : Fin 2 → Nat) a + S256x1600.size a ≤ S256x1600.size a
  h_S256x1600 : 0 < S256x1600.numel
  shapeCasts_S256x1600_S256x1600 : S256x1600.ShapeCasts S256x1600
  inb_S400x8_S400x8_0_0 : ∀ a, (![0, 0] : Fin 2 → Nat) a + S400x8.size a ≤ S400x8.size a
  h_S400x8 : 0 < S400x8.numel
  shapeCasts_S400x8_S400x8 : S400x8.ShapeCasts S400x8
  inb_S8x1600_S8x1600_0_0 : ∀ a, (![0, 0] : Fin 2 → Nat) a + S8x1600.size a ≤ S8x1600.size a
  h_S8x1600 : 0 < S8x1600.numel
  shapeCasts_S8x1600_S8x1600 : S8x1600.ShapeCasts S8x1600
  slices_S400x8_o0_0_S400x1 : S400x8.Slices ![0, 0] S400x1
  slices_S400x8_o0_1_S400x1 : S400x8.Slices ![0, 1] S400x1
  slices_S400x8_o0_2_S400x1 : S400x8.Slices ![0, 2] S400x1
  slices_S400x8_o0_3_S400x1 : S400x8.Slices ![0, 3] S400x1
  slices_S400x8_o0_4_S400x1 : S400x8.Slices ![0, 4] S400x1
  slices_S400x8_o0_5_S400x1 : S400x8.Slices ![0, 5] S400x1
  slices_S400x8_o0_6_S400x1 : S400x8.Slices ![0, 6] S400x1
  slices_S400x8_o0_7_S400x1 : S400x8.Slices ![0, 7] S400x1
  slices_S8x1600_o0_0_S1x1600 : S8x1600.Slices ![0, 0] S1x1600
  slices_S8x1600_o1_0_S1x1600 : S8x1600.Slices ![1, 0] S1x1600
  slices_S8x1600_o2_0_S1x1600 : S8x1600.Slices ![2, 0] S1x1600
  slices_S8x1600_o3_0_S1x1600 : S8x1600.Slices ![3, 0] S1x1600
  slices_S8x1600_o4_0_S1x1600 : S8x1600.Slices ![4, 0] S1x1600
  slices_S8x1600_o5_0_S1x1600 : S8x1600.Slices ![5, 0] S1x1600
  slices_S8x1600_o6_0_S1x1600 : S8x1600.Slices ![6, 0] S1x1600
  slices_S8x1600_o7_0_S1x1600 : S8x1600.Slices ![7, 0] S1x1600
  broadcasts_S400x1_S400x1600 : S400x1.Broadcasts S400x1600
  broadcasts_S1x1600_S400x1600 : S1x1600.Broadcasts S400x1600
  inb_S400x1600_S400x1600_0_0 : ∀ a, (![0, 0] : Fin 2 → Nat) a + S400x1600.size a ≤ S400x1600.size a
  h_S400x1600 : 0 < S400x1600.numel
  shapeCasts_S16000x1600_S16x1000x1600 : S16000x1600.ShapeCasts S16x1000x1600
  dot_S400x256_S256x1600_S400x1600_1_0_0_1_n_n_wf : DotDims.WF S400x256 S256x1600 S400x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S16000x256.size a
  hwx0_0 : ∀ i : grid0.Coords, EltTy.bits .f32 = 32 ∨ (Rect.block (s := S16000x256) S400x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x8.size a ≤ S16000x8.size a
  hwx0_1 : ∀ i : grid0.Coords, EltTy.bits .f32 = 32 ∨ (Rect.block (s := S16000x8) S400x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1600.size a ≤ S256x1600.size a
  hwx0_2 : ∀ i : grid0.Coords, EltTy.bits .bf16 = 32 ∨ (Rect.block (s := S256x1600) S256x1600.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1600.size a ≤ S8x1600.size a
  hwx0_3 : ∀ i : grid0.Coords, EltTy.bits .f32 = 32 ∨ (Rect.block (s := S8x1600) S8x1600.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x1600.size a ≤ S16000x1600.size a
  hwx0_4 : ∀ i : grid0.Coords, EltTy.bits .f32 = 32 ∨ (Rect.block (s := S16000x1600) S400x1600.size (cc0_transform_4 i) (hinb0_4 i)).WholeWords (EltTy.packing .f32)

variable [Facts₀]

def dot_S400x256_S256x1600_S400x1600_1_0_0_1_n_n : DotDims S400x256 S256x1600 S400x1600 where
  lhsContracting := [1]
  rhsContracting := [0]
  lhsNonContracting := [0]
  rhsNonContracting := [1]
  lhsBatch := []
  rhsBatch := []
  wf := dot_S400x256_S256x1600_S400x1600_1_0_0_1_n_n_wf

abbrev win0_0 : Pipeline.Window sig grid0 :=
  Pipeline.Window.ofSpec (Memref.whole main_v0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S400x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S8x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S400x1600.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1000x256 : Shape := ⟨3, ![16, 1000, 256]⟩
abbrev S16x1000x4 : Shape := ⟨3, ![16, 1000, 4]⟩
abbrev S1600 : Shape := ⟨1, ![1600]⟩
abbrev S1600x4 : Shape := ⟨2, ![1600, 4]⟩
abbrev S16000x256 : Shape := ⟨2, ![16000, 256]⟩
abbrev S_ : Shape := ⟨0, ![]⟩
abbrev S16000x4 : Shape := ⟨2, ![16000, 4]⟩
abbrev S1600x1 : Shape := ⟨2, ![1600, 1]⟩
abbrev S16000x1600 : Shape := ⟨2, ![16000, 1600]⟩
abbrev S16000x1x4 : Shape := ⟨3, ![16000, 1, 4]⟩
abbrev S1x1600x4 : Shape := ⟨3, ![1, 1600, 4]⟩
abbrev S16000x1600x4 : Shape := ⟨3, ![16000, 1600, 4]⟩
abbrev S16000x1 : Shape := ⟨2, ![16000, 1]⟩
abbrev S16000 : Shape := ⟨1, ![16000]⟩
abbrev S16000x2 : Shape := ⟨2, ![16000, 2]⟩
abbrev S16000x1x2 : Shape := ⟨3, ![16000, 1, 2]⟩
abbrev S1600x2 : Shape := ⟨2, ![1600, 2]⟩
abbrev S1x1600x2 : Shape := ⟨3, ![1, 1600, 2]⟩
abbrev S16000x1600x2 : Shape := ⟨3, ![16000, 1600, 2]⟩
abbrev S16000x1600x1 : Shape := ⟨3, ![16000, 1600, 1]⟩
abbrev S1x1600 : Shape := ⟨2, ![1, 1600]⟩
abbrev S16x1000x1600 : Shape := ⟨3, ![16, 1000, 1600]⟩

abbrev nBuf : Space → Nat
  | .hbm => 230
  | .vmem => 0
  | .smem => 0
  | _ => 0

abbrev hbmTy0_0 (i : Nat) : BufTy := match i % 128 with
  | 0 => ⟨S16x1000x256, .f32⟩
  | 1 => ⟨S16x1000x4, .f32⟩
  | 2 => ⟨S1600, .i32⟩
  | 3 => ⟨S1600x4, .f32⟩
  | 4 => ⟨S16000x256, .f32⟩
  | 5 => ⟨S16000x256, .f32⟩
  | 6 => ⟨S16000x256, .f32⟩
  | 7 => ⟨S_, .f32⟩
  | 8 => ⟨S16000x256, .f32⟩
  | 9 => ⟨S16000x256, .f32⟩
  | 10 => ⟨S_, .f32⟩
  | 11 => ⟨S16000x256, .f32⟩
  | 12 => ⟨S16000x256, .f32⟩
  | 13 => ⟨S16000x4, .f32⟩
  | 14 => ⟨S_, .i32⟩
  | 15 => ⟨S_, .i32⟩
  | 16 => ⟨S_, .i32⟩
  | 17 => ⟨S1600, .i32⟩
  | 18 => ⟨S1600, .i32⟩
  | 19 => ⟨S_, .i32⟩
  | 20 => ⟨S1600, .i32⟩
  | 21 => ⟨S1600, .i32⟩
  | 22 => ⟨S_, .f32⟩
  | 23 => ⟨S16000x256, .f32⟩
  | 24 => ⟨S16000x256, .f32⟩
  | 25 => ⟨S_, .f32⟩
  | 26 => ⟨S16000x256, .f32⟩
  | 27 => ⟨S16000x256, .f32⟩
  | 28 => ⟨S_, .f32⟩
  | 29 => ⟨S16000x256, .f32⟩
  | 30 => ⟨S16000x256, .f32⟩
  | 31 => ⟨S_, .f32⟩
  | 32 => ⟨S16000x256, .f32⟩
  | 33 => ⟨S16000x256, .f32⟩
  | 34 => ⟨S16000x256, .f32⟩
  | 35 => ⟨S16000x256, .f32⟩
  | 36 => ⟨S16000x256, .f32⟩
  | 37 => ⟨S_, .f32⟩
  | 38 => ⟨S16000x256, .f32⟩
  | 39 => ⟨S16000x256, .f32⟩
  | 40 => ⟨S_, .f32⟩
  | 41 => ⟨S16000x256, .f32⟩
  | 42 => ⟨S16000x256, .f32⟩
  | 43 => ⟨S_, .f32⟩
  | 44 => ⟨S16000x256, .f32⟩
  | 45 => ⟨S16000x256, .f32⟩
  | 46 => ⟨S_, .f32⟩
  | 47 => ⟨S16000x256, .f32⟩
  | 48 => ⟨S16000x256, .f32⟩
  | 49 => ⟨S16000x256, .f32⟩
  | 50 => ⟨S16000x256, .f32⟩
  | 51 => ⟨S16000x256, .f32⟩
  | 52 => ⟨S_, .i32⟩
  | 53 => ⟨S1600, .i32⟩
  | 54 => ⟨S1600, .i1⟩
  | 55 => ⟨S_, .i32⟩
  | 56 => ⟨S1600, .i32⟩
  | 57 => ⟨S1600, .i32⟩
  | 58 => ⟨S1600, .i32⟩
  | 59 => ⟨S1600x1, .i32⟩
  | 60 => ⟨S16000x1600, .f32⟩
  | 61 => ⟨S_, .i32⟩
  | 62 => ⟨S1600, .i32⟩
  | 63 => ⟨S1600, .i1⟩
  | 64 => ⟨S_, .i32⟩
  | 65 => ⟨S1600, .i32⟩
  | 66 => ⟨S1600, .i32⟩
  | 67 => ⟨S1600, .i32⟩
  | 68 => ⟨S1600x1, .i32⟩
  | 69 => ⟨S16000x1600, .f32⟩
  | 70 => ⟨S16000x1600, .f32⟩
  | 71 => ⟨S16000x1x4, .f32⟩
  | 72 => ⟨S1x1600x4, .f32⟩
  | 73 => ⟨S16000x1600x4, .f32⟩
  | 74 => ⟨S16000x1600x4, .f32⟩
  | 75 => ⟨S16000x1600x4, .f32⟩
  | 76 => ⟨S16000x1600x4, .f32⟩
  | 77 => ⟨S_, .f32⟩
  | 78 => ⟨S16000x1600, .f32⟩
  | 79 => ⟨S16000x1, .f32⟩
  | 80 => ⟨S16000, .f32⟩
  | 81 => ⟨S16000x1, .f32⟩
  | 82 => ⟨S16000, .f32⟩
  | 83 => ⟨S16000x1, .f32⟩
  | 84 => ⟨S16000, .f32⟩
  | 85 => ⟨S16000x1, .f32⟩
  | 86 => ⟨S16000, .f32⟩
  | 87 => ⟨S_, .f32⟩
  | 88 => ⟨S16000, .f32⟩
  | 89 => ⟨S16000, .f32⟩
  | 90 => ⟨S16000, .f32⟩
  | 91 => ⟨S_, .f32⟩
  | 92 => ⟨S16000, .f32⟩
  | 93 => ⟨S16000, .f32⟩
  | 94 => ⟨S16000, .f32⟩
  | 95 => ⟨S_, .f32⟩
  | 96 => ⟨S16000, .f32⟩
  | 97 => ⟨S16000, .f32⟩
  | 98 => ⟨S16000, .f32⟩
  | 99 => ⟨S_, .f32⟩
  | 100 => ⟨S16000, .f32⟩
  | 101 => ⟨S16000, .f32⟩
  | 102 => ⟨S16000, .f32⟩
  | 103 => ⟨S16000x1, .f32⟩
  | 104 => ⟨S16000x1, .f32⟩
  | 105 => ⟨S16000x1, .f32⟩
  | 106 => ⟨S16000x1, .f32⟩
  | 107 => ⟨S16000x4, .f32⟩
  | 108 => ⟨S1600x1, .f32⟩
  | 109 => ⟨S1600, .f32⟩
  | 110 => ⟨S1600x1, .f32⟩
  | 111 => ⟨S1600, .f32⟩
  | 112 => ⟨S1600x1, .f32⟩
  | 113 => ⟨S1600, .f32⟩
  | 114 => ⟨S1600x1, .f32⟩
  | 115 => ⟨S1600, .f32⟩
  | 116 => ⟨S_, .f32⟩
  | 117 => ⟨S1600, .f32⟩
  | 118 => ⟨S1600, .f32⟩
  | 119 => ⟨S1600, .f32⟩
  | 120 => ⟨S_, .f32⟩
  | 121 => ⟨S1600, .f32⟩
  | 122 => ⟨S1600, .f32⟩
  | 123 => ⟨S1600, .f32⟩
  | 124 => ⟨S_, .f32⟩
  | 125 => ⟨S1600, .f32⟩
  | 126 => ⟨S1600, .f32⟩
  | 127 => ⟨S1600, .f32⟩
  | _ => ⟨S16x1000x256, .f32⟩

abbrev hbmTy0_1 (i : Nat) : BufTy := match i % 128 with
  | 0 => ⟨S_, .f32⟩
  | 1 => ⟨S1600, .f32⟩
  | 2 => ⟨S1600, .f32⟩
  | 3 => ⟨S1600, .f32⟩
  | 4 => ⟨S1600x1, .f32⟩
  | 5 => ⟨S1600x1, .f32⟩
  | 6 => ⟨S1600x1, .f32⟩
  | 7 => ⟨S1600x1, .f32⟩
  | 8 => ⟨S1600x4, .f32⟩
  | 9 => ⟨S16000x1, .f32⟩
  | 10 => ⟨S16000, .f32⟩
  | 11 => ⟨S16000x1, .f32⟩
  | 12 => ⟨S16000, .f32⟩
  | 13 => ⟨S16000, .f32⟩
  | 14 => ⟨S16000x1, .f32⟩
  | 15 => ⟨S16000, .f32⟩
  | 16 => ⟨S16000x1, .f32⟩
  | 17 => ⟨S16000, .f32⟩
  | 18 => ⟨S16000, .f32⟩
  | 19 => ⟨S16000, .f32⟩
  | 20 => ⟨S1600x1, .f32⟩
  | 21 => ⟨S1600, .f32⟩
  | 22 => ⟨S1600x1, .f32⟩
  | 23 => ⟨S1600, .f32⟩
  | 24 => ⟨S1600, .f32⟩
  | 25 => ⟨S1600x1, .f32⟩
  | 26 => ⟨S1600, .f32⟩
  | 27 => ⟨S1600x1, .f32⟩
  | 28 => ⟨S1600, .f32⟩
  | 29 => ⟨S1600, .f32⟩
  | 30 => ⟨S1600, .f32⟩
  | 31 => ⟨S16000x2, .f32⟩
  | 32 => ⟨S16000x1x2, .f32⟩
  | 33 => ⟨S1600x2, .f32⟩
  | 34 => ⟨S1x1600x2, .f32⟩
  | 35 => ⟨S16000x1600x2, .f32⟩
  | 36 => ⟨S16000x1600x2, .f32⟩
  | 37 => ⟨S16000x1600x2, .f32⟩
  | 38 => ⟨S16000x2, .f32⟩
  | 39 => ⟨S16000x1x2, .f32⟩
  | 40 => ⟨S1600x2, .f32⟩
  | 41 => ⟨S1x1600x2, .f32⟩
  | 42 => ⟨S16000x1600x2, .f32⟩
  | 43 => ⟨S16000x1600x2, .f32⟩
  | 44 => ⟨S16000x1600x2, .f32⟩
  | 45 => ⟨S16000x1600x2, .f32⟩
  | 46 => ⟨S_, .f32⟩
  | 47 => ⟨S_, .f32⟩
  | 48 => ⟨S16000x1600x2, .f32⟩
  | 49 => ⟨S16000x1600x2, .f32⟩
  | 50 => ⟨S16000x1600x1, .f32⟩
  | 51 => ⟨S16000x1600, .f32⟩
  | 52 => ⟨S16000x1600x1, .f32⟩
  | 53 => ⟨S16000x1600, .f32⟩
  | 54 => ⟨S16000x1600, .f32⟩
  | 55 => ⟨S16000x1, .f32⟩
  | 56 => ⟨S1x1600, .f32⟩
  | 57 => ⟨S16000x1600, .f32⟩
  | 58 => ⟨S16000x1600, .f32⟩
  | 59 => ⟨S16000x1600, .f32⟩
  | 60 => ⟨S16000x1600, .f32⟩
  | 61 => ⟨S16000x1600, .f32⟩
  | 62 => ⟨S16000x2, .f32⟩
  | 63 => ⟨S16000x1x2, .f32⟩
  | 64 => ⟨S1600x2, .f32⟩
  | 65 => ⟨S1x1600x2, .f32⟩
  | 66 => ⟨S16000x1600x2, .f32⟩
  | 67 => ⟨S16000x1600x2, .f32⟩
  | 68 => ⟨S16000x1600x2, .f32⟩
  | 69 => ⟨S16000x2, .f32⟩
  | 70 => ⟨S16000x1x2, .f32⟩
  | 71 => ⟨S1600x2, .f32⟩
  | 72 => ⟨S1x1600x2, .f32⟩
  | 73 => ⟨S16000x1600x2, .f32⟩
  | 74 => ⟨S16000x1600x2, .f32⟩
  | 75 => ⟨S16000x1600x2, .f32⟩
  | 76 => ⟨S16000x1600x2, .f32⟩
  | 77 => ⟨S_, .f32⟩
  | 78 => ⟨S_, .f32⟩
  | 79 => ⟨S16000x1600x2, .f32⟩
  | 80 => ⟨S16000x1600x2, .f32⟩
  | 81 => ⟨S16000x1600x1, .f32⟩
  | 82 => ⟨S16000x1600, .f32⟩
  | 83 => ⟨S16000x1600x1, .f32⟩
  | 84 => ⟨S16000x1600, .f32⟩
  | 85 => ⟨S16000x1600, .f32⟩
  | 86 => ⟨S16000x1600, .f32⟩
  | 87 => ⟨S16000x1600, .f32⟩
  | 88 => ⟨S16000x1600, .f32⟩
  | 89 => ⟨S16000x1600, .f32⟩
  | 90 => ⟨S_, .f32⟩
  | 91 => ⟨S16000x1600, .f32⟩
  | 92 => ⟨S16000x1600, .f32⟩
  | 93 => ⟨S_, .f32⟩
  | 94 => ⟨S16000x1600, .f32⟩
  | 95 => ⟨S16000x1600, .f32⟩
  | 96 => ⟨S16000x1600, .f32⟩
  | 97 => ⟨S_, .f32⟩
  | 98 => ⟨S16000x1600, .f32⟩
  | 99 => ⟨S16000x1600, .f32⟩
  | 100 => ⟨S16000x1600, .f32⟩
  | 101 => ⟨S16x1000x1600, .f32⟩
  | _ => ⟨S16x1000x256, .f32⟩

abbrev hbmTy (i : Nat) : BufTy := match i / 128 with
  | 0 => hbmTy0_0 i
  | 1 => hbmTy0_1 i
  | _ => ⟨S16x1000x256, .f32⟩

abbrev bufTy : (tb : Table) → Fin (tcTables nBuf tb) → BufTy
  | .hbm, ⟨i, _⟩ => hbmTy i
  | _, _ => ⟨S16x1000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_v25 : Ref sig .tc := ⟨.hbm, 45, rfl⟩
abbrev main_cst_9 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_10 : Ref sig .tc := ⟨.hbm, 52, rfl⟩
abbrev main_v31 : Ref sig .tc := ⟨.hbm, 53, rfl⟩
abbrev main_v32 : Ref sig .tc := ⟨.hbm, 54, rfl⟩
abbrev main_c_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_12 : Ref sig .tc := ⟨.hbm, 61, rfl⟩
abbrev main_v38 : Ref sig .tc := ⟨.hbm, 62, rfl⟩
abbrev main_v39 : Ref sig .tc := ⟨.hbm, 63, rfl⟩
abbrev main_c_13 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_14 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_17 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_19 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_20 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_21 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_22 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_23 : Ref sig .tc := ⟨.hbm, 174, rfl⟩
abbrev main_call1_v0 : Ref sig .tc := ⟨.hbm, 175, rfl⟩
abbrev main_call1_v1 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_cst_24 : Ref sig .tc := ⟨.hbm, 205, rfl⟩
abbrev main_call2_v0 : Ref sig .tc := ⟨.hbm, 206, rfl⟩
abbrev main_call2_v1 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_cst_25 : Ref sig .tc := ⟨.hbm, 218, rfl⟩
abbrev main_v178 : Ref sig .tc := ⟨.hbm, 219, rfl⟩
abbrev main_v179 : Ref sig .tc := ⟨.hbm, 220, rfl⟩
abbrev main_cst_26 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_cst_27 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩

abbrev nD : Nat := 1
abbrev τ : Topo := Topo.v7x

variable {F : FTy → Type} [FloatOps F]

class Facts₀ : Prop where
  shapeCasts_S16x1000x256_S16000x256 : S16x1000x256.ShapeCasts S16000x256
  bcast_S_S16000x256 : S_.BroadcastsInDim S16000x256 (![] : Fin 0 → Fin S16000x256.rank)
  shapeCasts_S16x1000x4_S16000x4 : S16x1000x4.ShapeCasts S16000x4
  bcast_S_S1600 : S_.BroadcastsInDim S1600 (![] : Fin 0 → Fin S1600.rank)
  bcast_S1600_S1600x1_0 : S1600.BroadcastsInDim S1600x1 (![0] : Fin 1 → Fin S1600x1.rank)
  bcast_S16000x4_S16000x1x4_0_2 : S16000x4.BroadcastsInDim S16000x1x4 (![0, 2] : Fin 2 → Fin S16000x1x4.rank)
  bcast_S1600x4_S1x1600x4_1_2 : S1600x4.BroadcastsInDim S1x1600x4 (![1, 2] : Fin 2 → Fin S1x1600x4.rank)
  bcast_S16000x1x4_S16000x1600x4_0_1_2 : S16000x1x4.BroadcastsInDim S16000x1600x4 (![0, 1, 2] : Fin 3 → Fin S16000x1600x4.rank)
  bcast_S1x1600x4_S16000x1600x4_0_1_2 : S1x1600x4.BroadcastsInDim S16000x1600x4 (![0, 1, 2] : Fin 3 → Fin S16000x1600x4.rank)
  reducesTo_S16000x1600x4_S16000x1600_d2 : S16000x1600x4.ReducesTo [2] S16000x1600
  h_S_ : 0 < S_.numel
  slices_S16000x4_S16000x1_0_0 : S16000x4.Slices ![0, 0] S16000x1
  shapeCasts_S16000x1_S16000 : S16000x1.ShapeCasts S16000
  slices_S16000x4_S16000x1_0_1 : S16000x4.Slices ![0, 1] S16000x1
  slices_S16000x4_S16000x1_0_2 : S16000x4.Slices ![0, 2] S16000x1
  slices_S16000x4_S16000x1_0_3 : S16000x4.Slices ![0, 3] S16000x1
  bcast_S_S16000 : S_.BroadcastsInDim S16000 (![] : Fin 0 → Fin S16000.rank)
  bcast_S16000_S16000x1_0 : S16000.BroadcastsInDim S16000x1 (![0] : Fin 1 → Fin S16000x1.rank)
  concatenates_S16000x1_S16000x1_S16000x1_S16000x1_S16000x4_d1 : Shape.Concatenates [S16000x1, S16000x1, S16000x1, S16000x1] S16000x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  concatenates_S1600x1_S1600x1_S1600x1_S1600x1_S1600x4_d1 : Shape.Concatenates [S1600x1, S1600x1, S1600x1, S1600x1] S1600x4 1
  slices_S16000x4_S16000x2_0_0 : S16000x4.Slices ![0, 0] S16000x2
  bcast_S16000x2_S16000x1x2_0_2 : S16000x2.BroadcastsInDim S16000x1x2 (![0, 2] : Fin 2 → Fin S16000x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S16000x1x2_S16000x1600x2_0_1_2 : S16000x1x2.BroadcastsInDim S16000x1600x2 (![0, 1, 2] : Fin 3 → Fin S16000x1600x2.rank)
  bcast_S1x1600x2_S16000x1600x2_0_1_2 : S1x1600x2.BroadcastsInDim S16000x1600x2 (![0, 1, 2] : Fin 3 → Fin S16000x1600x2.rank)
  slices_S16000x4_S16000x2_0_2 : S16000x4.Slices ![0, 2] S16000x2
  slices_S1600x4_S1600x2_0_2 : S1600x4.Slices ![0, 2] S1600x2
  bcast_S_S16000x1600x2 : S_.BroadcastsInDim S16000x1600x2 (![] : Fin 0 → Fin S16000x1600x2.rank)
  slices_S16000x1600x2_S16000x1600x1_0_0_0 : S16000x1600x2.Slices ![0, 0, 0] S16000x1600x1
  shapeCasts_S16000x1600x1_S16000x1600 : S16000x1600x1.ShapeCasts S16000x1600
  slices_S16000x1600x2_S16000x1600x1_0_0_1 : S16000x1600x2.Slices ![0, 0, 1] S16000x1600x1
  bcast_S1600_S1x1600_1 : S1600.BroadcastsInDim S1x1600 (![1] : Fin 1 → Fin S1x1600.rank)
  bcast_S16000x1_S16000x1600_0_1 : S16000x1.BroadcastsInDim S16000x1600 (![0, 1] : Fin 2 → Fin S16000x1600.rank)
  bcast_S1x1600_S16000x1600_0_1 : S1x1600.BroadcastsInDim S16000x1600 (![0, 1] : Fin 2 → Fin S16000x1600.rank)
  bcast_S_S16000x1600 : S_.BroadcastsInDim S16000x1600 (![] : Fin 0 → Fin S16000x1600.rank)
  shapeCasts_S16000x1600_S16x1000x1600 : S16000x1600.ShapeCasts S16x1000x1600
  gather_S16000x256_S1600x1_S16000x1600_0_1_n_n_1_1_160001_wf : GatherDims.WF S16000x256 S1600x1 S16000x1600 [0] [1] [] [1] [] 1 ![16000, 1]

variable [Facts₀]

def gather_S16000x256_S1600x1_S16000x1600_0_1_n_n_1_1_160001 : GatherDims S16000x256 S1600x1 S16000x1600 where
  offsetDims := [0]
  collapsedSliceDims := [1]
  operandBatchingDims := []
  startIndicesBatchingDims := []
  startIndexMap := [1]
  indexVectorDim := 1
  sliceSizes := ![16000, 1]
  wf := gather_S16000x256_S1600x1_S16000x1600_0_1_n_n_1_1_160001_wf

class Facts : Prop extends Facts₀ where

variable [Facts]
-- ==== Proof.KIEntry.lean ====
/-
  The arrays the one kernel launch finds: the host operations before it, run from the arguments, leave each of
  the launch's four operand arrays (the flattened class scores, the [16000, 8] table of query-box numbers, the
  transposed one-hot [256, 1600] table of labels and the transposed [8, 1600] table of target-box numbers) in
  its buffer. `V0 m c` is device `c`'s buffer contents at that moment, `V m c b` the same read at a reference.
-/
import proofs.«425634_j60129542923_3_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Device `c`'s buffer contents when the launch is entered: after the four stretches of host operations before it. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

end Cert.KernelIdeal.Hand

end
-- ==== Proof.KIFrame.lean ====
/-
  The frame of the kernel program: the host operations, the one kernel launch over its 40 grid points
  and the final reshape run to the end, fault nowhere, and leave the four argument arrays as they were. The
  launch's proof data names what each grid point leaves in the output window's buffer: the body's one store,
  `bodyOut`, of the four input blocks.
-/
import proofs.«425634_j60129542923_3_alg».proof.Proof.KIEntry
import proofs.«425634_j60129542923_3_alg».proof.Proof.Gen.KernelIdeal.Skeleton
import proofs.«425634_j60129542923_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0, the scores' block, moves with the point and is fetched at every point. Whatever proof data has the launch's array (`hA`) and a body that leaves the block in place (`hafter`)
    finds in the window's current buffer, at every point, the block of that point: where the block is not fetched
    the block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Window 1, the query boxes' block, moves with the point and is fetched at every point. Whatever proof data has the launch's array (`hA`) and a body that leaves the block in place (`hafter`)
    finds in the window's current buffer, at every point, the block of that point: where the block is not fetched
    the block index has not moved since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Window 2, the one-hot table, is one block, fetched at the first point only. Whatever proof data has the launch's array (`hA`) and a body that leaves the block in place (`hafter`)
    finds in the window's current buffer, at every point, the block of that point: where the block is not fetched
    the block index has not moved since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Window 3, the target boxes' table, is one block, fetched at the first point only. Whatever proof data has the launch's array (`hA`) and a body that leaves the block in place (`hafter`)
    finds in the window's current buffer, at every point, the block of that point: where the block is not fetched
    the block index has not moved since the last fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

/-- The value the body stores into the output window's buffer, from the four blocks it loads: the scores' block `x0`,
    the query boxes' `x1`, the one-hot table `x2` and the target boxes' table `x3`. -/
def bodyOut (x0 : Vec F S400x256 .f32) (x1 : Vec F S400x8 .f32) (x2 : Vec F S256x1600 .bf16) (x3 : Vec F S8x1600 .f32) :
    FVec F S400x1600 .f32 :=
  k0_pay1 (k0_pay9 x1) (k0_pay10 x1) (k0_pay11 x1) (k0_pay12 x1)
    (k0_pay16 (k0_pay4 x3)) (k0_pay17 (k0_pay4 x3)) (k0_pay18 (k0_pay4 x3)) (k0_pay19 (k0_pay4 x3))
    (k0_pay20 (k0_pay2 x0 x2) (k0_pay4 x3) (k0_pay5 x1) (k0_pay6 x1) (k0_pay7 x1) (k0_pay8 x1) (k0_pay13 x3) (k0_pay14 x3) (k0_pay15 x3))
    (k0_pay21 (k0_pay4 x3) (k0_pay9 x1) (k0_pay10 x1) (k0_pay11 x1) (k0_pay12 x1))
    (k0_pay22 (k0_pay9 x1) (k0_pay10 x1) (k0_pay11 x1) (k0_pay12 x1))
    (k0_pay23 (k0_pay4 x3))

/-- The whole-buffer rectangles the body loads and stores through. -/
abbrev r0 : Rect S400x256 := Rect.unit (s := S400x256) ![0, 0] S400x256.size inb_S400x256_S400x256_0_0
abbrev r1 : Rect S400x8 := Rect.unit (s := S400x8) ![0, 0] S400x8.size inb_S400x8_S400x8_0_0
abbrev r2 : Rect S256x1600 := Rect.unit (s := S256x1600) ![0, 0] S256x1600.size inb_S256x1600_S256x1600_0_0
abbrev r3 : Rect S8x1600 := Rect.unit (s := S8x1600) ![0, 0] S8x1600.size inb_S8x1600_S8x1600_0_0
abbrev r4 : Rect S400x1600 := Rect.unit (s := S400x1600) ![0, 0] S400x1600.size inb_S400x1600_S400x1600_0_0

/-- The output window's buffer after the body: its one store, over the whole buffer. -/
def out0_4 (x0 : Vec F S400x256 .f32) (x1 : Vec F S400x8 .f32) (x2 : Vec F S256x1600 .bf16) (x3 : Vec F S8x1600 .f32) :
    Vec F S400x1600 .f32 :=
  View.canon [⟨r4, bodyOut (View.ld x0 r0) (View.ld x1 r1) (View.ld x2 r2) (View.ld x3 r3)⟩]

/-- The one store is over the whole buffer, so it covers it. -/
theorem cover0_4 (p0 : Vec F S400x1600 .f32) (y : S400x1600.Idx) :
    ∃ pc ∈ ([⟨r4, p0⟩] : List (View.Piece (Elt F) S400x1600 .f32)), y ∈ pc.1.set :=
  View.cover_of_tiled [⟨r4, p0⟩] S400x1600.size (by rfl) y

/-! ## The body's triple -/

set_option maxHeartbeats 1000000 in
/-- The body on whole buffers, the four inputs' at contents `x0 … x3` and the output's at anything, runs to the
    continuation with the inputs' as they were and the output's at `out0_4` of them: four whole-buffer loads, pure
    values, a load of the output buffer whose value goes unused, and the one whole-buffer store of `bodyOut`. -/
theorem sound_kernel (c : Dev nD) (E : Set ℕ) (i : grid0.Coords)
    (arg1 : Memref sig .tc .vmem S400x256 .f32) (harg1 : arg1.IsWhole) (arg2 : Memref sig .tc .vmem S400x8 .f32) (harg2 : arg2.IsWhole)
    (arg3 : Memref sig .tc .vmem S256x1600 .bf16) (harg3 : arg3.IsWhole) (arg4 : Memref sig .tc .vmem S8x1600 .f32) (harg4 : arg4.IsWhole)
    (arg5 : Memref sig .tc .vmem S400x1600 .f32) (harg5 : arg5.IsWhole)
    (x0 : Vec F S400x256 .f32) (x1 : Vec F S400x8 .f32) (x2 : Vec F S256x1600 .bf16) (x3 : Vec F S8x1600 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__cost_kernel i arg1 harg1 arg2 harg2 arg3 harg3 arg4 harg4 arg5 harg5) K := by
  simp only [cc0__cost_kernel_eq_skeleton]; unfold cc0__cost_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  dsimp only
  unfold out0_4 bodyOut
  exact View.read_writes_eq_canon _ _ _ (cover0_4 _)

/-! ## The launch's proof data -/

/-- On device `c`: the arrays as the launch finds them; after the body at point `t` each input window's buffer at its
    block and the output's at `out0_4` of the input blocks; nothing else owned or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_4 (c : Dev nD) (t : Fin cfg0.N) :
    (dats m 0 c).after 4 t = out0_4 (iblk m c 0 t) (iblk m c 1 t) (iblk m c 2 t) (iblk m c 3 t) := by dsimp only [dats]

/-- What the body leaves in each input window's buffer: the block it found. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input window's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, what the device owes, and the five windows' current
    buffers, each owned whole at what the launch's schedule has left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the four input buffers hold their blocks, so the body's triple applies; the invariant and
    what the device owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The launch's body obligation, at every point. -/
theorem body_obligation (c : Dev nD) : BodyObligation (dats (F := F) m 0 c) (defs₀ (F := F)) Variants.none () Set.univ := fun t => by
  rw [bigSep_W0, bigSep_W0]
  exact sound_body m c t

/-! ## The arguments, before and after -/

/-- No host operation before the launch writes `main_arg0` (the class scores): each writes its own result buffer only, and
    that is another buffer. The launch finds the argument as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes `main_arg1` (the query boxes): each writes its own result buffer only, and
    that is another buffer. The launch finds the argument as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes `main_arg2` (the labels): each writes its own result buffer only, and
    that is another buffer. The launch finds the argument as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes `main_arg3` (the target boxes): each writes its own result buffer only, and
    that is another buffer. The launch finds the argument as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the launch, and `main_arg0` is no array of the launch: it ends as it was. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does the reshape after the launch, and `main_arg1` is no array of the launch: it ends as it was. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does the reshape after the launch, and `main_arg2` is no array of the launch: it ends as it was. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does the reshape after the launch, and `main_arg3` is no array of the launch: it ends as it was. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The program around the launch -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its four stretches of host operations, the launch, and the reshape after it: entered with the
    buffers at `V`, it is the launch continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The reshape after the launch touches unscoped TensorCore buffers only: each is an array of the launch or a buffer
    that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer only, which is none of the launch's five arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The run and the frame -/

set_option backward.isDefEq.respectTransparency.types false in
/-- Every weakly fair execution of @main terminates, and every final state has each array of the launch at what the
    library computes from the proof data and every other unscoped buffer as the reshape after the launch leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and its four arguments end as launched. No window of the launch stages an
    argument, so the run's post reads each at what the reshape after the launch leaves, which is what the host
    operations before the launch left, which is the launch-time contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (run_main m ρ)

end Cert.KernelIdeal.Hand

end
-- ==== Proof.Spec.lean ====
/-
  The cost a query box and its class scores pay against a target: the quantity both programs compute for every
  (query, target) pair, written once over the extended reals, in the two spellings the two programs use.

  For query `n` and target `m`, with `L` the [16000, 256] class scores, `B` the [16000, 4] query boxes
  (centre x, centre y, width, height), `lab` the 1600 target labels and `T` the [1600, 4] target boxes:

    cost = 2 · (focal class cost of the target's label) + 5 · (L1 distance of the boxes) + 2 · (1 - generalized IoU).

  `costK` spells the class cost as a sum over the 256 classes against a one-hot column, squares as products, the
  L1 distance as three additions, and `1 - giou` as `1 - I/U - U/A`; `costR` reads the class cost at the label's
  column, squares as powers, the L1 distance as a sum over four coordinates from zero, and `-giou` as
  `-(I/U - (A - U)/A)`. `Agree.lean` proves the two equal wherever the scores and boxes are finite.
-/
import Idealize.ShloMosaic.PureOps.Ideal
import Idealize.ShloMosaic.Lib.ValueIdx

noncomputable section

namespace Cert.MatchCost

open Idealize.ShloMosaic Idealize.ShloMosaic.ValueIdx
open scoped BigOperators

/-- The float literals the two programs share, as the extended reals their patterns denote. -/
local notation "c0" => Ideal.ofBits FTy.f32 0x00000000#32
local notation "c1" => Ideal.ofBits FTy.f32 0x3F800000#32
local notation "c2" => Ideal.ofBits FTy.f32 0x40000000#32
local notation "c5" => Ideal.ofBits FTy.f32 0x40A00000#32
local notation "chalf" => Ideal.ofBits FTy.f32 0x3F000000#32
local notation "c025" => Ideal.ofBits FTy.f32 0x3E800000#32
local notation "c075" => Ideal.ofBits FTy.f32 0x3F400000#32
local notation "ceps" => Ideal.ofBits FTy.f32 0x322BCC77#32

abbrev SL : Shape := ⟨2, ![16000, 256]⟩
abbrev SB : Shape := ⟨2, ![16000, 4]⟩
abbrev SLab : Shape := ⟨1, ![1600]⟩
abbrev ST : Shape := ⟨2, ![1600, 4]⟩
abbrev SOut : Shape := ⟨2, ![16000, 1600]⟩

/-! ## One score, one coordinate -/

/-- `|x|` on the extended reals. -/
def absE (x : EReal) : EReal := max x (-x)

/-- The focal class cost of one score (positive part minus negative part), squares as products and the
    negated logarithm as a difference from zero. -/
def focalK (x : EReal) : EReal :=
  (c025 * ((c1 - Ideal.logistic x) * (c1 - Ideal.logistic x))) * (c0 - Ideal.log (Ideal.logistic x + ceps))
    - (c075 * (Ideal.logistic x * Ideal.logistic x)) * (c0 - Ideal.log ((c1 - Ideal.logistic x) + ceps))

/-- The sigmoid spelt as a quotient. -/
def sigR (x : EReal) : EReal := Ideal.div c1 (c1 + Ideal.exp (-x))

/-- The positive part of the focal class cost, the square as a power. -/
def posR (x : EReal) : EReal :=
  (c025 * Ideal.pow (c1 - sigR x) c2) * (-(Ideal.log (sigR x + ceps)))

/-- The negative part of the focal class cost, the square as a power. -/
def negR (x : EReal) : EReal :=
  (c075 * Ideal.pow (sigR x) c2) * (-(Ideal.log ((c1 - sigR x) + ceps)))

/-- A box's low corner coordinate from its centre and extent, `c - s/2`; -/
def lo (c s : EReal) : EReal := c - chalf * s
/-- and its high one, `c + s/2`. -/
def hi (c s : EReal) : EReal := c + chalf * s

/-! ## Two boxes by their corners -/

/-- The area of the intersection of two boxes given by corners (each side clipped at zero). -/
def inter (x0a y0a x1a y1a x0b y0b x1b y1b : EReal) : EReal :=
  max c0 (min x1a x1b - max x0a x0b) * max c0 (min y1a y1b - max y0a y0b)

/-- The area of their union: the two areas less the intersection. -/
def union (x0a y0a x1a y1a x0b y0b x1b y1b : EReal) : EReal :=
  ((x1a - x0a) * (y1a - y0a) + (x1b - x0b) * (y1b - y0b)) - inter x0a y0a x1a y1a x0b y0b x1b y1b

/-- The area of the smallest box enclosing both. -/
def hull (x0a y0a x1a y1a x0b y0b x1b y1b : EReal) : EReal :=
  max c0 (max x1a x1b - min x0a x0b) * max c0 (max y1a y1b - min y0a y0b)

/-- `1 - giou` as `1 - I/U - U/A`. -/
def giouK (x0a y0a x1a y1a x0b y0b x1b y1b : EReal) : EReal :=
  (c1 - Ideal.div (inter x0a y0a x1a y1a x0b y0b x1b y1b) (union x0a y0a x1a y1a x0b y0b x1b y1b))
    - Ideal.div (union x0a y0a x1a y1a x0b y0b x1b y1b) (hull x0a y0a x1a y1a x0b y0b x1b y1b)

/-- `-giou` as `-(I/U - (A - U)/A)`. -/
def giouR (x0a y0a x1a y1a x0b y0b x1b y1b : EReal) : EReal :=
  -(Ideal.div (inter x0a y0a x1a y1a x0b y0b x1b y1b) (union x0a y0a x1a y1a x0b y0b x1b y1b)
    - Ideal.div (hull x0a y0a x1a y1a x0b y0b x1b y1b - union x0a y0a x1a y1a x0b y0b x1b y1b)
        (hull x0a y0a x1a y1a x0b y0b x1b y1b))

/-! ## Labels -/

/-- A label clamped into the 256 classes, as a 32-bit word: `min 255 (max 0 l)`, signed. -/
def clipw (l : BitVec 32) : BitVec 32 := IntOp.minsi 255#32 (IntOp.maxsi 0#32 l)

/-- The one-hot entry of a (clamped) label word at class `c`: 1 where the word is `c`, else 0. -/
def oneHot (w : BitVec 32) (c : Fin 256) : EReal :=
  FloatOps.uitofp (F := Ideal) FTy.bf16 (IntOp.cmpi CmpIPredicate.eq w (BitVec.ofNat 32 c.val))

/-- A word wrapped once if negative (numpy's indexing), `if w < 0 then w + 256 else w`. -/
def wrapw (w : BitVec 32) : BitVec 32 := Scalar.select (IntOp.cmpi CmpIPredicate.slt w 0#32) (IntOp.addi w 256#32) w

/-- The column an indexed read by a label takes: the clamped word, wrapped, read signed and clamped again. -/
def cls (l : BitVec 32) : Fin 256 := ⟨min (wrapw (clipw l)).toInt.toNat (256 - 1), by omega⟩

/-! ## One cell from its row and column data -/

/-- The eight numbers kept per box: centre x, centre y, width, height, then the corners x0, y0, x1, y1. -/
def boxRow (cx cy w h : EReal) : Fin 8 → EReal
  | 0 => cx | 1 => cy | 2 => w | 3 => h
  | 4 => lo cx w | 5 => lo cy h | 6 => hi cx w | 7 => hi cy h

/-- A cell of the first spelling from a query's 256 scores `f`, a target's one-hot column `oh`, and the eight
    numbers of the query's box `pc` and of the target's box `tc`. -/
def cellK (f oh : Fin 256 → EReal) (pc tc : Fin 8 → EReal) : EReal :=
  (c2 * (∑ c : Fin 256, focalK (f c) * oh c)
    + c5 * (((absE (pc 0 - tc 0) + absE (pc 1 - tc 1)) + absE (pc 2 - tc 2)) + absE (pc 3 - tc 3)))
  + c2 * giouK (pc 4) (pc 5) (pc 6) (pc 7) (tc 4) (tc 5) (tc 6) (tc 7)

/-! ## The cost of a pair -/

section
variable (L : SL.Idx → EReal) (B : SB.Idx → EReal) (lab : SLab.Idx → BitVec 32) (T : ST.Idx → EReal)

/-- The eight numbers of query `n`'s box, -/
def qRow (n : Fin 16000) : Fin 8 → EReal :=
  boxRow (B (ix2 n (0 : Fin 4))) (B (ix2 n (1 : Fin 4))) (B (ix2 n (2 : Fin 4))) (B (ix2 n (3 : Fin 4)))
/-- and of target `m`'s. -/
def tRow (m : Fin 1600) : Fin 8 → EReal :=
  boxRow (T (ix2 m (0 : Fin 4))) (T (ix2 m (1 : Fin 4))) (T (ix2 m (2 : Fin 4))) (T (ix2 m (3 : Fin 4)))

/-- The pair's cost, in the first spelling. -/
def costK (n : Fin 16000) (m : Fin 1600) : EReal :=
  cellK (fun c => L (ix2 n c)) (fun c => oneHot (clipw (lab (ix1 m))) c) (qRow B n) (tRow T m)

/-- The pair's cost, in the second spelling. -/
def costR (n : Fin 16000) (m : Fin 1600) : EReal :=
  (c5 * (c0 + ∑ k : Fin 4, absE (B (ix2 n k) - T (ix2 m k)))
    + c2 * (posR (L (ix2 n (cls (lab (ix1 m))))) - negR (L (ix2 n (cls (lab (ix1 m)))))))
  + c2 * giouR
      (lo (B (ix2 n (0 : Fin 4))) (B (ix2 n (2 : Fin 4)))) (lo (B (ix2 n (1 : Fin 4))) (B (ix2 n (3 : Fin 4))))
      (hi (B (ix2 n (0 : Fin 4))) (B (ix2 n (2 : Fin 4)))) (hi (B (ix2 n (1 : Fin 4))) (B (ix2 n (3 : Fin 4))))
      (lo (T (ix2 m (0 : Fin 4))) (T (ix2 m (2 : Fin 4)))) (lo (T (ix2 m (1 : Fin 4))) (T (ix2 m (3 : Fin 4))))
      (hi (T (ix2 m (0 : Fin 4))) (T (ix2 m (2 : Fin 4)))) (hi (T (ix2 m (1 : Fin 4))) (T (ix2 m (3 : Fin 4))))

/-- The [16000, 1600] table of costs, in each spelling. -/
def tableK : SOut.Idx → EReal := fun i => costK L B lab T (i 0) (i 1)
def tableR : SOut.Idx → EReal := fun i => costR L B lab T (i 0) (i 1)

end

end Cert.MatchCost

end
-- ==== Proof.KIHostA.lean ====
/-
  Two of the launch's four operand arrays, as the host operations before it leave them: the flattened class scores
  (a reshape of the first argument), and the one-hot table of the labels, transposed: entry `(k, t)` is one where
  target `t`'s label, clamped into the 256 classes, is class `k`, and zero elsewhere.
-/
import proofs.«425634_j60129542923_3_alg».proof.Proof.KIEntry
import proofs.«425634_j60129542923_3_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost

noncomputable section

namespace Cert.KernelIdeal.Hand

open Cert.KernelIdeal Cert.KernelIdeal.Gen Cert.MatchCost
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The scores as the launch finds them: the first argument flattened to [16000, 256]. -/
theorem V_main_v0 (c : Dev nD) : (V m c main_v0 : S16000x256.Idx → EReal) = shapeCast S16000x256 (m ((c : Thread nD τ).loc main_arg0)) shapeCasts_S16x1000x256_S16000x256 := by
  dsimp only [V, V0]
  simp only [hostOps0, hostOps0_1, hostOps0_2, hostOps0_3, List.flatten_cons, List.flatten_nil, List.append_nil, List.cons_append, List.nil_append]
  after_results
  rfl

/-- The one-hot table as the launch finds it: the labels clamped into `[0, 255]`, compared with the class index along
    the second axis, the comparison read as 0 or 1, the table transposed. -/
theorem V_main_v4_eq (c : Dev nD) : (V m c main_v4 : S256x1600.Idx → EReal) =
    transpose S256x1600 [1, 0] (uitofp (F := Ideal) .bf16 (cmpi .eq
      (broadcastInDim S1600x256 ![0, 1] bcast_S1600x1_S1600x256_0_1 (broadcastInDim S1600x1 ![0] bcast_S1600_S1600x1_0
        (minsi (broadcastInDim S1600 ![] bcast_S_S1600 (constantI S_ 32 255#32))
          (maxsi (broadcastInDim S1600 ![] bcast_S_S1600 (constantI S_ 32 0#32)) (m ((c : Thread nD τ).loc main_arg2) : S1600.Idx → BitVec 32)))))
      (broadcastInDim S1600x256 ![0, 1] bcast_S1x256_S1600x256_0_1 (iotaInDim S1x256 32 1)))) transposes_S1600x256_S256x1600_1_0 := by
  dsimp only [V, V0]
  simp only [hostOps0, hostOps0_1, hostOps0_2, hostOps0_3, List.flatten_cons, List.flatten_nil, List.append_nil, List.cons_append, List.nil_append]
  after_results
  simp only [TRef.ofBuf, TRef.toBuf, cast_eq]
  rfl

/-- Entry `(k, t)` of the one-hot table. -/
theorem V_main_v4_at (c : Dev nD) (k : Fin 256) (t : Fin 1600) :
    (V m c main_v4 : S256x1600.Idx → EReal) (ix2 k t) = oneHot (clipw ((m ((c : Thread nD τ).loc main_arg2) : S1600.Idx → BitVec 32) (ix1 t))) k := by
  rw [V_main_v4_eq, transpose_ix2_apply]
  show FloatOps.uitofp (F := Ideal) FTy.bf16 (IntOp.cmpi CmpIPredicate.eq _ _) = _
  unfold oneHot
  congr 2
  rw [broadcastInDim_apply _ bcast_S1600x1_S1600x256_0_1 _ (ix2 t k) (ix2 t (0 : Fin 1))
    (fun a => match a with | ⟨0, _⟩ => rfl | ⟨1, _⟩ => rfl),
    broadcastInDim_apply _ bcast_S1600_S1600x1_0 _ (ix2 t (0 : Fin 1)) (ix1 t) (fun a => match a with | ⟨0, _⟩ => rfl)]
  show IntOp.minsi _ (IntOp.maxsi _ _) = _
  rw [broadcastInDim_apply _ bcast_S_S1600 _ (ix1 t) ix0 (fun a => a.elim0),
    broadcastInDim_apply _ bcast_S_S1600 _ (ix1 t) ix0 (fun a => a.elim0)]
  rfl

end Cert.KernelIdeal.Hand

end
-- ==== Proof.KIHost.lean ====
/-
  What the launch's two box arrays hold, entry by entry, as functions of the arguments. The host computation keeps,
  for every box (centre x, centre y, width, height), eight numbers: the four it was given and the four corners
  `x0 = cx - w/2`, `y0 = cy - h/2`, `x1 = cx + w/2`, `y1 = cy + h/2`. Row `n` of the [16000, 8] table of query-box
  numbers is `qRow` of the flattened query boxes at `n`; column `t` of the transposed [8, 1600] table of target-box
  numbers is `tRow` of the target boxes at `t`.
-/
import proofs.«425634_j60129542923_3_alg».proof.Proof.KIEntry
import proofs.«425634_j60129542923_3_alg».proof.Proof.Spec
import Idealize.ShloMosaic.Lib.StableHlo.Run
import Idealize.ShloMosaic.Lib.ValueIdx
import Idealize.ShloMosaic.Lib.Pipeline.Value
import Idealize.ShloMosaic.Lib.Pipeline.Frame
import Idealize.ShloMosaic.Lib.ValueLayout

noncomputable section

namespace Cert.KernelIdeal.Hand

open Cert.KernelIdeal Cert.KernelIdeal.Gen
open Idealize.ShloMosaic Idealize.ShloMosaic.TcCoe Idealize.SL.Sem Idealize.ShloMosaic.StableHlo
open Cert.MatchCost Idealize.ShloMosaic.ValueIdx

variable (m : (ℓ : Loc nD τ sig) → Buf (Elt Ideal) ℓ)

/-! ## A table of boxes and its corners

For an `[n, 4]` table `X` of boxes (centre x, centre y, width, height) the host computation cuts the four columns out,
flattens each to a vector, forms the corners `c ∓ ½·s`, stands the four corner vectors up as columns again, joins them
into an `[n, 4]` table and joins that to the right of `X`. `boxTable X` is that `[n, 8]` table, and
`boxTable_apply` reads it: row `i` holds `boxRow` of row `i` of `X`. -/

section BoxTable

variable {n : Nat}

/-- The shape conditions the layout operations of the corner computation carry. -/
structure BoxFacts (n : Nat) : Prop where
  s0 : (⟨2, ![n, 4]⟩ : Shape).Slices ![0, 0] ⟨2, ![n, 1]⟩
  s1 : (⟨2, ![n, 4]⟩ : Shape).Slices ![0, 1] ⟨2, ![n, 1]⟩
  s2 : (⟨2, ![n, 4]⟩ : Shape).Slices ![0, 2] ⟨2, ![n, 1]⟩
  s3 : (⟨2, ![n, 4]⟩ : Shape).Slices ![0, 3] ⟨2, ![n, 1]⟩
  flat : (⟨2, ![n, 1]⟩ : Shape).ShapeCasts ⟨1, ![n]⟩
  splat : (⟨0, ![]⟩ : Shape).BroadcastsInDim ⟨1, ![n]⟩ ![]
  col : (⟨1, ![n]⟩ : Shape).BroadcastsInDim ⟨2, ![n, 1]⟩ ![0]
  cat4 : Shape.Concatenates [⟨2, ![n, 1]⟩, ⟨2, ![n, 1]⟩, ⟨2, ![n, 1]⟩, ⟨2, ![n, 1]⟩] ⟨2, ![n, 4]⟩ 1
  cat2 : Shape.Concatenates [⟨2, ![n, 4]⟩, ⟨2, ![n, 4]⟩] ⟨2, ![n, 8]⟩ 1

/-- Column `o` of the table as a vector: the `[n, 1]` slice at column `o`, flattened. -/
def colOf (X : FVec Ideal ⟨2, ![n, 4]⟩ .f32) (o : Nat) (hs : (⟨2, ![n, 4]⟩ : Shape).Slices ![0, o] ⟨2, ![n, 1]⟩)
    (hc : (⟨2, ![n, 1]⟩ : Shape).ShapeCasts ⟨1, ![n]⟩) : FVec Ideal ⟨1, ![n]⟩ .f32 :=
  shapeCast ⟨1, ![n]⟩ (extractStridedSlice ⟨2, ![n, 1]⟩ ![0, o] X hs) hc

/-- The constant one half as a vector of length `n`. -/
def halfOf (hb : (⟨0, ![]⟩ : Shape).BroadcastsInDim ⟨1, ![n]⟩ ![]) : FVec Ideal ⟨1, ![n]⟩ .f32 :=
  broadcastInDim ⟨1, ![n]⟩ ![] hb (constant (F := Ideal) ⟨0, ![]⟩ .f32 0x3F000000#32)

/-- A vector stood up as a one-column table. -/
def colUp (hb : (⟨1, ![n]⟩ : Shape).BroadcastsInDim ⟨2, ![n, 1]⟩ ![0]) (v : FVec Ideal ⟨1, ![n]⟩ .f32) :
    FVec Ideal ⟨2, ![n, 1]⟩ .f32 :=
  broadcastInDim ⟨2, ![n, 1]⟩ ![0] hb v

/-- The `[n, 8]` table: the boxes, then their corners `x0, y0, x1, y1`. -/
def boxTable (hf : BoxFacts n) (X : FVec Ideal ⟨2, ![n, 4]⟩ .f32) : FVec Ideal ⟨2, ![n, 8]⟩ .f32 :=
  concatenate ⟨2, ![n, 8]⟩ 1
    [⟨⟨2, ![n, 4]⟩, X⟩,
     ⟨⟨2, ![n, 4]⟩, concatenate ⟨2, ![n, 4]⟩ 1
       [⟨⟨2, ![n, 1]⟩, colUp hf.col (subf (colOf X 0 hf.s0 hf.flat) (mulf (halfOf hf.splat) (colOf X 2 hf.s2 hf.flat)))⟩,
        ⟨⟨2, ![n, 1]⟩, colUp hf.col (subf (colOf X 1 hf.s1 hf.flat) (mulf (halfOf hf.splat) (colOf X 3 hf.s3 hf.flat)))⟩,
        ⟨⟨2, ![n, 1]⟩, colUp hf.col (addf (colOf X 0 hf.s0 hf.flat) (mulf (halfOf hf.splat) (colOf X 2 hf.s2 hf.flat)))⟩,
        ⟨⟨2, ![n, 1]⟩, colUp hf.col (addf (colOf X 1 hf.s1 hf.flat) (mulf (halfOf hf.splat) (colOf X 3 hf.s3 hf.flat)))⟩]
       hf.cat4⟩]
    hf.cat2

/-- A column read at row `i` is the table at `(i, o)`: the flattening keeps the row, the slice shifts the column by `o`. -/
theorem colOf_apply (X : FVec Ideal ⟨2, ![n, 4]⟩ .f32) (o : Nat) (hs) (hc) (i : Fin n) (k : Fin 4) (hk : k.val = o) :
    colOf X o hs hc (ix1 i) = X (ix2 i k) := by
  unfold colOf
  refine (shapeCast_apply _ hc (ix1 i) (ix2 i (0 : Fin 1)) ?_).trans ?_
  · rw [Shape.rowMajor_val_two, Shape.rowMajor_val_one]
    show i.val * 1 + 0 = i.val
    omega
  · exact slice2_axis1_apply o X hs i 0 k (by rw [hk]; rfl)

/-- The vector of halves holds one half everywhere. -/
theorem halfOf_apply (hb : (⟨0, ![]⟩ : Shape).BroadcastsInDim ⟨1, ![n]⟩ ![]) (i : (⟨1, ![n]⟩ : Shape).Idx) :
    halfOf hb i = Ideal.ofBits FTy.f32 0x3F000000#32 := by
  unfold halfOf
  exact (broadcastInDim_apply _ hb _ i ix0 (fun a => a.elim0)).trans rfl

/-- A vector stood up as a column reads, at `(i, j)`, the vector at `i`. -/
theorem colUp_apply (hb) (v : FVec Ideal ⟨1, ![n]⟩ .f32) (i : Fin n) (j : Fin 1) :
    colUp hb v (ix2 i j) = v (ix1 i) := by
  unfold colUp
  refine broadcastInDim_apply _ hb v _ (ix1 i) (fun a => ?_)
  match a with
  | ⟨0, _⟩ =>
    show i.val = if n = 1 then 0 else i.val
    have := i.isLt
    split <;> omega

/-- Four one-column tables joined side by side read, in column `k`, the `k`-th of them. -/
theorem cat4_apply (hf : BoxFacts n) (u0 u1 u2 u3 : FVec Ideal ⟨2, ![n, 1]⟩ .f32) (i : Fin n) (k : Fin 4)
    (u : FVec Ideal ⟨2, ![n, 1]⟩ .f32) (hu : [u0, u1, u2, u3][k.val]? = some u) :
    concatenate ⟨2, ![n, 4]⟩ 1 [⟨⟨2, ![n, 1]⟩, u0⟩, ⟨⟨2, ![n, 1]⟩, u1⟩, ⟨⟨2, ![n, 1]⟩, u2⟩, ⟨⟨2, ![n, 1]⟩, u3⟩] hf.cat4 (ix2 i k)
      = u (ix2 i (0 : Fin 1)) := by
  have hi : ∀ (k : Fin 4) (b : Fin 2), b.cast rfl ≠ (1 : Fin 2) → ((ix2 i (0 : Fin 1)) b).val = ((ix2 i k) (b.cast rfl)).val :=
    fun _ b hb => match b with | ⟨0, _⟩ => rfl | ⟨1, _⟩ => absurd rfl hb
  match k with
  | ⟨0, _⟩ =>
    obtain rfl : u0 = u := Option.some.inj hu
    exact concatenate_apply_piece 1 [⟨⟨2, ![n, 1]⟩, u0⟩, ⟨⟨2, ![n, 1]⟩, u1⟩, ⟨⟨2, ![n, 1]⟩, u2⟩, ⟨⟨2, ![n, 1]⟩, u3⟩] hf.cat4 _ 0 (by show 0 < 4; omega) _ u0 rfl rfl 0 rfl (ix2 i 0) (hi _) rfl
  | ⟨1, _⟩ =>
    obtain rfl : u1 = u := Option.some.inj hu
    exact concatenate_apply_piece 1 [⟨⟨2, ![n, 1]⟩, u0⟩, ⟨⟨2, ![n, 1]⟩, u1⟩, ⟨⟨2, ![n, 1]⟩, u2⟩, ⟨⟨2, ![n, 1]⟩, u3⟩] hf.cat4 _ 1 (by show 1 < 4; omega) _ u1 rfl rfl 1 rfl (ix2 i 0) (hi _) rfl
  | ⟨2, _⟩ =>
    obtain rfl : u2 = u := Option.some.inj hu
    exact concatenate_apply_piece 1 [⟨⟨2, ![n, 1]⟩, u0⟩, ⟨⟨2, ![n, 1]⟩, u1⟩, ⟨⟨2, ![n, 1]⟩, u2⟩, ⟨⟨2, ![n, 1]⟩, u3⟩] hf.cat4 _ 2 (by show 2 < 4; omega) _ u2 rfl rfl 2 rfl (ix2 i 0) (hi _) rfl
  | ⟨3, _⟩ =>
    obtain rfl : u3 = u := Option.some.inj hu
    exact concatenate_apply_piece 1 [⟨⟨2, ![n, 1]⟩, u0⟩, ⟨⟨2, ![n, 1]⟩, u1⟩, ⟨⟨2, ![n, 1]⟩, u2⟩, ⟨⟨2, ![n, 1]⟩, u3⟩] hf.cat4 _ 3 (by show 3 < 4; omega) _ u3 rfl rfl 3 rfl (ix2 i 0) (hi _) rfl

/-- Two `[n, 4]` tables joined side by side read the first in columns 0 to 3, -/
theorem cat2_left (hf : BoxFacts n) (A B : FVec Ideal ⟨2, ![n, 4]⟩ .f32) (i : Fin n) (j : Fin 8) (k : Fin 4) (hk : k.val = j.val) :
    concatenate ⟨2, ![n, 8]⟩ 1 [⟨⟨2, ![n, 4]⟩, A⟩, ⟨⟨2, ![n, 4]⟩, B⟩] hf.cat2 (ix2 i j) = A (ix2 i k) :=
  concatenate_pair_apply_left 1 A B hf.cat2 (ix2 i j) rfl (ix2 i k)
    (fun b => match b with | ⟨0, _⟩ => rfl | ⟨1, _⟩ => hk)

/-- and the second in columns 4 to 7. -/
theorem cat2_right (hf : BoxFacts n) (A B : FVec Ideal ⟨2, ![n, 4]⟩ .f32) (i : Fin n) (j : Fin 8) (k : Fin 4) (hk : k.val + 4 = j.val) :
    concatenate ⟨2, ![n, 8]⟩ 1 [⟨⟨2, ![n, 4]⟩, A⟩, ⟨⟨2, ![n, 4]⟩, B⟩] hf.cat2 (ix2 i j) = B (ix2 i k) :=
  concatenate_pair_apply_right 1 A B hf.cat2 (ix2 i j) rfl rfl (ix2 i k)
    (fun b hb => match b with | ⟨0, _⟩ => rfl | ⟨1, _⟩ => absurd rfl hb) hk

/-- Row `i` of the `[n, 8]` table is the eight numbers of box `i`. -/
theorem boxTable_apply (hf : BoxFacts n) (X : FVec Ideal ⟨2, ![n, 4]⟩ .f32) (i : Fin n) (j : Fin 8) :
    boxTable hf X (ix2 i j)
      = boxRow (X (ix2 i (0 : Fin 4))) (X (ix2 i (1 : Fin 4))) (X (ix2 i (2 : Fin 4))) (X (ix2 i (3 : Fin 4))) j := by
  unfold boxTable
  match j with
  | ⟨0, _⟩ => exact cat2_left hf _ _ i _ 0 rfl
  | ⟨1, _⟩ => exact cat2_left hf _ _ i _ 1 rfl
  | ⟨2, _⟩ => exact cat2_left hf _ _ i _ 2 rfl
  | ⟨3, _⟩ => exact cat2_left hf _ _ i _ 3 rfl
  | ⟨4, _⟩ =>
    rw [cat2_right hf _ _ i _ 0 rfl, cat4_apply hf _ _ _ _ i 0 _ rfl]
    rw [colUp_apply, subf_apply, mulf_apply, halfOf_apply, colOf_apply X 0 _ _ i 0 rfl, colOf_apply X 2 _ _ i 2 rfl]
    rfl
  | ⟨5, _⟩ =>
    rw [cat2_right hf _ _ i _ 1 rfl, cat4_apply hf _ _ _ _ i 1 _ rfl]
    rw [colUp_apply, subf_apply, mulf_apply, halfOf_apply, colOf_apply X 1 _ _ i 1 rfl, colOf_apply X 3 _ _ i 3 rfl]
    rfl
  | ⟨6, _⟩ =>
    rw [cat2_right hf _ _ i _ 2 rfl, cat4_apply hf _ _ _ _ i 2 _ rfl]
    rw [colUp_apply, addf_apply, mulf_apply, halfOf_apply, colOf_apply X 0 _ _ i 0 rfl, colOf_apply X 2 _ _ i 2 rfl]
    rfl
  | ⟨7, _⟩ =>
    rw [cat2_right hf _ _ i _ 3 rfl, cat4_apply hf _ _ _ _ i 3 _ rfl]
    rw [colUp_apply, addf_apply, mulf_apply, halfOf_apply, colOf_apply X 1 _ _ i 1 rfl, colOf_apply X 3 _ _ i 3 rfl]
    rfl

end BoxTable

/-! ## The two box tables the launch finds

The query boxes' array is `boxTable` of the flattened query boxes; the target boxes' is `boxTable` of the target boxes,
transposed. Each is read off the host operations in program order: the operations after an array's own leave it as
it is, the two-operand join and the four-operand join give their operands' contents, and the operands' own
operations give theirs in turn, down to the arguments. -/

/-- The shape conditions at the 16000 query boxes, -/
theorem boxFacts_q : BoxFacts 16000 :=
  ⟨slices_S16000x4_S16000x1_0_0, slices_S16000x4_S16000x1_0_1, slices_S16000x4_S16000x1_0_2, slices_S16000x4_S16000x1_0_3,
    shapeCasts_S16000x1_S16000, bcast_S_S16000, bcast_S16000_S16000x1_0,
    concatenates_S16000x1_S16000x1_S16000x1_S16000x1_S16000x4_d1, concatenates_S16000x4_S16000x4_S16000x8_d1⟩

/-- and at the 1600 target boxes. -/
theorem boxFacts_t : BoxFacts 1600 :=
  ⟨slices_S1600x4_S1600x1_0_0, slices_S1600x4_S1600x1_0_1, slices_S1600x4_S1600x1_0_2, slices_S1600x4_S1600x1_0_3,
    shapeCasts_S1600x1_S1600, bcast_S_S1600, bcast_S1600_S1600x1_0,
    concatenates_S1600x1_S1600x1_S1600x1_S1600x1_S1600x4_d1, concatenates_S1600x4_S1600x4_S1600x8_d1⟩

/-- An operation leaves every array but its own result as it was: the later operations peeled off an earlier array. -/
macro "peel_later" : tactic =>
  `(tactic| repeat (first
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide)))

/-- Each operation's result array holds its function of its operands' contents, and every other array what it held. -/
macro "read_results" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide)))

set_option maxHeartbeats 2000000 in
/-- The query boxes' array is the box table of the flattened query boxes. -/
theorem V_main_v30 (c : Dev nD) :
    (V m c main_v30 : S16000x8.Idx → EReal)
      = boxTable boxFacts_q (shapeCast S16000x4 (m ((c : Thread nD τ).loc main_arg1)) shapeCasts_S16x1000x4_S16000x4) := by
  dsimp only [V, V0]
  simp only [hostOps0, hostOps0_1, hostOps0_2, hostOps0_3, List.flatten_cons, List.flatten_nil, List.append_nil, List.cons_append, List.nil_append]
  simp only [after_cons, after_nil]
  peel_later
  rw [binary_result, nary4_result]
  read_results
  rfl

/-- Row `n` of the query boxes' array is the eight numbers of query box `n`. -/
theorem V_main_v30_at (c : Dev nD) (n : Fin 16000) (j : Fin 8) :
    (V m c main_v30 : S16000x8.Idx → EReal) (ix2 n j) = qRow (shapeCast S16000x4 (m ((c : Thread nD τ).loc main_arg1)) shapeCasts_S16x1000x4_S16000x4) n j :=
  (congrFun (V_main_v30 m c) (ix2 n j)).trans (boxTable_apply boxFacts_q _ n j)

set_option maxHeartbeats 2000000 in
/-- The target boxes' array is the box table of the target boxes, transposed. The operations before the first slice of
    the target boxes leave the target boxes' argument as it was; the 31 operations from there on build the table. -/
theorem V_main_v57 (c : Dev nD) :
    (V m c main_v57 : S8x1600.Idx → EReal)
      = transpose S8x1600 [1, 0] (boxTable boxFacts_t (m ((c : Thread nD τ).loc main_arg3))) transposes_S1600x8_S8x1600_1_0 := by
  dsimp only [V, V0]
  simp only [List.flatten_cons, List.flatten_nil, List.append_nil]
  rw [← List.take_append_drop 31 (hostOps0_3 (F := Ideal)), after_append, after_append, after_append, after_append]
  generalize hG : after (List.take 31 hostOps0_3) (after hostOps0_2 (after hostOps0_1 (after hostOps0 fun b => m (c, b)))) = G
  have hG3 : G (Proc.devRef .tc main_arg3) = m ((c : Thread nD τ).loc main_arg3) := by
    rw [← hG]
    simp only [hostOps0, hostOps0_1, hostOps0_2, hostOps0_3, List.take_succ_cons, List.take_zero, after_cons, after_nil]
    peel_later
  simp only [hostOps0_3, List.drop_succ_cons, List.drop_zero, after_cons, after_nil]
  rw [unary_result, binary_result, nary4_result]
  read_results
  rw [hG3]
  rfl

/-- Column `t` of the target boxes' array is the eight numbers of target box `t`. -/
theorem V_main_v57_at (c : Dev nD) (j : Fin 8) (t : Fin 1600) :
    (V m c main_v57 : S8x1600.Idx → EReal) (ix2 j t) = tRow (m ((c : Thread nD τ).loc main_arg3)) t j :=
  (congrFun (V_main_v57 m c) (ix2 j t)).trans
    ((transpose_ix2_apply _ transposes_S1600x8_S8x1600_1_0 j t).trans (boxTable_apply boxFacts_t _ t j))

end Cert.KernelIdeal.Hand

end
-- ==== Proof.LibBroadcastColumn.lean ====
/-
  One column broadcast over many: a `[a, 1]` array broadcast to `[a, b]` reads, at `(p, c)`, the operand's one
  column at row `p`.  (The companion of the library's row form `broadcastTo_1b_ab_apply`: a per-row bias added to
  every column of a matrix.)
-/
import Idealize.ShloMosaic.Lib.Pipeline.Value
import Idealize.ShloMosaic.Lib.ValueIdx

namespace Idealize.ShloMosaic.ValueIdx

variable {α : Type}

/-- A `[a, 1]` array broadcast to `[a, b]` reads, at `(p, c)`, the operand's one column at `p`: the row axis is kept
    (or has extent one, and then `p = 0`), the unit column axis reads its only index. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KIPayload.lean ====
/-
  The value one grid point stores, read at an index: entry (p, q) of the block the body writes is the cost cell of
  row p of the score and query-box blocks against column q of the one-hot and target-box tables.

  Each named stage of the body is read at (p, q) in turn: a column of the query-box block is a cut along its
  second axis, a row of the target-box table a cut along its first; a column spread over the 1600 targets reads its
  row, a row spread over the 400 queries reads its column; the arithmetic stages are entry by entry; and the matrix
  product against the one-hot table is the sum over the 256 classes of the products of the entries.
-/
import proofs.«425634_j60129542923_3_alg».proof.Proof.KIFrame
import proofs.«425634_j60129542923_3_alg».proof.Proof.Spec
import proofs.«425634_j60129542923_3_alg».proof.Proof.LibBroadcastColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx
open Cert.MatchCost
open scoped BigOperators

/-- The float literals of the body, as the extended reals their patterns denote. -/
local notation "c0" => Ideal.ofBits FTy.f32 0x00000000#32
local notation "c1" => Ideal.ofBits FTy.f32 0x3F800000#32
local notation "c2" => Ideal.ofBits FTy.f32 0x40000000#32
local notation "c5" => Ideal.ofBits FTy.f32 0x40A00000#32

namespace Pay

/-! ## Spreading a column or a row over the block -/

/-- A [400, 1] column spread over the 1600 targets reads, at (p, q), its row p. -/
theorem spread_col (v : FVec Ideal S400x1 .f32) (h : S400x1.Broadcasts S400x1600) (p : Fin 400) (q : Fin 1600) :
    broadcastTo S400x1600 v h (ix2 p q) = v (ix2 p (0 : Fin 1)) :=
  broadcastTo_a1_ab_apply v h p q

/-- A [1, 1600] row spread over the 400 queries reads, at (p, q), its column q. -/
theorem spread_row (v : FVec Ideal S1x1600 .f32) (h : S1x1600.Broadcasts S400x1600) (p : Fin 400) (q : Fin 1600) :
    broadcastTo S400x1600 v h (ix2 p q) = v (ix2 (0 : Fin 1) q) :=
  broadcastTo_1b_ab_apply v h p q

/-! ## The columns of the query-box block, the rows of the target-box table -/

/-- Column k of a [400, 8] block, as a [400, 1] cut, reads at row p the block's entry (p, k). -/
theorem col_at (o : Nat) (x : FVec Ideal S400x8 .f32) (h : S400x8.Slices ![0, o] S400x1) (p : Fin 400) (k : Fin 8)
    (hk : k.val = o) : extractStridedSlice S400x1 ![0, o] x h (ix2 p (0 : Fin 1)) = x (ix2 p k) :=
  slice2_axis1_apply o x h p (0 : Fin 1) k (by rw [hk]; rfl)

/-- Row k of an [8, 1600] table, as a [1, 1600] cut, reads at column q the table's entry (k, q). -/
theorem row_at (o : Nat) (x : FVec Ideal S8x1600 .f32) (h : S8x1600.Slices ![o, 0] S1x1600) (q : Fin 1600) (k : Fin 8)
    (hk : k.val = o) : extractStridedSlice S1x1600 ![o, 0] x h (ix2 (0 : Fin 1) q) = x (ix2 k q) :=
  slice2_axis0_apply o x h (0 : Fin 1) q k (by rw [hk]; rfl)

/-- The recast of the query-box block to its own shape is the block. -/
theorem pay3_eq (x1 : Vec Ideal S400x8 .f32) : k0_pay3 x1 = x1 := by
  unfold k0_pay3; exact shapeCast_self x1 _

/-- The recast of the target-box table to its own shape is the table. -/
theorem pay4_eq (x3 : Vec Ideal S8x1600 .f32) : k0_pay4 x3 = x3 := by
  unfold k0_pay4; exact shapeCast_self x3 _

theorem pay5_at (x1 : Vec Ideal S400x8 .f32) (p : Fin 400) : k0_pay5 x1 (ix2 p (0 : Fin 1)) = x1 (ix2 p (0 : Fin 8)) := by
  unfold k0_pay5; rw [pay3_eq]; exact col_at 0 x1 _ p 0 rfl
theorem pay6_at (x1 : Vec Ideal S400x8 .f32) (p : Fin 400) : k0_pay6 x1 (ix2 p (0 : Fin 1)) = x1 (ix2 p (1 : Fin 8)) := by
  unfold k0_pay6; rw [pay3_eq]; exact col_at 1 x1 _ p 1 rfl
theorem pay7_at (x1 : Vec Ideal S400x8 .f32) (p : Fin 400) : k0_pay7 x1 (ix2 p (0 : Fin 1)) = x1 (ix2 p (2 : Fin 8)) := by
  unfold k0_pay7; rw [pay3_eq]; exact col_at 2 x1 _ p 2 rfl
theorem pay8_at (x1 : Vec Ideal S400x8 .f32) (p : Fin 400) : k0_pay8 x1 (ix2 p (0 : Fin 1)) = x1 (ix2 p (3 : Fin 8)) := by
  unfold k0_pay8; rw [pay3_eq]; exact col_at 3 x1 _ p 3 rfl
theorem pay9_at (x1 : Vec Ideal S400x8 .f32) (p : Fin 400) : k0_pay9 x1 (ix2 p (0 : Fin 1)) = x1 (ix2 p (4 : Fin 8)) := by
  unfold k0_pay9; rw [pay3_eq]; exact col_at 4 x1 _ p 4 rfl
theorem pay10_at (x1 : Vec Ideal S400x8 .f32) (p : Fin 400) : k0_pay10 x1 (ix2 p (0 : Fin 1)) = x1 (ix2 p (5 : Fin 8)) := by
  unfold k0_pay10; rw [pay3_eq]; exact col_at 5 x1 _ p 5 rfl
theorem pay11_at (x1 : Vec Ideal S400x8 .f32) (p : Fin 400) : k0_pay11 x1 (ix2 p (0 : Fin 1)) = x1 (ix2 p (6 : Fin 8)) := by
  unfold k0_pay11; rw [pay3_eq]; exact col_at 6 x1 _ p 6 rfl
theorem pay12_at (x1 : Vec Ideal S400x8 .f32) (p : Fin 400) : k0_pay12 x1 (ix2 p (0 : Fin 1)) = x1 (ix2 p (7 : Fin 8)) := by
  unfold k0_pay12; rw [pay3_eq]; exact col_at 7 x1 _ p 7 rfl

theorem pay13_at (x3 : Vec Ideal S8x1600 .f32) (q : Fin 1600) : k0_pay13 x3 (ix2 (0 : Fin 1) q) = x3 (ix2 (0 : Fin 8) q) := by
  unfold k0_pay13; rw [pay4_eq]; exact row_at 0 x3 _ q 0 rfl
theorem pay14_at (x3 : Vec Ideal S8x1600 .f32) (q : Fin 1600) : k0_pay14 x3 (ix2 (0 : Fin 1) q) = x3 (ix2 (1 : Fin 8) q) := by
  unfold k0_pay14; rw [pay4_eq]; exact row_at 1 x3 _ q 1 rfl
theorem pay15_at (x3 : Vec Ideal S8x1600 .f32) (q : Fin 1600) : k0_pay15 x3 (ix2 (0 : Fin 1) q) = x3 (ix2 (2 : Fin 8) q) := by
  unfold k0_pay15; rw [pay4_eq]; exact row_at 2 x3 _ q 2 rfl
theorem pay16_at (v31 : FVec Ideal S8x1600 .f32) (q : Fin 1600) : k0_pay16 v31 (ix2 (0 : Fin 1) q) = v31 (ix2 (4 : Fin 8) q) := by
  unfold k0_pay16; exact row_at 4 v31 _ q 4 rfl
theorem pay17_at (v31 : FVec Ideal S8x1600 .f32) (q : Fin 1600) : k0_pay17 v31 (ix2 (0 : Fin 1) q) = v31 (ix2 (5 : Fin 8) q) := by
  unfold k0_pay17; exact row_at 5 v31 _ q 5 rfl
theorem pay18_at (v31 : FVec Ideal S8x1600 .f32) (q : Fin 1600) : k0_pay18 v31 (ix2 (0 : Fin 1) q) = v31 (ix2 (6 : Fin 8) q) := by
  unfold k0_pay18; exact row_at 6 v31 _ q 6 rfl
theorem pay19_at (v31 : FVec Ideal S8x1600 .f32) (q : Fin 1600) : k0_pay19 v31 (ix2 (0 : Fin 1) q) = v31 (ix2 (7 : Fin 8) q) := by
  unfold k0_pay19; exact row_at 7 v31 _ q 7 rfl

/-! ## The arithmetic stages, entry by entry -/

/-- The query box's area, spread over the targets: (x1 - x0) · (y1 - y0) of row p's corners. -/
theorem pay22_at (v36 v37 v38 v39 : FVec Ideal S400x1 .f32) (p : Fin 400) (q : Fin 1600) :
    k0_pay22 v36 v37 v38 v39 (ix2 p q)
      = (v38 (ix2 p (0 : Fin 1)) - v36 (ix2 p (0 : Fin 1))) * (v39 (ix2 p (0 : Fin 1)) - v37 (ix2 p (0 : Fin 1))) := by
  unfold k0_pay22
  exact spread_col _ _ p q

/-- The target box's area, spread over the queries: (x1 - x0) · (y1 - y0) of column q's corners. -/
theorem pay23_at (v31 : FVec Ideal S8x1600 .f32) (p : Fin 400) (q : Fin 1600) :
    k0_pay23 v31 (ix2 p q)
      = (v31 (ix2 (6 : Fin 8) q) - v31 (ix2 (4 : Fin 8) q)) * (v31 (ix2 (7 : Fin 8) q) - v31 (ix2 (5 : Fin 8) q)) := by
  unfold k0_pay23
  refine (spread_row _ _ p q).trans ?_
  simp only [mulf_apply, subf_apply, pay16_at, pay17_at, pay18_at, pay19_at]

/-- The intersection's area: each side the gap between the lesser high corner and the greater low corner, cut at zero. -/
theorem pay21_at (v31 : FVec Ideal S8x1600 .f32) (v36 v37 v38 v39 : FVec Ideal S400x1 .f32) (p : Fin 400) (q : Fin 1600) :
    k0_pay21 v31 v36 v37 v38 v39 (ix2 p q)
      = max c0 (min (v38 (ix2 p (0 : Fin 1))) (v31 (ix2 (6 : Fin 8) q)) - max (v36 (ix2 p (0 : Fin 1))) (v31 (ix2 (4 : Fin 8) q)))
        * max c0 (min (v39 (ix2 p (0 : Fin 1))) (v31 (ix2 (7 : Fin 8) q)) - max (v37 (ix2 p (0 : Fin 1))) (v31 (ix2 (5 : Fin 8) q))) := by
  unfold k0_pay21
  simp only [mulf_apply, subf_apply, maximumf_apply, minimumf_apply, broadcast_apply, Ideal.ofBits_def, spread_col, spread_row,
    pay16_at, pay17_at, pay18_at, pay19_at]

/-- Twice the class term plus five times the L1 distance of the two boxes' centres and extents. -/
theorem pay20_at (v27 : FVec Ideal S400x1600 .f32) (v31 : FVec Ideal S8x1600 .f32) (v32 v33 v34 v35 : FVec Ideal S400x1 .f32)
    (v40 v41 v42 : FVec Ideal S1x1600 .f32) (p : Fin 400) (q : Fin 1600) :
    k0_pay20 v27 v31 v32 v33 v34 v35 v40 v41 v42 (ix2 p q)
      = c2 * v27 (ix2 p q)
        + c5 * (((absE (v32 (ix2 p (0 : Fin 1)) - v40 (ix2 (0 : Fin 1) q)) + absE (v33 (ix2 p (0 : Fin 1)) - v41 (ix2 (0 : Fin 1) q)))
            + absE (v34 (ix2 p (0 : Fin 1)) - v42 (ix2 (0 : Fin 1) q))) + absE (v35 (ix2 p (0 : Fin 1)) - v31 (ix2 (3 : Fin 8) q))) := by
  unfold k0_pay20
  have habs : ∀ (v : FVec Ideal S400x1600 .f32) (i : S400x1600.Idx), absf v i = absE (v i) := fun _ _ => rfl
  simp only [mulf_apply, addf_apply, subf_apply, habs, broadcast_apply, Ideal.ofBits_def, spread_col, spread_row,
    row_at 3 v31 _ q 3 rfl]

/-- The stored value from its named parts: the class and L1 terms plus twice (1 - I/U - U/A), A the hull's area. -/
theorem pay1_at (v36 v37 v38 v39 : FVec Ideal S400x1 .f32) (v44 v45 v46 v47 : FVec Ideal S1x1600 .f32)
    (v71 v96 v97 v98 : FVec Ideal S400x1600 .f32) (p : Fin 400) (q : Fin 1600) :
    k0_pay1 v36 v37 v38 v39 v44 v45 v46 v47 v71 v96 v97 v98 (ix2 p q)
      = v71 (ix2 p q)
        + c2 * ((c1 - Ideal.div (v96 (ix2 p q)) ((v97 (ix2 p q) + v98 (ix2 p q)) - v96 (ix2 p q)))
            - Ideal.div ((v97 (ix2 p q) + v98 (ix2 p q)) - v96 (ix2 p q))
                (max c0 (max (v38 (ix2 p (0 : Fin 1))) (v46 (ix2 (0 : Fin 1) q)) - min (v36 (ix2 p (0 : Fin 1))) (v44 (ix2 (0 : Fin 1) q)))
                  * max c0 (max (v39 (ix2 p (0 : Fin 1))) (v47 (ix2 (0 : Fin 1) q)) - min (v37 (ix2 p (0 : Fin 1))) (v45 (ix2 (0 : Fin 1) q))))) := by
  unfold k0_pay1
  simp only [mulf_apply, addf_apply, subf_apply, divf_apply, maximumf_apply, minimumf_apply, broadcast_apply, Ideal.ofBits_def,
    spread_col, spread_row]

/-! ## The class term: the product against the one-hot table -/

/-- The product's left operand is read at (row of the result, contracted class) … -/
theorem lhs_dot_0 (j : S400x1600.Idx) (k : dot_S400x256_S256x1600_S400x1600_1_0_0_1_n_n.contr.Idx) :
    (dot_S400x256_S256x1600_S400x1600_1_0_0_1_n_n.lhsIdx j k 0).val = (j 0).val := rfl
theorem lhs_dot_1 (j : S400x1600.Idx) (k : dot_S400x256_S256x1600_S400x1600_1_0_0_1_n_n.contr.Idx) :
    (dot_S400x256_S256x1600_S400x1600_1_0_0_1_n_n.lhsIdx j k 1).val = (k ⟨0, Nat.one_pos⟩).val :=
  dot_S400x256_S256x1600_S400x1600_1_0_0_1_n_n.lhsIdx_val_of_single rfl j k
/-- … and its right operand at (contracted class, column of the result). -/
theorem rhs_dot_0 (j : S400x1600.Idx) (k : dot_S400x256_S256x1600_S400x1600_1_0_0_1_n_n.contr.Idx) :
    (dot_S400x256_S256x1600_S400x1600_1_0_0_1_n_n.rhsIdx j k 0).val = (k ⟨0, Nat.one_pos⟩).val :=
  dot_S400x256_S256x1600_S400x1600_1_0_0_1_n_n.rhsIdx_val_of_single rfl j k
theorem rhs_dot_1 (j : S400x1600.Idx) (k : dot_S400x256_S256x1600_S400x1600_1_0_0_1_n_n.contr.Idx) :
    (dot_S400x256_S256x1600_S400x1600_1_0_0_1_n_n.rhsIdx j k 1).val = (j 1).val := rfl

/-- The class term at (p, q): the sum over the 256 classes of the focal cost of row p's score times the one-hot
    table's entry for target q (the narrowing of the focal cost before the product is the identity on extended reals). -/
theorem pay2_at (x0 : Vec Ideal S400x256 .f32) (x2 : Vec Ideal S256x1600 .bf16) (p : Fin 400) (q : Fin 1600) :
    k0_pay2 x0 x2 (ix2 p q) = ∑ c : Fin 256, focalK (x0 (ix2 p c)) * x2 (ix2 c q) := by
  unfold k0_pay2
  refine (Ideal.matmul_constant_zero_apply dot_S400x256_S256x1600_S400x1600_1_0_0_1_n_n none _ _ (ix2 p q)).trans ?_
  rw [← Equiv.sum_comp (contrEquiv1 dot_S400x256_S256x1600_S400x1600_1_0_0_1_n_n 256 rfl rfl).symm]
  refine Finset.sum_congr rfl fun c _ => ?_
  have hc := contrEquiv1_symm_val dot_S400x256_S256x1600_S400x1600_1_0_0_1_n_n 256 rfl rfl c
  have hl : dot_S400x256_S256x1600_S400x1600_1_0_0_1_n_n.lhsIdx (ix2 p q)
      ((contrEquiv1 dot_S400x256_S256x1600_S400x1600_1_0_0_1_n_n 256 rfl rfl).symm c) = ix2 p c := by
    funext a; refine Fin.ext ?_
    match a with
    | ⟨0, _⟩ => exact lhs_dot_0 _ _
    | ⟨1, _⟩ => exact (lhs_dot_1 _ _).trans hc
  have hr : dot_S400x256_S256x1600_S400x1600_1_0_0_1_n_n.rhsIdx (ix2 p q)
      ((contrEquiv1 dot_S400x256_S256x1600_S400x1600_1_0_0_1_n_n 256 rfl rfl).symm c) = ix2 c q := by
    funext a; refine Fin.ext ?_
    match a with
    | ⟨0, _⟩ => exact (rhs_dot_0 _ _).trans hc
    | ⟨1, _⟩ => exact rhs_dot_1 _ _
  rw [hl, hr]
  simp only [shapeCast_self]
  rfl

end Pay

open Pay

/-! ## The stored value at (p, q) -/

/-- Entry (p, q) of what the body stores is the cost cell of row p of the score and query-box blocks against
    column q of the one-hot and target-box tables. -/
theorem bodyOut_at (x0 : Vec Ideal S400x256 .f32) (x1 : Vec Ideal S400x8 .f32) (x2 : Vec Ideal S256x1600 .bf16)
    (x3 : Vec Ideal S8x1600 .f32) (p : Fin 400) (q : Fin 1600) :
    bodyOut (F := Ideal) x0 x1 x2 x3 (ix2 p q)
      = cellK (fun c : Fin 256 => x0 (ix2 p c)) (fun c : Fin 256 => x2 (ix2 c q)) (fun j : Fin 8 => x1 (ix2 p j))
          (fun j : Fin 8 => x3 (ix2 j q)) := by
  unfold bodyOut
  rw [pay1_at, pay20_at, pay21_at, pay22_at, pay23_at, pay2_at]
  simp only [pay4_eq, pay5_at, pay6_at, pay7_at, pay8_at, pay9_at, pay10_at, pay11_at, pay12_at, pay13_at, pay14_at, pay15_at,
    pay16_at, pay17_at, pay18_at, pay19_at]
  rfl

end Cert.KernelIdeal.Hand

end
-- ==== Proof.KIValue.lean ====
/-
  What the kernel program computes: the [16000, 1600] table the launch leaves is the table of pair costs, in the
  spelling `Cert.MatchCost.tableK`, of the flattened scores, the flattened query boxes, the labels and the target
  boxes; the program's result is that table reshaped to [16, 1000, 1600].

  Grid point `t` computes rows `400 t … 400 t + 399`: its scores block and its block of the query-box table are those
  rows, the one-hot table and the target-box table are whole at every point, and the value the body stores, read at
  row `p` and column `q`, is the cost of query `400 t + p` against target `q`. The forty blocks tile the table, so the
  table after the launch is the cost of every pair.
-/
import proofs.«425634_j60129542923_3_alg».proof.Proof.KIFrame
import proofs.«425634_j60129542923_3_alg».proof.Proof.KIHostA
import proofs.«425634_j60129542923_3_alg».proof.Proof.KIHost
import proofs.«425634_j60129542923_3_alg».proof.Proof.KIPayload
import proofs.«425634_j60129542923_3_alg».proof.Proof.Spec
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen Cert.MatchCost
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The flattened class scores, the flattened query boxes, the labels and the target boxes, as launched. -/
abbrev Lm (c : Dev nD) : S16000x256.Idx → EReal := shapeCast S16000x256 (m ((c : Thread nD τ).loc main_arg0)) shapeCasts_S16x1000x256_S16000x256
abbrev Bm (c : Dev nD) : S16000x4.Idx → EReal := shapeCast S16000x4 (m ((c : Thread nD τ).loc main_arg1)) shapeCasts_S16x1000x4_S16000x4
abbrev labm (c : Dev nD) : S1600.Idx → BitVec 32 := m ((c : Thread nD τ).loc main_arg2)
abbrev Tm (c : Dev nD) : S1600x4.Idx → EReal := m ((c : Thread nD τ).loc main_arg3)

/-- A block is read from, and stored to, its buffer's origin. -/
theorem hz : (![0, 0] : Fin 2 → Nat) = fun _ => 0 := funext fun a => by fin_cases a <;> rfl

/-- The five windows' block indices at point `t`: the scores, the query-box table and the output move down one block
    per point; the one-hot table and the target-box table stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The scores' block at point `t` is rows `400 t …` of the flattened scores. -/
theorem iblk0_at (c : Dev nD) (t : Fin cfg0.N) (p : Fin 400) (k : Fin 256) (n : Fin 16000) (hn : n.val = t.val * 400 + p.val) :
    (iblk m c 0 t : S400x256.Idx → EReal) (ix2 p k) = Lm m c (ix2 n k) := by
  obtain ⟨e0, e1, -⟩ := idx_facts t
  unfold iblk
  rw [View.read_apply]
  show (V m c main_v0 : S16000x256.Idx → EReal) _ = _
  rw [V_main_v0]
  congr 1
  funext a
  apply Fin.ext
  match a with
  | ⟨0, _⟩ => show win0_0.index t (0 : Fin 2) * 400 + 1 * p.val = n.val; omega
  | ⟨1, _⟩ => show win0_0.index t (1 : Fin 2) * 256 + 1 * k.val = k.val; omega

/-- The query-box table's block at point `t` is rows `400 t …` of the table: row `n` holds query `n`'s eight numbers. -/
theorem iblk1_at (c : Dev nD) (t : Fin cfg0.N) (p : Fin 400) (j : Fin 8) (n : Fin 16000) (hn : n.val = t.val * 400 + p.val) :
    (iblk m c 1 t : S400x8.Idx → EReal) (ix2 p j) = qRow (Bm m c) n j := by
  obtain ⟨-, -, e0, e1, -⟩ := idx_facts t
  unfold iblk
  rw [View.read_apply]
  show (V m c main_v30 : S16000x8.Idx → EReal) _ = _
  rw [← V_main_v30_at m c n j]
  congr 1
  funext a
  apply Fin.ext
  match a with
  | ⟨0, _⟩ => show win0_1.index t (0 : Fin 2) * 400 + 1 * p.val = n.val; omega
  | ⟨1, _⟩ => show win0_1.index t (1 : Fin 2) * 8 + 1 * j.val = j.val; omega

/-- The one-hot table is one block: column `q` is target `q`'s clamped label, one-hot over the 256 classes. -/
theorem iblk2_at (c : Dev nD) (t : Fin cfg0.N) (k : Fin 256) (q : Fin 1600) :
    (iblk m c 2 t : S256x1600.Idx → EReal) (ix2 k q) = oneHot (clipw (labm m c (ix1 q))) k := by
  obtain ⟨-, -, -, -, e0, e1, -⟩ := idx_facts t
  unfold iblk
  rw [View.read_apply]
  show (V m c main_v4 : S256x1600.Idx → EReal) _ = _
  rw [← V_main_v4_at m c k q]
  congr 1
  funext a
  apply Fin.ext
  match a with
  | ⟨0, _⟩ => show win0_2.index t (0 : Fin 2) * 256 + 1 * k.val = k.val; omega
  | ⟨1, _⟩ => show win0_2.index t (1 : Fin 2) * 1600 + 1 * q.val = q.val; omega

/-- The target-box table is one block: column `q` holds target `q`'s eight numbers. -/
theorem iblk3_at (c : Dev nD) (t : Fin cfg0.N) (j : Fin 8) (q : Fin 1600) :
    (iblk m c 3 t : S8x1600.Idx → EReal) (ix2 j q) = tRow (Tm m c) q j := by
  obtain ⟨-, -, -, -, -, -, e0, e1, -⟩ := idx_facts t
  unfold iblk
  rw [View.read_apply]
  show (V m c main_v57 : S8x1600.Idx → EReal) _ = _
  rw [← V_main_v57_at m c j q]
  congr 1
  funext a
  apply Fin.ext
  match a with
  | ⟨0, _⟩ => show win0_3.index t (0 : Fin 2) * 8 + 1 * j.val = j.val; omega
  | ⟨1, _⟩ => show win0_3.index t (1 : Fin 2) * 1600 + 1 * q.val = q.val; omega

/-- WHAT POINT t WRITES BACK is block t of the cost table. -/
theorem flushed4_eq (c : Dev nD) (t : Fin cfg0.N) :
    (dats m 0 c).flushed 4 t = ((cfg0.win 4).blk t).view.read (Elt Ideal) (tableK (Lm m c) (Bm m c) (labm m c) (Tm m c)) := by
  show (cfg0.win 4).cut (grid0.coords t) ((dats m 0 c).after 4 t) = _
  rw [after0_4]
  unfold out0_4
  rw [View.canon_unit_zero hz]
  simp only [View.ld_unit_zero (S := S400x256) hz, View.ld_unit_zero (S := S400x8) hz, View.ld_unit_zero (S := S256x1600) hz, View.ld_unit_zero (S := S8x1600) hz]
  obtain ⟨-, -, -, -, -, -, -, -, e0, e1⟩ := idx_facts t
  funext j
  obtain ⟨p, q, rfl⟩ : ∃ (p : Fin 400) (q : Fin 1600), j = ix2 p q := ⟨j 0, j 1, eq_ix2 j⟩
  have hp : p.val < 400 := p.isLt
  have ht : t.val < 40 := lt_of_lt_of_eq t.isLt N_0
  let n : Fin 16000 := ⟨t.val * 400 + p.val, by omega⟩
  show bodyOut (iblk m c 0 t) (iblk m c 1 t) (iblk m c 2 t) (iblk m c 3 t) (ix2 p q) = tableK (Lm m c) (Bm m c) (labm m c) (Tm m c) (((cfg0.win 4).blk t).view.emb (ix2 p q))
  have hemb : ((cfg0.win 4).blk t).view.emb (ix2 p q) = ix2 n q := by
    funext a
    apply Fin.ext
    match a with
    | ⟨0, _⟩ => show win0_4.index t (0 : Fin 2) * 400 + 1 * p.val = t.val * 400 + p.val; omega
    | ⟨1, _⟩ => show win0_4.index t (1 : Fin 2) * 1600 + 1 * q.val = q.val; omega
  have h0 : (fun k : Fin 256 => (iblk m c 0 t : S400x256.Idx → EReal) (ix2 p k)) = fun k => Lm m c (ix2 n k) :=
    funext fun k => iblk0_at m c t p k n rfl
  have h2 : (fun k : Fin 256 => (iblk m c 2 t : S256x1600.Idx → EReal) (ix2 k q)) = fun k => oneHot (clipw (labm m c (ix1 q))) k :=
    funext fun k => iblk2_at m c t k q
  have h1 : (fun j : Fin 8 => (iblk m c 1 t : S400x8.Idx → EReal) (ix2 p j)) = qRow (Bm m c) n :=
    funext fun j => iblk1_at m c t p j n rfl
  have h3 : (fun j : Fin 8 => (iblk m c 3 t : S8x1600.Idx → EReal) (ix2 j q)) = tRow (Tm m c) q :=
    funext fun j => iblk3_at m c t j q
  refine ((bodyOut_at (iblk m c 0 t) (iblk m c 1 t) (iblk m c 2 t) (iblk m c 3 t) p q).trans ?_).trans
    (congrArg (tableK (Lm m c) (Bm m c) (labm m c) (Tm m c)) hemb.symm)
  rw [h0, h1, h2, h3]
  rfl

/-- An index of the table is in point t's block iff each coordinate is in the block's range on its axis. -/
theorem mem_blk4 (t : Fin cfg0.N) (i : S16000x1600.Idx) :
    i ∈ ((cfg0.win 4).blk t).view.set ↔ ∀ a : Fin 2, win0_4.index t a * S400x1600.size a ≤ (i a).val ∧ (i a).val < win0_4.index t a * S400x1600.size a + S400x1600.size a := by
  show i ∈ ((View.whole main_v58).slice (win0_4.rect t)).set ↔ _
  rw [View.set_slice_whole, Rect.mem_set_unit]
  exact Iff.rfl

/-- Every row of the table lies in the block of the point that computes it: row r in point r / 400's. -/
theorem cover4 (i : S16000x1600.Idx) : ∃ t : Fin cfg0.N, (cfg0.win 4).flush t = true ∧ i ∈ ((cfg0.win 4).blk t).view.set := by
  have hi0 : (i 0).val < 16000 := (i 0).isLt
  have hi1 : (i 1).val < 1600 := (i 1).isLt
  let t : Fin cfg0.N := ⟨(i 0).val / 400, lt_of_lt_of_eq (by omega : (i 0).val / 400 < 40) N_0.symm⟩
  obtain ⟨-, -, -, -, -, -, -, -, e0, e1⟩ := idx_facts t
  have e0' : win0_4.index t (0 : Fin 2) = (i 0).val / 400 := e0
  refine ⟨t, flush0_4 t, ?_⟩
  rw [mem_blk4]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 1600 ≤ (i 1).val ∧ (i 1).val < win0_4.index t (1 : Fin 2) * 1600 + 1600; omega

/-- THE TABLE after the launch: the cost of every pair. -/
theorem final4 (c : Dev nD) : (dats m 0 c).arrAt 4 cfg0.N = tableK (Lm m c) (Bm m c) (labm m c) (Tm m c) :=
  (dats m 0 c).arrAt_eq_of_cover 4 (tableK (Lm m c) (Bm m c) (labm m c) (Tm m c)) (fun t _ => flushed4_eq m c t) (cover4)

/-- The program's result: the table reshaped to [16, 1000, 1600]. -/
theorem tail_v59 (c : Dev nD) :
    Pipeline.afterTail₀ cfgs (dats m) 0 (V0 m) [hostOps1] c main_v59
      = shapeCast S16x1000x1600 (tableK (Lm m c) (Bm m c) (labm m c) (Tm m c)) shapeCasts_S16000x1600_S16x1000x1600 := by
  unfold Pipeline.afterTail₀
  show StableHlo.after hostOps1 _ (Proc.devRef .tc main_v59) = _
  after_results
  exact congrArg (fun x : S16000x1600.Idx → EReal => shapeCast S16x1000x1600 x shapeCasts_S16000x1600_S16x1000x1600)
    ((Pipeline.withArrays_arr spec0 launch0.win.arr_inj c _ _ 4).trans (final4 m c))

/-- The run, read: the program's result is the table of pair costs reshaped, and the four arguments end as launched. -/
theorem run_value : θ_run defs (onTc (τ := τ) (main (F := Ideal))) ⟨m, fun _ => 0, ρ⟩ (fun r => ∀ c : Dev nD,
      r.2.mem ((c.tc : Thread nD τ).loc main_v59)
        = shapeCast S16x1000x1600 (tableK (Lm m c) (Bm m c) (labm m c) (Tm m c)) shapeCasts_S16000x1600_S16x1000x1600
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).2 main_v59 (Pipeline.mem_restRefs_of main_v59 (by decide) (by decide))).trans (tail_v59 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Hand

end
-- ==== Proof.RefClass.lean ====
/-
  The reference's class cost and box distance, read at one (query, target) pair.

  The class cost of pair (n, m) is the positive part less the negative part of the focal cost, each read from the
  [16000, 256] table of per-class values at row n and at the column the target's label selects: the label clamped
  into the 256 classes, wrapped once if negative, read signed and clamped again. The box distance is the sum, from
  zero, over the four coordinates of |B[n, k] - T[m, k]|.
-/
import proofs.«425634_j60129542923_3_alg».proof.Proof.Gen.ReferenceIdeal.Read
import proofs.«425634_j60129542923_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Cert.MatchCost
open scoped BigOperators

/-! ## A row of a table read at a column chosen by a word -/

/-- The dimension numbers of the indexed read: result axis 0 is the table's row, result axis 1 runs over the words. -/
abbrev gd : GatherDims S16000x256 S1600x1 S16000x1600 := gather_S16000x256_S1600x1_S16000x1600_0_1_n_n_1_1_160001

/-- The indexed read of a [16000, 256] table by a [1600, 1] column of words: entry (n, m) is the table's at row n
    and at the column word m gives, read signed and clamped into [0, 255]. -/
theorem gather_at {α : Type} (x : S16000x256.Idx → α) (idx : IVec S1600x1 32) (n : Fin 16000) (m : Fin 1600) :
    Host.gather gather_S16000x256_S1600x1_S16000x1600_0_1_n_n_1_1_160001 x idx (ix2 n m)
      = x (ix2 n ⟨min (idx (ix2 m (0 : Fin 1))).toInt.toNat (256 - 1), by omega⟩) := by
  unfold Host.gather
  congr 1
  funext a
  refine Fin.ext ?_
  match a with
  | ⟨0, _⟩ =>
    show gd.start (ix2 n m) idx 0 + gd.batchCoord (ix2 n m) 0 + gd.offCoord (ix2 n m) 0 = n.val
    rw [GatherDims.batchCoord_eq_zero _ _ _ List.not_mem_nil]
    unfold GatherDims.start
    rw [dif_neg (show ¬ (0 : Fin 2) ∈ gd.startIndexMap by decide)]
    unfold GatherDims.offCoord
    rw [dif_pos (show (0 : Fin 2) ∈ gd.sKept by decide), Nat.zero_add]
    rfl
  | ⟨1, _⟩ =>
    show gd.start (ix2 n m) idx 1 + gd.batchCoord (ix2 n m) 1 + gd.offCoord (ix2 n m) 1
      = min (idx (ix2 m (0 : Fin 1))).toInt.toNat (256 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gd.startIndexMap from List.mem_singleton.mpr rfl)]
    have hsi : gd.siIdx (ix2 n m) ⟨List.idxOf (1 : Fin 2) gd.startIndexMap,
        List.idxOf_lt_length_iff.2 (List.mem_singleton.mpr rfl)⟩ = ix2 m (0 : Fin 1) := by
      funext b; refine Fin.ext ?_
      match b with
      | ⟨0, _⟩ => rfl
      | ⟨1, _⟩ => rfl
    rw [hsi]
    rfl

/-! ## The label's column -/

/-- The clamped label: `min 255 (max 0 l)`, signed. -/
theorem clip_at (x2 : (⟨S1600, .i32⟩ : BufTy).Contents (Elt Ideal)) (i : S1600.Idx) :
    val_main_v8 (F := Ideal) x2 i = clipw (x2 i) := by
  rw [val_main_v8_apply, val_main_call0_v4_apply, val_main_call0_v3_apply, val_main_c_1_apply,
    val_main_call0_v2_apply, val_main_call0_v1_apply, val_main_call0_v0_apply, val_main_c_apply]
  rfl

/-- The clamped label wrapped once if negative, as the positive part's read spells it, -/
theorem wrap_pos_at (x2 : (⟨S1600, .i32⟩ : BufTy).Contents (Elt Ideal)) (i : S1600.Idx) :
    val_main_v35 (F := Ideal) x2 i = wrapw (clipw (x2 i)) := by
  rw [val_main_v35_apply, val_main_v32_apply, val_main_v31_apply, val_main_c_10_apply, val_main_v34_apply,
    val_main_v33_apply, val_main_c_11_apply, clip_at]
  rfl

/-- and as the negative part's read spells it. -/
theorem wrap_neg_at (x2 : (⟨S1600, .i32⟩ : BufTy).Contents (Elt Ideal)) (i : S1600.Idx) :
    val_main_v42 (F := Ideal) x2 i = wrapw (clipw (x2 i)) := by
  rw [val_main_v42_apply, val_main_v39_apply, val_main_v38_apply, val_main_c_12_apply, val_main_v41_apply,
    val_main_v40_apply, val_main_c_13_apply, clip_at]
  rfl

/-- The column of words the positive part's read takes: word m is target m's wrapped clamped label, -/
theorem col_pos_at (x2 : (⟨S1600, .i32⟩ : BufTy).Contents (Elt Ideal)) (m : Fin 1600) :
    val_main_v36 (F := Ideal) x2 (ix2 m (0 : Fin 1)) = wrapw (clipw (x2 (ix1 m))) := by
  have e : idx_main_v36 (ix2 m (0 : Fin 1)) = ix1 m :=
    funext fun a => Fin.ext (by match a with | ⟨0, _⟩ => rfl)
  rw [val_main_v36_apply, e, wrap_pos_at]

/-- and the same for the negative part's. -/
theorem col_neg_at (x2 : (⟨S1600, .i32⟩ : BufTy).Contents (Elt Ideal)) (m : Fin 1600) :
    val_main_v43 (F := Ideal) x2 (ix2 m (0 : Fin 1)) = wrapw (clipw (x2 (ix1 m))) := by
  have e : idx_main_v43 (ix2 m (0 : Fin 1)) = ix1 m :=
    funext fun a => Fin.ext (by match a with | ⟨0, _⟩ => rfl)
  rw [val_main_v43_apply, e, wrap_neg_at]

/-! ## The two parts of the focal cost, score by score -/

/-- The sigmoid of a score, spelt as the quotient `1 / (1 + exp (-x))`. -/
theorem sig_at (x0 : (⟨S16x1000x256, .f32⟩ : BufTy).Contents (Elt Ideal)) (j : S16000x256.Idx) :
    val_main_v6 (F := Ideal) x0 j = sigR (val_main_v0 (F := Ideal) x0 j) := by
  rw [val_main_v6_apply, val_main_v5_apply, val_main_cst_0_apply, val_main_v4_apply, val_main_v3_apply,
    val_main_cst_apply, val_main_v2_apply, val_main_v1_apply]
  simp only [Ideal.hostDivf_def, Ideal.addf_def, Ideal.hostUnary_exp_def, Ideal.hostNegf_def, Ideal.negf_def,
    Ideal.ofBits_def]
  rfl

/-- The positive part: `0.25 · (1 - p)^2 · (-(log (p + eps)))` at the score's sigmoid `p`. -/
theorem pos_at (x0 : (⟨S16x1000x256, .f32⟩ : BufTy).Contents (Elt Ideal)) (j : S16000x256.Idx) :
    val_main_v30 (F := Ideal) x0 j = posR (val_main_v0 (F := Ideal) x0 j) := by
  rw [val_main_v30_apply, val_main_v25_apply, val_main_v24_apply, val_main_cst_8_apply, val_main_v23_apply,
    val_main_v21_apply, val_main_v20_apply, val_main_cst_6_apply, val_main_v22_apply, val_main_cst_7_apply,
    val_main_v29_apply, val_main_v28_apply, val_main_v27_apply, val_main_v26_apply, val_main_cst_9_apply, sig_at]
  simp only [Ideal.mulf_def, Ideal.subf_def, Ideal.addf_def, Ideal.hostPowf_def, Ideal.hostUnary_log_def,
    Ideal.hostNegf_def, Ideal.negf_def, Ideal.ofBits_def]
  rfl

/-- The negative part: `0.75 · p^2 · (-(log ((1 - p) + eps)))`. -/
theorem neg_at (x0 : (⟨S16x1000x256, .f32⟩ : BufTy).Contents (Elt Ideal)) (j : S16000x256.Idx) :
    val_main_v19 (F := Ideal) x0 j = negR (val_main_v0 (F := Ideal) x0 j) := by
  rw [val_main_v19_apply, val_main_v12_apply, val_main_v11_apply, val_main_cst_3_apply, val_main_v10_apply,
    val_main_v9_apply, val_main_cst_2_apply, val_main_v18_apply, val_main_v17_apply, val_main_v16_apply,
    val_main_v14_apply, val_main_v13_apply, val_main_cst_4_apply, val_main_v15_apply, val_main_cst_5_apply, sig_at]
  simp only [Ideal.mulf_def, Ideal.subf_def, Ideal.addf_def, Ideal.hostPowf_def, Ideal.hostUnary_log_def,
    Ideal.hostNegf_def, Ideal.negf_def, Ideal.ofBits_def]
  rfl

/-! ## The class cost of a pair -/

/-- The column a label word selects is the specification's: the word read signed and clamped into [0, 255]. -/
theorem col_eq (w l : BitVec 32) (hl : w = wrapw (clipw l)) (hw : min w.toInt.toNat (256 - 1) < 256) :
    (⟨min w.toInt.toNat (256 - 1), hw⟩ : Fin 256) = cls l := by
  subst hl; rfl

/-- The positive part read at the target's label column, -/
theorem pos_read_at (x0 : (⟨S16x1000x256, .f32⟩ : BufTy).Contents (Elt Ideal)) (x2 : (⟨S1600, .i32⟩ : BufTy).Contents (Elt Ideal))
    (n : Fin 16000) (m : Fin 1600) :
    val_main_v37 (F := Ideal) x0 x2 (ix2 n m) = posR (val_main_v0 (F := Ideal) x0 (ix2 n (cls (x2 (ix1 m))))) := by
  unfold val_main_v37
  refine (gather_at (val_main_v30 (F := Ideal) x0) (val_main_v36 (F := Ideal) x2) n m).trans ?_
  refine (pos_at x0 _).trans ?_
  exact congrArg (fun c : Fin 256 => posR (val_main_v0 (F := Ideal) x0 (ix2 n c)))
    (col_eq _ (x2 (ix1 m)) (col_pos_at x2 m) _)

/-- and the negative part. -/
theorem neg_read_at (x0 : (⟨S16x1000x256, .f32⟩ : BufTy).Contents (Elt Ideal)) (x2 : (⟨S1600, .i32⟩ : BufTy).Contents (Elt Ideal))
    (n : Fin 16000) (m : Fin 1600) :
    val_main_v44 (F := Ideal) x0 x2 (ix2 n m) = negR (val_main_v0 (F := Ideal) x0 (ix2 n (cls (x2 (ix1 m))))) := by
  unfold val_main_v44
  refine (gather_at (val_main_v19 (F := Ideal) x0) (val_main_v43 (F := Ideal) x2) n m).trans ?_
  refine (neg_at x0 _).trans ?_
  exact congrArg (fun c : Fin 256 => negR (val_main_v0 (F := Ideal) x0 (ix2 n c)))
    (col_eq _ (x2 (ix1 m)) (col_neg_at x2 m) _)

/-- The class cost of query n against target m: the positive part less the negative part of the focal cost of
    query n's score at the target's label column. -/
theorem class_at (x0 : (⟨S16x1000x256, .f32⟩ : BufTy).Contents (Elt Ideal)) (x2 : (⟨S1600, .i32⟩ : BufTy).Contents (Elt Ideal))
    (n : Fin 16000) (m : Fin 1600) :
    val_main_v45 (F := Ideal) x0 x2 (ix2 n m)
      = posR (val_main_v0 (F := Ideal) x0 (ix2 n (cls (x2 (ix1 m)))))
        - negR (val_main_v0 (F := Ideal) x0 (ix2 n (cls (x2 (ix1 m))))) := by
  rw [val_main_v45_apply, pos_read_at, neg_read_at]
  rfl

/-! ## The box distance of a pair -/

/-- The L1 distance of query n's box from target m's: from zero, the sum over the four coordinates of the absolute
    differences. -/
theorem l1_at (x1 : (⟨S16x1000x4, .f32⟩ : BufTy).Contents (Elt Ideal)) (x3 : (⟨S1600x4, .f32⟩ : BufTy).Contents (Elt Ideal))
    (n : Fin 16000) (m : Fin 1600) :
    val_main_v52 (F := Ideal) x1 x3 (ix2 n m)
      = Ideal.ofBits FTy.f32 0x00000000#32 + ∑ k : Fin 4, absE (val_main_v7 (F := Ideal) x1 (ix2 n k) - x3 (ix2 m k)) := by
  rw [val_main_v52_apply, val_main_cst_14_apply]
  refine congrArg (_ + ·) (Finset.sum_congr rfl fun k _ => ?_)
  have e1 : idx_main_v46 (idx_main_v48 (idx_main_v52 (ix2 n m) k)) = ix2 n k :=
    funext fun a => Fin.ext (by match a with | ⟨0, _⟩ => rfl | ⟨1, _⟩ => rfl)
  have e2 : idx_main_v47 (idx_main_v49 (idx_main_v52 (ix2 n m) k)) = ix2 m k :=
    funext fun a => Fin.ext (by match a with | ⟨0, _⟩ => rfl | ⟨1, _⟩ => rfl)
  rw [val_main_v51_apply, val_main_v50_apply, val_main_v48_apply, val_main_v46_apply, val_main_v49_apply,
    val_main_v47_apply, e1, e2]
  simp only [Ideal.hostAbsf_def, Ideal.absf_def, Ideal.subf_def]
  rfl

end Cert.ReferenceIdeal.RefValue

end
-- ==== Proof.RefGiou.lean ====
/-
  The reference program's negated generalized IoU of a query box and a target box, read at one (query, target) pair.

  The program turns each box (centre x, centre y, width, height) into its corners, x0 = cx - w/2, y0 = cy - h/2,
  x1 = cx + w/2, y1 = cy + h/2, and stacks the four corner columns side by side; from the stacked corners it takes
  the two areas, the intersection box (low corner: coordinate-wise max of the low corners, high corner: min of the
  high corners, each side clipped at zero), the union area (the two areas less the intersection) and the enclosing
  box (low corner: min, high corner: max), and returns -(I/U - (A - U)/A). Read index by index this is `giouR` of
  the eight corner numbers of the pair.
-/
import proofs.«425634_j60129542923_3_alg».proof.Proof.Gen.ReferenceIdeal.Read
import proofs.«425634_j60129542923_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.MatchCost

/-! ## The stacked corner columns

A stack of four one-column pieces along the column axis: column `j` of the stack is piece `j`, row by row. -/

/-- Column 0 of the query boxes' stacked corners is the first piece. -/
theorem v77_piece0 (x1 : (⟨S16x1000x4, .f32⟩ : BufTy).Contents (Elt Ideal)) (n : Fin 16000) :
    val_main_v77 (F := Ideal) x1 (ix2 n (0 : Fin 4)) = val_main_v73 (F := Ideal) x1 (ix2 n (0 : Fin 1)) := by
  unfold val_main_v77
  refine concatenate_apply_piece (1 : Fin 2) _ _ (ix2 n (0 : Fin 4)) 0 ?_ S16000x1 _ ?_ rfl 0 ?_
    (ix2 n (0 : Fin 1)) ?_ ?_
  · show (0 : Nat) < 4; omega
  · rfl
  · rfl
  · intro b hb
    match b, hb with
    | ⟨0, _⟩, _ => rfl
    | ⟨1, _⟩, hb => exact absurd rfl hb
  · rfl

/-- Column 1 of the query boxes' stacked corners is the second piece. -/
theorem v77_piece1 (x1 : (⟨S16x1000x4, .f32⟩ : BufTy).Contents (Elt Ideal)) (n : Fin 16000) :
    val_main_v77 (F := Ideal) x1 (ix2 n (1 : Fin 4)) = val_main_v74 (F := Ideal) x1 (ix2 n (0 : Fin 1)) := by
  unfold val_main_v77
  refine concatenate_apply_piece (1 : Fin 2) _ _ (ix2 n (1 : Fin 4)) 1 ?_ S16000x1 _ ?_ rfl 1 ?_
    (ix2 n (0 : Fin 1)) ?_ ?_
  · show (1 : Nat) < 4; omega
  · rfl
  · rfl
  · intro b hb
    match b, hb with
    | ⟨0, _⟩, _ => rfl
    | ⟨1, _⟩, hb => exact absurd rfl hb
  · rfl

/-- Column 2 of the query boxes' stacked corners is the third piece. -/
theorem v77_piece2 (x1 : (⟨S16x1000x4, .f32⟩ : BufTy).Contents (Elt Ideal)) (n : Fin 16000) :
    val_main_v77 (F := Ideal) x1 (ix2 n (2 : Fin 4)) = val_main_v75 (F := Ideal) x1 (ix2 n (0 : Fin 1)) := by
  unfold val_main_v77
  refine concatenate_apply_piece (1 : Fin 2) _ _ (ix2 n (2 : Fin 4)) 2 ?_ S16000x1 _ ?_ rfl 2 ?_
    (ix2 n (0 : Fin 1)) ?_ ?_
  · show (2 : Nat) < 4; omega
  · rfl
  · rfl
  · intro b hb
    match b, hb with
    | ⟨0, _⟩, _ => rfl
    | ⟨1, _⟩, hb => exact absurd rfl hb
  · rfl

/-- Column 3 of the query boxes' stacked corners is the fourth piece. -/
theorem v77_piece3 (x1 : (⟨S16x1000x4, .f32⟩ : BufTy).Contents (Elt Ideal)) (n : Fin 16000) :
    val_main_v77 (F := Ideal) x1 (ix2 n (3 : Fin 4)) = val_main_v76 (F := Ideal) x1 (ix2 n (0 : Fin 1)) := by
  unfold val_main_v77
  refine concatenate_apply_piece (1 : Fin 2) _ _ (ix2 n (3 : Fin 4)) 3 ?_ S16000x1 _ ?_ rfl 3 ?_
    (ix2 n (0 : Fin 1)) ?_ ?_
  · show (3 : Nat) < 4; omega
  · rfl
  · rfl
  · intro b hb
    match b, hb with
    | ⟨0, _⟩, _ => rfl
    | ⟨1, _⟩, hb => exact absurd rfl hb
  · rfl

/-- Column 0 of the target boxes' stacked corners is the first piece. -/
theorem v102_piece0 (x3 : (⟨S1600x4, .f32⟩ : BufTy).Contents (Elt Ideal)) (n : Fin 1600) :
    val_main_v102 (F := Ideal) x3 (ix2 n (0 : Fin 4)) = val_main_v98 (F := Ideal) x3 (ix2 n (0 : Fin 1)) := by
  unfold val_main_v102
  refine concatenate_apply_piece (1 : Fin 2) _ _ (ix2 n (0 : Fin 4)) 0 ?_ S1600x1 _ ?_ rfl 0 ?_
    (ix2 n (0 : Fin 1)) ?_ ?_
  · show (0 : Nat) < 4; omega
  · rfl
  · rfl
  · intro b hb
    match b, hb with
    | ⟨0, _⟩, _ => rfl
    | ⟨1, _⟩, hb => exact absurd rfl hb
  · rfl

/-- Column 1 of the target boxes' stacked corners is the second piece. -/
theorem v102_piece1 (x3 : (⟨S1600x4, .f32⟩ : BufTy).Contents (Elt Ideal)) (n : Fin 1600) :
    val_main_v102 (F := Ideal) x3 (ix2 n (1 : Fin 4)) = val_main_v99 (F := Ideal) x3 (ix2 n (0 : Fin 1)) := by
  unfold val_main_v102
  refine concatenate_apply_piece (1 : Fin 2) _ _ (ix2 n (1 : Fin 4)) 1 ?_ S1600x1 _ ?_ rfl 1 ?_
    (ix2 n (0 : Fin 1)) ?_ ?_
  · show (1 : Nat) < 4; omega
  · rfl
  · rfl
  · intro b hb
    match b, hb with
    | ⟨0, _⟩, _ => rfl
    | ⟨1, _⟩, hb => exact absurd rfl hb
  · rfl

/-- Column 2 of the target boxes' stacked corners is the third piece. -/
theorem v102_piece2 (x3 : (⟨S1600x4, .f32⟩ : BufTy).Contents (Elt Ideal)) (n : Fin 1600) :
    val_main_v102 (F := Ideal) x3 (ix2 n (2 : Fin 4)) = val_main_v100 (F := Ideal) x3 (ix2 n (0 : Fin 1)) := by
  unfold val_main_v102
  refine concatenate_apply_piece (1 : Fin 2) _ _ (ix2 n (2 : Fin 4)) 2 ?_ S1600x1 _ ?_ rfl 2 ?_
    (ix2 n (0 : Fin 1)) ?_ ?_
  · show (2 : Nat) < 4; omega
  · rfl
  · rfl
  · intro b hb
    match b, hb with
    | ⟨0, _⟩, _ => rfl
    | ⟨1, _⟩, hb => exact absurd rfl hb
  · rfl

/-- Column 3 of the target boxes' stacked corners is the fourth piece. -/
theorem v102_piece3 (x3 : (⟨S1600x4, .f32⟩ : BufTy).Contents (Elt Ideal)) (n : Fin 1600) :
    val_main_v102 (F := Ideal) x3 (ix2 n (3 : Fin 4)) = val_main_v101 (F := Ideal) x3 (ix2 n (0 : Fin 1)) := by
  unfold val_main_v102
  refine concatenate_apply_piece (1 : Fin 2) _ _ (ix2 n (3 : Fin 4)) 3 ?_ S1600x1 _ ?_ rfl 3 ?_
    (ix2 n (0 : Fin 1)) ?_ ?_
  · show (3 : Nat) < 4; omega
  · rfl
  · rfl
  · intro b hb
    match b, hb with
    | ⟨0, _⟩, _ => rfl
    | ⟨1, _⟩, hb => exact absurd rfl hb
  · rfl

/-! ## The eight corner numbers of a pair -/

section
variable (x1 : (⟨S16x1000x4, .f32⟩ : BufTy).Contents (Elt Ideal)) (x3 : (⟨S1600x4, .f32⟩ : BufTy).Contents (Elt Ideal))

/-- Query `n`'s low x corner, `cx - w/2`; -/
def qx0 (n : Fin 16000) : EReal :=
  lo (val_main_v7 (F := Ideal) x1 (ix2 n (0 : Fin 4))) (val_main_v7 (F := Ideal) x1 (ix2 n (2 : Fin 4)))
/-- its low y corner, `cy - h/2`; -/
def qy0 (n : Fin 16000) : EReal :=
  lo (val_main_v7 (F := Ideal) x1 (ix2 n (1 : Fin 4))) (val_main_v7 (F := Ideal) x1 (ix2 n (3 : Fin 4)))
/-- its high x corner, `cx + w/2`; -/
def qx1 (n : Fin 16000) : EReal :=
  hi (val_main_v7 (F := Ideal) x1 (ix2 n (0 : Fin 4))) (val_main_v7 (F := Ideal) x1 (ix2 n (2 : Fin 4)))
/-- its high y corner, `cy + h/2`. -/
def qy1 (n : Fin 16000) : EReal :=
  hi (val_main_v7 (F := Ideal) x1 (ix2 n (1 : Fin 4))) (val_main_v7 (F := Ideal) x1 (ix2 n (3 : Fin 4)))
/-- Target `m`'s low x corner; -/
def tx0 (m : Fin 1600) : EReal := lo (x3 (ix2 m (0 : Fin 4))) (x3 (ix2 m (2 : Fin 4)))
/-- its low y corner; -/
def ty0 (m : Fin 1600) : EReal := lo (x3 (ix2 m (1 : Fin 4))) (x3 (ix2 m (3 : Fin 4)))
/-- its high x corner; -/
def tx1 (m : Fin 1600) : EReal := hi (x3 (ix2 m (0 : Fin 4))) (x3 (ix2 m (2 : Fin 4)))
/-- its high y corner. -/
def ty1 (m : Fin 1600) : EReal := hi (x3 (ix2 m (1 : Fin 4))) (x3 (ix2 m (3 : Fin 4)))

/-! ## The stacked corners are the corner numbers

Each column is a slice of the box table's centre column, less or plus one half times a slice of its extent column. -/

/-- Column 0 of the query boxes' stacked corners is the low x corner: the centre's x less half the width. -/
theorem corner_q0 (n : Fin 16000) : val_main_v77 (F := Ideal) x1 (ix2 n (0 : Fin 4)) = qx0 x1 n := by
  have ec : idx_main_v53 (idx_main_v54 (idx_main_v73 (ix2 n (0 : Fin 1)))) = ix2 n (0 : Fin 4) :=
    funext fun a => Fin.ext (by match a with | ⟨0, _⟩ => exact Nat.div_one _ | ⟨1, _⟩ => rfl)
  have es : idx_main_v57 (idx_main_v58 (idx_main_v73 (ix2 n (0 : Fin 1)))) = ix2 n (2 : Fin 4) :=
    funext fun a => Fin.ext (by match a with | ⟨0, _⟩ => exact Nat.div_one _ | ⟨1, _⟩ => rfl)
  rw [v77_piece0, val_main_v73_apply, val_main_v63_apply, val_main_v54_apply, val_main_v53_apply,
    val_main_v62_apply, val_main_v61_apply, val_main_cst_15_apply, val_main_v58_apply, val_main_v57_apply,
    ec, es]
  rfl

/-- Column 1 of the query boxes' stacked corners is the low y corner: the centre's y less half the height. -/
theorem corner_q1 (n : Fin 16000) : val_main_v77 (F := Ideal) x1 (ix2 n (1 : Fin 4)) = qy0 x1 n := by
  have ec : idx_main_v55 (idx_main_v56 (idx_main_v74 (ix2 n (0 : Fin 1)))) = ix2 n (1 : Fin 4) :=
    funext fun a => Fin.ext (by match a with | ⟨0, _⟩ => exact Nat.div_one _ | ⟨1, _⟩ => rfl)
  have es : idx_main_v59 (idx_main_v60 (idx_main_v74 (ix2 n (0 : Fin 1)))) = ix2 n (3 : Fin 4) :=
    funext fun a => Fin.ext (by match a with | ⟨0, _⟩ => exact Nat.div_one _ | ⟨1, _⟩ => rfl)
  rw [v77_piece1, val_main_v74_apply, val_main_v66_apply, val_main_v56_apply, val_main_v55_apply,
    val_main_v65_apply, val_main_v64_apply, val_main_cst_16_apply, val_main_v60_apply, val_main_v59_apply,
    ec, es]
  rfl

/-- Column 2 of the query boxes' stacked corners is the high x corner: the centre's x plus half the width. -/
theorem corner_q2 (n : Fin 16000) : val_main_v77 (F := Ideal) x1 (ix2 n (2 : Fin 4)) = qx1 x1 n := by
  have ec : idx_main_v53 (idx_main_v54 (idx_main_v75 (ix2 n (0 : Fin 1)))) = ix2 n (0 : Fin 4) :=
    funext fun a => Fin.ext (by match a with | ⟨0, _⟩ => exact Nat.div_one _ | ⟨1, _⟩ => rfl)
  have es : idx_main_v57 (idx_main_v58 (idx_main_v75 (ix2 n (0 : Fin 1)))) = ix2 n (2 : Fin 4) :=
    funext fun a => Fin.ext (by match a with | ⟨0, _⟩ => exact Nat.div_one _ | ⟨1, _⟩ => rfl)
  rw [v77_piece2, val_main_v75_apply, val_main_v69_apply, val_main_v54_apply, val_main_v53_apply,
    val_main_v68_apply, val_main_v67_apply, val_main_cst_17_apply, val_main_v58_apply, val_main_v57_apply,
    ec, es]
  rfl

/-- Column 3 of the query boxes' stacked corners is the high y corner: the centre's y plus half the height. -/
theorem corner_q3 (n : Fin 16000) : val_main_v77 (F := Ideal) x1 (ix2 n (3 : Fin 4)) = qy1 x1 n := by
  have ec : idx_main_v55 (idx_main_v56 (idx_main_v76 (ix2 n (0 : Fin 1)))) = ix2 n (1 : Fin 4) :=
    funext fun a => Fin.ext (by match a with | ⟨0, _⟩ => exact Nat.div_one _ | ⟨1, _⟩ => rfl)
  have es : idx_main_v59 (idx_main_v60 (idx_main_v76 (ix2 n (0 : Fin 1)))) = ix2 n (3 : Fin 4) :=
    funext fun a => Fin.ext (by match a with | ⟨0, _⟩ => exact Nat.div_one _ | ⟨1, _⟩ => rfl)
  rw [v77_piece3, val_main_v76_apply, val_main_v72_apply, val_main_v56_apply, val_main_v55_apply,
    val_main_v71_apply, val_main_v70_apply, val_main_cst_18_apply, val_main_v60_apply, val_main_v59_apply,
    ec, es]
  rfl

/-- Column 0 of the target boxes' stacked corners is the low x corner. -/
theorem corner_t0 (m : Fin 1600) : val_main_v102 (F := Ideal) x3 (ix2 m (0 : Fin 4)) = tx0 x3 m := by
  have ec : idx_main_v78 (idx_main_v79 (idx_main_v98 (ix2 m (0 : Fin 1)))) = ix2 m (0 : Fin 4) :=
    funext fun a => Fin.ext (by match a with | ⟨0, _⟩ => exact Nat.div_one _ | ⟨1, _⟩ => rfl)
  have es : idx_main_v82 (idx_main_v83 (idx_main_v98 (ix2 m (0 : Fin 1)))) = ix2 m (2 : Fin 4) :=
    funext fun a => Fin.ext (by match a with | ⟨0, _⟩ => exact Nat.div_one _ | ⟨1, _⟩ => rfl)
  rw [v102_piece0, val_main_v98_apply, val_main_v88_apply, val_main_v79_apply, val_main_v78_apply,
    val_main_v87_apply, val_main_v86_apply, val_main_cst_19_apply, val_main_v83_apply, val_main_v82_apply,
    ec, es]
  rfl

/-- Column 1 of the target boxes' stacked corners is the low y corner. -/
theorem corner_t1 (m : Fin 1600) : val_main_v102 (F := Ideal) x3 (ix2 m (1 : Fin 4)) = ty0 x3 m := by
  have ec : idx_main_v80 (idx_main_v81 (idx_main_v99 (ix2 m (0 : Fin 1)))) = ix2 m (1 : Fin 4) :=
    funext fun a => Fin.ext (by match a with | ⟨0, _⟩ => exact Nat.div_one _ | ⟨1, _⟩ => rfl)
  have es : idx_main_v84 (idx_main_v85 (idx_main_v99 (ix2 m (0 : Fin 1)))) = ix2 m (3 : Fin 4) :=
    funext fun a => Fin.ext (by match a with | ⟨0, _⟩ => exact Nat.div_one _ | ⟨1, _⟩ => rfl)
  rw [v102_piece1, val_main_v99_apply, val_main_v91_apply, val_main_v81_apply, val_main_v80_apply,
    val_main_v90_apply, val_main_v89_apply, val_main_cst_20_apply, val_main_v85_apply, val_main_v84_apply,
    ec, es]
  rfl

/-- Column 2 of the target boxes' stacked corners is the high x corner. -/
theorem corner_t2 (m : Fin 1600) : val_main_v102 (F := Ideal) x3 (ix2 m (2 : Fin 4)) = tx1 x3 m := by
  have ec : idx_main_v78 (idx_main_v79 (idx_main_v100 (ix2 m (0 : Fin 1)))) = ix2 m (0 : Fin 4) :=
    funext fun a => Fin.ext (by match a with | ⟨0, _⟩ => exact Nat.div_one _ | ⟨1, _⟩ => rfl)
  have es : idx_main_v82 (idx_main_v83 (idx_main_v100 (ix2 m (0 : Fin 1)))) = ix2 m (2 : Fin 4) :=
    funext fun a => Fin.ext (by match a with | ⟨0, _⟩ => exact Nat.div_one _ | ⟨1, _⟩ => rfl)
  rw [v102_piece2, val_main_v100_apply, val_main_v94_apply, val_main_v79_apply, val_main_v78_apply,
    val_main_v93_apply, val_main_v92_apply, val_main_cst_21_apply, val_main_v83_apply, val_main_v82_apply,
    ec, es]
  rfl

/-- Column 3 of the target boxes' stacked corners is the high y corner. -/
theorem corner_t3 (m : Fin 1600) : val_main_v102 (F := Ideal) x3 (ix2 m (3 : Fin 4)) = ty1 x3 m := by
  have ec : idx_main_v80 (idx_main_v81 (idx_main_v101 (ix2 m (0 : Fin 1)))) = ix2 m (1 : Fin 4) :=
    funext fun a => Fin.ext (by match a with | ⟨0, _⟩ => exact Nat.div_one _ | ⟨1, _⟩ => rfl)
  have es : idx_main_v84 (idx_main_v85 (idx_main_v101 (ix2 m (0 : Fin 1)))) = ix2 m (3 : Fin 4) :=
    funext fun a => Fin.ext (by match a with | ⟨0, _⟩ => exact Nat.div_one _ | ⟨1, _⟩ => rfl)
  rw [v102_piece3, val_main_v101_apply, val_main_v97_apply, val_main_v81_apply, val_main_v80_apply,
    val_main_v96_apply, val_main_v95_apply, val_main_cst_22_apply, val_main_v85_apply, val_main_v84_apply,
    ec, es]
  rfl

/-! ## The two areas -/

/-- The query box's area: its x side times its y side, each a high corner less a low one. -/
theorem area_q (n : Fin 16000) :
    val_main_v113 (F := Ideal) x1 (ix1 n) = (qx1 x1 n - qx0 x1 n) * (qy1 x1 n - qy0 x1 n) := by
  have e2 : idx_main_v103 (idx_main_v104 (ix1 n)) = ix2 n (2 : Fin 4) :=
    funext fun a => Fin.ext (by match a with | ⟨0, _⟩ => exact Nat.div_one _ | ⟨1, _⟩ => rfl)
  have e0 : idx_main_v105 (idx_main_v106 (ix1 n)) = ix2 n (0 : Fin 4) :=
    funext fun a => Fin.ext (by match a with | ⟨0, _⟩ => exact Nat.div_one _ | ⟨1, _⟩ => rfl)
  have e3 : idx_main_v108 (idx_main_v109 (ix1 n)) = ix2 n (3 : Fin 4) :=
    funext fun a => Fin.ext (by match a with | ⟨0, _⟩ => exact Nat.div_one _ | ⟨1, _⟩ => rfl)
  have e1 : idx_main_v110 (idx_main_v111 (ix1 n)) = ix2 n (1 : Fin 4) :=
    funext fun a => Fin.ext (by match a with | ⟨0, _⟩ => exact Nat.div_one _ | ⟨1, _⟩ => rfl)
  rw [val_main_v113_apply, val_main_v107_apply, val_main_v104_apply, val_main_v103_apply, val_main_v106_apply,
    val_main_v105_apply, val_main_v112_apply, val_main_v109_apply, val_main_v108_apply, val_main_v111_apply,
    val_main_v110_apply, e2, e0, e3, e1, corner_q2, corner_q0, corner_q3, corner_q1]
  rfl

/-- The target box's area. -/
theorem area_t (m : Fin 1600) :
    val_main_v124 (F := Ideal) x3 (ix1 m) = (tx1 x3 m - tx0 x3 m) * (ty1 x3 m - ty0 x3 m) := by
  have e2 : idx_main_v114 (idx_main_v115 (ix1 m)) = ix2 m (2 : Fin 4) :=
    funext fun a => Fin.ext (by match a with | ⟨0, _⟩ => exact Nat.div_one _ | ⟨1, _⟩ => rfl)
  have e0 : idx_main_v116 (idx_main_v117 (ix1 m)) = ix2 m (0 : Fin 4) :=
    funext fun a => Fin.ext (by match a with | ⟨0, _⟩ => exact Nat.div_one _ | ⟨1, _⟩ => rfl)
  have e3 : idx_main_v119 (idx_main_v120 (ix1 m)) = ix2 m (3 : Fin 4) :=
    funext fun a => Fin.ext (by match a with | ⟨0, _⟩ => exact Nat.div_one _ | ⟨1, _⟩ => rfl)
  have e1 : idx_main_v121 (idx_main_v122 (ix1 m)) = ix2 m (1 : Fin 4) :=
    funext fun a => Fin.ext (by match a with | ⟨0, _⟩ => exact Nat.div_one _ | ⟨1, _⟩ => rfl)
  rw [val_main_v124_apply, val_main_v118_apply, val_main_v115_apply, val_main_v114_apply, val_main_v117_apply,
    val_main_v116_apply, val_main_v123_apply, val_main_v120_apply, val_main_v119_apply, val_main_v122_apply,
    val_main_v121_apply, e2, e0, e3, e1, corner_t2, corner_t0, corner_t3, corner_t1]
  rfl

/-! ## The sides of the intersection box and of the enclosing box -/

/-- The x side of the intersection box: the lesser high x corner less the greater low x corner, clipped at zero. -/
theorem inter_side_x (n : Fin 16000) (m : Fin 1600) :
    val_main_v140 (F := Ideal) x1 x3 (ix3 n m (0 : Fin 2))
      = max (Ideal.ofBits FTy.f32 0x00000000#32) (min (qx1 x1 n) (tx1 x3 m) - max (qx0 x1 n) (tx0 x3 m)) := by
  have eqh : idx_main_v132 (idx_main_v133 (idx_main_v136 (ix3 n m (0 : Fin 2)))) = ix2 n (2 : Fin 4) :=
    funext fun a => by match a with | ⟨0, _⟩ => rfl | ⟨1, _⟩ => rfl
  have eth : idx_main_v134 (idx_main_v135 (idx_main_v137 (ix3 n m (0 : Fin 2)))) = ix2 m (2 : Fin 4) :=
    funext fun a => by match a with | ⟨0, _⟩ => rfl | ⟨1, _⟩ => rfl
  have eql : idx_main_v125 (idx_main_v126 (idx_main_v129 (ix3 n m (0 : Fin 2)))) = ix2 n (0 : Fin 4) :=
    funext fun a => by match a with | ⟨0, _⟩ => rfl | ⟨1, _⟩ => rfl
  have etl : idx_main_v127 (idx_main_v128 (idx_main_v130 (ix3 n m (0 : Fin 2)))) = ix2 m (0 : Fin 4) :=
    funext fun a => by match a with | ⟨0, _⟩ => rfl | ⟨1, _⟩ => rfl
  rw [val_main_v140_apply, val_main_call1_v1_apply, val_main_call1_v0_apply, val_main_cst_23_apply, val_main_v139_apply,
    val_main_v138_apply, val_main_v136_apply, val_main_v133_apply, val_main_v132_apply,
    val_main_v137_apply, val_main_v135_apply, val_main_v134_apply,
    val_main_v131_apply, val_main_v129_apply, val_main_v126_apply, val_main_v125_apply,
    val_main_v130_apply, val_main_v128_apply, val_main_v127_apply,
    eqh, eth, eql, etl, corner_q2, corner_t2, corner_q0, corner_t0]
  rfl

/-- The y side of the intersection box. -/
theorem inter_side_y (n : Fin 16000) (m : Fin 1600) :
    val_main_v140 (F := Ideal) x1 x3 (ix3 n m (1 : Fin 2))
      = max (Ideal.ofBits FTy.f32 0x00000000#32) (min (qy1 x1 n) (ty1 x3 m) - max (qy0 x1 n) (ty0 x3 m)) := by
  have eqh : idx_main_v132 (idx_main_v133 (idx_main_v136 (ix3 n m (1 : Fin 2)))) = ix2 n (3 : Fin 4) :=
    funext fun a => by match a with | ⟨0, _⟩ => rfl | ⟨1, _⟩ => rfl
  have eth : idx_main_v134 (idx_main_v135 (idx_main_v137 (ix3 n m (1 : Fin 2)))) = ix2 m (3 : Fin 4) :=
    funext fun a => by match a with | ⟨0, _⟩ => rfl | ⟨1, _⟩ => rfl
  have eql : idx_main_v125 (idx_main_v126 (idx_main_v129 (ix3 n m (1 : Fin 2)))) = ix2 n (1 : Fin 4) :=
    funext fun a => by match a with | ⟨0, _⟩ => rfl | ⟨1, _⟩ => rfl
  have etl : idx_main_v127 (idx_main_v128 (idx_main_v130 (ix3 n m (1 : Fin 2)))) = ix2 m (1 : Fin 4) :=
    funext fun a => by match a with | ⟨0, _⟩ => rfl | ⟨1, _⟩ => rfl
  rw [val_main_v140_apply, val_main_call1_v1_apply, val_main_call1_v0_apply, val_main_cst_23_apply, val_main_v139_apply,
    val_main_v138_apply, val_main_v136_apply, val_main_v133_apply, val_main_v132_apply,
    val_main_v137_apply, val_main_v135_apply, val_main_v134_apply,
    val_main_v131_apply, val_main_v129_apply, val_main_v126_apply, val_main_v125_apply,
    val_main_v130_apply, val_main_v128_apply, val_main_v127_apply,
    eqh, eth, eql, etl, corner_q3, corner_t3, corner_q1, corner_t1]
  rfl

/-- The x side of the enclosing box: the greater high x corner less the lesser low x corner, clipped at zero. -/
theorem hull_side_x (n : Fin 16000) (m : Fin 1600) :
    val_main_v168 (F := Ideal) x1 x3 (ix3 n m (0 : Fin 2))
      = max (Ideal.ofBits FTy.f32 0x00000000#32) (max (qx1 x1 n) (tx1 x3 m) - min (qx0 x1 n) (tx0 x3 m)) := by
  have eqh : idx_main_v160 (idx_main_v161 (idx_main_v164 (ix3 n m (0 : Fin 2)))) = ix2 n (2 : Fin 4) :=
    funext fun a => by match a with | ⟨0, _⟩ => rfl | ⟨1, _⟩ => rfl
  have eth : idx_main_v162 (idx_main_v163 (idx_main_v165 (ix3 n m (0 : Fin 2)))) = ix2 m (2 : Fin 4) :=
    funext fun a => by match a with | ⟨0, _⟩ => rfl | ⟨1, _⟩ => rfl
  have eql : idx_main_v153 (idx_main_v154 (idx_main_v157 (ix3 n m (0 : Fin 2)))) = ix2 n (0 : Fin 4) :=
    funext fun a => by match a with | ⟨0, _⟩ => rfl | ⟨1, _⟩ => rfl
  have etl : idx_main_v155 (idx_main_v156 (idx_main_v158 (ix3 n m (0 : Fin 2)))) = ix2 m (0 : Fin 4) :=
    funext fun a => by match a with | ⟨0, _⟩ => rfl | ⟨1, _⟩ => rfl
  rw [val_main_v168_apply, val_main_call2_v1_apply, val_main_call2_v0_apply, val_main_cst_24_apply, val_main_v167_apply,
    val_main_v166_apply, val_main_v164_apply, val_main_v161_apply, val_main_v160_apply,
    val_main_v165_apply, val_main_v163_apply, val_main_v162_apply,
    val_main_v159_apply, val_main_v157_apply, val_main_v154_apply, val_main_v153_apply,
    val_main_v158_apply, val_main_v156_apply, val_main_v155_apply,
    eqh, eth, eql, etl, corner_q2, corner_t2, corner_q0, corner_t0]
  rfl

/-- The y side of the enclosing box. -/
theorem hull_side_y (n : Fin 16000) (m : Fin 1600) :
    val_main_v168 (F := Ideal) x1 x3 (ix3 n m (1 : Fin 2))
      = max (Ideal.ofBits FTy.f32 0x00000000#32) (max (qy1 x1 n) (ty1 x3 m) - min (qy0 x1 n) (ty0 x3 m)) := by
  have eqh : idx_main_v160 (idx_main_v161 (idx_main_v164 (ix3 n m (1 : Fin 2)))) = ix2 n (3 : Fin 4) :=
    funext fun a => by match a with | ⟨0, _⟩ => rfl | ⟨1, _⟩ => rfl
  have eth : idx_main_v162 (idx_main_v163 (idx_main_v165 (ix3 n m (1 : Fin 2)))) = ix2 m (3 : Fin 4) :=
    funext fun a => by match a with | ⟨0, _⟩ => rfl | ⟨1, _⟩ => rfl
  have eql : idx_main_v153 (idx_main_v154 (idx_main_v157 (ix3 n m (1 : Fin 2)))) = ix2 n (1 : Fin 4) :=
    funext fun a => by match a with | ⟨0, _⟩ => rfl | ⟨1, _⟩ => rfl
  have etl : idx_main_v155 (idx_main_v156 (idx_main_v158 (ix3 n m (1 : Fin 2)))) = ix2 m (1 : Fin 4) :=
    funext fun a => by match a with | ⟨0, _⟩ => rfl | ⟨1, _⟩ => rfl
  rw [val_main_v168_apply, val_main_call2_v1_apply, val_main_call2_v0_apply, val_main_cst_24_apply, val_main_v167_apply,
    val_main_v166_apply, val_main_v164_apply, val_main_v161_apply, val_main_v160_apply,
    val_main_v165_apply, val_main_v163_apply, val_main_v162_apply,
    val_main_v159_apply, val_main_v157_apply, val_main_v154_apply, val_main_v153_apply,
    val_main_v158_apply, val_main_v156_apply, val_main_v155_apply,
    eqh, eth, eql, etl, corner_q3, corner_t3, corner_q1, corner_t1]
  rfl

/-! ## Intersection, union, enclosing box -/

/-- The intersection's area: the product of its two sides. -/
theorem inter_at (n : Fin 16000) (m : Fin 1600) :
    val_main_v145 (F := Ideal) x1 x3 (ix2 n m)
      = inter (qx0 x1 n) (qy0 x1 n) (qx1 x1 n) (qy1 x1 n) (tx0 x3 m) (ty0 x3 m) (tx1 x3 m) (ty1 x3 m) := by
  have ex : idx_main_v141 (idx_main_v142 (ix2 n m)) = ix3 n m (0 : Fin 2) :=
    funext fun a => Fin.ext (by
      have hn := n.isLt; have hm := m.isLt
      match a with
      | ⟨0, _⟩ => show (n.val * 1600 + m.val) / 1600 = n.val; omega
      | ⟨1, _⟩ => show (n.val * 1600 + m.val) / 1 % 1600 = m.val; omega
      | ⟨2, _⟩ => rfl)
  have ey : idx_main_v143 (idx_main_v144 (ix2 n m)) = ix3 n m (1 : Fin 2) :=
    funext fun a => Fin.ext (by
      have hn := n.isLt; have hm := m.isLt
      match a with
      | ⟨0, _⟩ => show (n.val * 1600 + m.val) / 1600 = n.val; omega
      | ⟨1, _⟩ => show (n.val * 1600 + m.val) / 1 % 1600 = m.val; omega
      | ⟨2, _⟩ => rfl)
  rw [val_main_v145_apply, val_main_v142_apply, val_main_v141_apply, val_main_v144_apply, val_main_v143_apply, ex, ey,
    inter_side_x, inter_side_y]
  rfl

/-- The enclosing box's area: the product of its two sides. -/
theorem hull_at (n : Fin 16000) (m : Fin 1600) :
    val_main_v173 (F := Ideal) x1 x3 (ix2 n m)
      = hull (qx0 x1 n) (qy0 x1 n) (qx1 x1 n) (qy1 x1 n) (tx0 x3 m) (ty0 x3 m) (tx1 x3 m) (ty1 x3 m) := by
  have ex : idx_main_v169 (idx_main_v170 (ix2 n m)) = ix3 n m (0 : Fin 2) :=
    funext fun a => Fin.ext (by
      have hn := n.isLt; have hm := m.isLt
      match a with
      | ⟨0, _⟩ => show (n.val * 1600 + m.val) / 1600 = n.val; omega
      | ⟨1, _⟩ => show (n.val * 1600 + m.val) / 1 % 1600 = m.val; omega
      | ⟨2, _⟩ => rfl)
  have ey : idx_main_v171 (idx_main_v172 (ix2 n m)) = ix3 n m (1 : Fin 2) :=
    funext fun a => Fin.ext (by
      have hn := n.isLt; have hm := m.isLt
      match a with
      | ⟨0, _⟩ => show (n.val * 1600 + m.val) / 1600 = n.val; omega
      | ⟨1, _⟩ => show (n.val * 1600 + m.val) / 1 % 1600 = m.val; omega
      | ⟨2, _⟩ => rfl)
  rw [val_main_v173_apply, val_main_v170_apply, val_main_v169_apply, val_main_v172_apply, val_main_v171_apply, ex, ey,
    hull_side_x, hull_side_y]
  rfl

/-- The union's area: the two boxes' areas less the intersection's. -/
theorem union_at (n : Fin 16000) (m : Fin 1600) :
    val_main_v151 (F := Ideal) x1 x3 (ix2 n m)
      = union (qx0 x1 n) (qy0 x1 n) (qx1 x1 n) (qy1 x1 n) (tx0 x3 m) (ty0 x3 m) (tx1 x3 m) (ty1 x3 m) := by
  have eq : idx_main_v146 (idx_main_v148 (ix2 n m)) = ix1 n :=
    funext fun a => by match a with | ⟨0, _⟩ => rfl
  have et : idx_main_v147 (idx_main_v149 (ix2 n m)) = ix1 m :=
    funext fun a => by match a with | ⟨0, _⟩ => rfl
  rw [val_main_v151_apply, val_main_v150_apply, val_main_v148_apply, val_main_v146_apply, val_main_v149_apply,
    val_main_v147_apply, eq, et, area_q, area_t, inter_at]
  rfl

end

/-! ## The negated generalized IoU -/

/-- At the pair `(n, m)` the reference's negated generalized IoU is `-(I/U - (A - U)/A)` of the pair's eight corner
    numbers: `I` the intersection's area, `U` the union's, `A` the enclosing box's. -/
theorem giou_at (x1 : (⟨S16x1000x4, .f32⟩ : BufTy).Contents (Elt Ideal)) (x3 : (⟨S1600x4, .f32⟩ : BufTy).Contents (Elt Ideal)) (n : Fin 16000) (m : Fin 1600) :
    val_main_v177 (F := Ideal) x1 x3 (ix2 n m)
      = giouR (lo (val_main_v7 (F := Ideal) x1 (ix2 n (0 : Fin 4))) (val_main_v7 (F := Ideal) x1 (ix2 n (2 : Fin 4))))
              (lo (val_main_v7 (F := Ideal) x1 (ix2 n (1 : Fin 4))) (val_main_v7 (F := Ideal) x1 (ix2 n (3 : Fin 4))))
              (hi (val_main_v7 (F := Ideal) x1 (ix2 n (0 : Fin 4))) (val_main_v7 (F := Ideal) x1 (ix2 n (2 : Fin 4))))
              (hi (val_main_v7 (F := Ideal) x1 (ix2 n (1 : Fin 4))) (val_main_v7 (F := Ideal) x1 (ix2 n (3 : Fin 4))))
              (lo (x3 (ix2 m (0 : Fin 4))) (x3 (ix2 m (2 : Fin 4)))) (lo (x3 (ix2 m (1 : Fin 4))) (x3 (ix2 m (3 : Fin 4))))
              (hi (x3 (ix2 m (0 : Fin 4))) (x3 (ix2 m (2 : Fin 4)))) (hi (x3 (ix2 m (1 : Fin 4))) (x3 (ix2 m (3 : Fin 4)))) := by
  rw [val_main_v177_apply, val_main_v176_apply, val_main_v152_apply, val_main_v175_apply, val_main_v174_apply,
    inter_at, union_at, hull_at]
  rfl

end Cert.ReferenceIdeal.RefValue

end
-- ==== Proof.RefValue.lean ====
/-
  The reference's whole result.

  For every (query, target) pair the reference's [16000, 1600] table holds five times the L1 distance of the boxes,
  plus twice the class cost (the positive part less the negative part of the focal cost at the target's label column),
  plus twice the negated generalized IoU of the boxes as corner boxes: the pair's cost in the second spelling, over the
  scores flattened to [16000, 256] and the query boxes flattened to [16000, 4]. The result is that table folded back to
  [16, 1000, 1600].
-/
import proofs.«425634_j60129542923_3_alg».proof.Proof.Gen.ReferenceIdeal.Read
import proofs.«425634_j60129542923_3_alg».proof.Proof.Spec
import proofs.«425634_j60129542923_3_alg».proof.Proof.RefClass
import proofs.«425634_j60129542923_3_alg».proof.Proof.RefGiou
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo Cert.MatchCost
open scoped BigOperators

/-! ## The whole table -/

/-- The reference's [16000, 1600] result, before it is folded back to [16, 1000, 1600], is the table of pair costs in
    the second spelling: five times the box distance, plus twice the class cost, plus twice the negated
    generalized IoU, over the flattened scores and boxes. -/
theorem v185_eq (x0 : (⟨S16x1000x256, .f32⟩ : BufTy).Contents (Elt Ideal)) (x1 : (⟨S16x1000x4, .f32⟩ : BufTy).Contents (Elt Ideal))
    (x2 : (⟨S1600, .i32⟩ : BufTy).Contents (Elt Ideal)) (x3 : (⟨S1600x4, .f32⟩ : BufTy).Contents (Elt Ideal)) :
    val_main_v185 (F := Ideal) x0 x1 x2 x3
      = tableR (val_main_v0 (F := Ideal) x0) (val_main_v7 (F := Ideal) x1) x2 x3 := by
  funext i
  obtain ⟨n, m, rfl⟩ : ∃ (n : Fin 16000) (m : Fin 1600), i = ix2 n m := ⟨i 0, i 1, eq_ix2 i⟩
  rw [val_main_v185_apply, val_main_v182_apply, val_main_v179_apply, val_main_v178_apply, val_main_cst_25_apply,
    val_main_v181_apply, val_main_v180_apply, val_main_cst_26_apply, val_main_v184_apply, val_main_v183_apply,
    val_main_cst_27_apply, class_at, l1_at, giou_at]
  simp only [Ideal.addf_def, Ideal.mulf_def, Ideal.ofBits_def]
  rfl

/-- The reference's result: that table over the flattened arguments, folded back to [16, 1000, 1600]. -/
theorem res_eq (m : (ℓ : Loc nD τ sig) → Buf (Elt Ideal) ℓ) (c : Dev nD) :
    Cert.ReferenceIdeal.Value.res_out0 (F := Ideal) m c
      = shapeCast S16x1000x1600
          (tableR (shapeCast S16000x256 (m ((c.tc : Thread nD τ).loc main_arg0)) shapeCasts_S16x1000x256_S16000x256)
            (shapeCast S16000x4 (m ((c.tc : Thread nD τ).loc main_arg1)) shapeCasts_S16x1000x4_S16000x4)
            (m ((c.tc : Thread nD τ).loc main_arg2)) (m ((c.tc : Thread nD τ).loc main_arg3)))
          shapeCasts_S16000x1600_S16x1000x1600 := by
  refine (Read.val_main_v186_eq m c).trans ?_
  unfold val_main_v186
  rw [v185_eq]
  rfl

end Cert.ReferenceIdeal.RefValue

end
-- ==== Proof.MathCore.lean ====
/-
  Scalar facts behind the agreement of the two spellings of the pair cost: what the shared float patterns denote,
  closure of the finite values under the arithmetic the box quantities use, the generalized-IoU identity with the
  quotient's conventions at a zero divisor, the square as a power, the focal cost in both spellings, a clamped
  label as a class, the one-hot sum, and the L1 sum over four coordinates.
-/
import Idealize.ShloMosaic.PureOps.Ideal
import Idealize.ShloMosaic.PureOps.Ideal.Laws
import Idealize.ShloMosaic.Lib.StableHlo.Predicate
import Mathlib.Data.EReal.Inv
import Mathlib.Data.EReal.Operations
import Mathlib.Analysis.SpecialFunctions.Pow.Real
import Mathlib.Algebra.BigOperators.Fin
import Mathlib.Algebra.BigOperators.Group.Finset.Basic
import Mathlib.Tactic.FieldSimp
import Mathlib.Tactic.Ring
import Mathlib.Tactic.NormNum

noncomputable section

namespace Cert.MatchCost.Core

open Idealize.ShloMosaic
open scoped BigOperators

/-! ## The patterns -/

/-- The pattern of `1.0` denotes `1`. -/
theorem ofBits_one : Ideal.ofBits FTy.f32 0x3F800000#32 = 1 := by
  simp [Ideal.ofBits, Ideal.ieee, -EReal.coe_mul]; norm_num

/-- The pattern of `2.0` denotes the real `2`. -/
theorem ofBits_two : Ideal.ofBits FTy.f32 0x40000000#32 = ((2 : ℝ) : EReal) := by
  simp [Ideal.ofBits, Ideal.ieee, -EReal.coe_mul]; norm_num

/-- The pattern of `0.5` denotes the real `1/2`. -/
theorem ofBits_half : Ideal.ofBits FTy.f32 0x3F000000#32 = ((1 / 2 : ℝ) : EReal) := by
  simp [Ideal.ofBits, Ideal.ieee, -EReal.coe_mul]; norm_num

/-! ## Finite values -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- The coercion is monotone, so it carries `max` to `max`, -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩
/-- and `min` to `min`. -/
theorem IsReal.min {x y : EReal} (hx : IsReal x) (hy : IsReal y) : IsReal (min x y) := by
  obtain ⟨a, rfl⟩ := hx; obtain ⟨b, rfl⟩ := hy
  exact ⟨Min.min a b, (EReal.coe_strictMono.monotone.map_min).symm⟩

/-! ## The generalized-IoU identity -/

/-- A quotient of reals by a nonzero real is the real quotient. -/
theorem div_coe_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

/-- A quotient of a real by zero is the infinity of the real's sign (`⊥` at zero). -/
theorem div_coe_zero (x : ℝ) : Ideal.div (x : EReal) ((0 : ℝ) : EReal) = if 0 < x then ⊤ else ⊥ := by
  rw [Ideal.div, if_pos EReal.coe_zero]
  simp only [EReal.coe_pos]

/-- `-(I/U - (A - U)/A) = (1 - I/U) - U/A` for all reals, the quotients by zero included: off zero it is
    `(A - U)/A = 1 - U/A`; at `U = 0` both sides are the infinity opposite to `I/0`; at `A = 0 ≠ U` both are the
    infinity opposite to `U/0`. -/
theorem giou_identity (I U A : ℝ) :
    -(Ideal.div (I : EReal) (U : EReal) - Ideal.div ((A : EReal) - (U : EReal)) (A : EReal))
      = ((1 : EReal) - Ideal.div (I : EReal) (U : EReal)) - Ideal.div (U : EReal) (A : EReal) := by
  have one_sub_bot : (1 : EReal) - ⊥ = ⊤ := EReal.coe_sub_bot 1
  have top_sub_one : (⊤ : EReal) - 1 = ⊤ := EReal.top_sub_coe 1
  have one_sub_coe : ∀ r : ℝ, (1 : EReal) - (r : EReal) = ((1 - r : ℝ) : EReal) := fun r => by
    rw [EReal.coe_sub, EReal.coe_one]
  rw [← EReal.coe_sub]
  by_cases hU : U = 0
  · subst hU
    by_cases hA : A = 0
    · subst hA
      rw [sub_zero, div_coe_zero, div_coe_zero, if_neg (lt_irrefl _)]
      by_cases hI : 0 < I
      · rw [if_pos hI]; simp
      · rw [if_neg hI]; simp [one_sub_bot]
    · rw [sub_zero, div_coe_zero, div_coe_coe A A hA, div_coe_coe 0 A hA, div_self hA, zero_div]
      by_cases hI : 0 < I
      · rw [if_pos hI]; simp [top_sub_one]
      · rw [if_neg hI]; simp [one_sub_bot]
  · by_cases hA : A = 0
    · subst hA
      rw [div_coe_zero, div_coe_zero, div_coe_coe I U hU, one_sub_coe]
      rcases lt_or_gt_of_ne hU with h | h
      · rw [if_pos (by linarith), if_neg (by linarith), EReal.coe_sub_bot]; simp
      · rw [if_neg (by linarith), if_pos h]; simp
    · rw [div_coe_coe I U hU, div_coe_coe (A - U) A hA, div_coe_coe U A hA]
      rw [← EReal.coe_one, ← EReal.coe_sub, ← EReal.coe_sub, ← EReal.coe_sub, ← EReal.coe_neg]
      congr 1
      field_simp
      ring

/-! ## The focal cost -/

/-- A real to the power `2` is its product with itself. -/
theorem pow_two_coe (r : ℝ) : Ideal.pow (r : EReal) ((2 : ℝ) : EReal) = (r : EReal) * (r : EReal) := by
  rw [Ideal.pow_coe_coe, ← EReal.coe_mul]
  congr 1
  show r ^ (2 : ℝ) = r * r
  rw [Real.rpow_two, sq]

/-- The focal cost of a finite score in the two spellings: squares as products against squares as powers (the sigmoid
    of a real is a real), and a difference from zero against a negation. The weights `a`, `b` and the offset `e` are
    whatever both sides share. -/
theorem focal_eq (a b e : EReal) (r : ℝ) :
    (a * (((1 : EReal) - Ideal.logistic (r : EReal)) * ((1 : EReal) - Ideal.logistic (r : EReal))))
          * ((0 : EReal) - Ideal.log (Ideal.logistic (r : EReal) + e))
        - (b * (Ideal.logistic (r : EReal) * Ideal.logistic (r : EReal)))
          * ((0 : EReal) - Ideal.log (((1 : EReal) - Ideal.logistic (r : EReal)) + e))
      = (a * Ideal.pow ((1 : EReal) - Ideal.logistic (r : EReal)) ((2 : ℝ) : EReal))
          * (-(Ideal.log (Ideal.logistic (r : EReal) + e)))
        - (b * Ideal.pow (Ideal.logistic (r : EReal)) ((2 : ℝ) : EReal))
          * (-(Ideal.log (((1 : EReal) - Ideal.logistic (r : EReal)) + e))) := by
  rw [Ideal.logistic_coe]
  have h1 : (1 : EReal) - (((1 + Real.exp (-r))⁻¹ : ℝ) : EReal) = ((1 - (1 + Real.exp (-r))⁻¹ : ℝ) : EReal) := by
    rw [EReal.coe_sub, EReal.coe_one]
  rw [h1, pow_two_coe, pow_two_coe, zero_sub, zero_sub]

/-! ## Labels -/

/-- A label clamped into `[0, 255]` (signed) is a word of value at most `255`. -/
theorem clip_toNat_le (l : BitVec 32) : (IntOp.minsi 255#32 (IntOp.maxsi 0#32 l)).toNat ≤ 255 := by
  have h0 : (0#32 : BitVec 32).toInt = 0 := by decide
  have h255 : (255#32 : BitVec 32).toInt = 255 := by decide
  have hl := BitVec.toInt_eq_toNat_cond l
  have hlt := l.isLt
  by_cases hneg : l.toInt < 0
  · have hm : IntOp.maxsi 0#32 l = 0#32 := by
      unfold IntOp.maxsi; rw [if_pos (by simp only [BitVec.slt, h0, decide_eq_true_eq]; exact hneg)]
    rw [hm]; decide
  · have hm : IntOp.maxsi 0#32 l = l := by
      unfold IntOp.maxsi; rw [if_neg (by simp only [BitVec.slt, h0, decide_eq_true_eq]; exact hneg)]
    rw [hm]
    unfold IntOp.minsi
    by_cases hbig : (255 : ℤ) < l.toInt
    · rw [if_pos (by simp only [BitVec.slt, h255, decide_eq_true_eq]; exact hbig)]; decide
    · rw [if_neg (by simp only [BitVec.slt, h255, decide_eq_true_eq]; exact hbig)]
      split at hl <;> omega

/-- A word of value at most `255` is not negative, so wrapping it once leaves it. -/
theorem wrap_small (w : BitVec 32) (hw : w.toNat ≤ 255) :
    Scalar.select (IntOp.cmpi CmpIPredicate.slt w 0#32) (IntOp.addi w 256#32) w = w := by
  have h : ¬ IntOp.cmpi CmpIPredicate.slt w 0#32 = 1#1 := by
    rw [StableHlo.Predicate.slt_iff_toNat (by omega) (by decide)]
    simp
  unfold Scalar.select
  exact if_neg h

/-- Such a word read signed is its value. -/
theorem toInt_small (w : BitVec 32) (hw : w.toNat ≤ 255) : w.toInt.toNat = w.toNat := by
  rw [StableHlo.Predicate.toInt_eq_toNat_of_lt (by omega)]; rfl

/-- The one-hot entry of such a word at class `c`: the comparison's bit, read as a number, is `1` where `c` is the
    word's value and `0` elsewhere. -/
theorem oneHot_small (w : BitVec 32) (hw : w.toNat ≤ 255) (c : Fin 256) :
    FloatOps.uitofp (F := Ideal) FTy.bf16 (IntOp.cmpi CmpIPredicate.eq w (BitVec.ofNat 32 c.val))
      = if c.val = w.toNat then (1 : EReal) else 0 := by
  show (((IntOp.cmpi CmpIPredicate.eq w (BitVec.ofNat 32 c.val)).toNat : ℝ) : EReal) = _
  have hc : (BitVec.ofNat 32 c.val).toNat = c.val := by
    rw [BitVec.toNat_ofNat]; exact Nat.mod_eq_of_lt (by have := c.isLt; omega)
  by_cases h : c.val = w.toNat
  · have hw' : w = BitVec.ofNat 32 c.val := BitVec.eq_of_toNat_eq (by rw [hc, h])
    rw [if_pos h, StableHlo.Predicate.cmpi_eq_iff.mpr hw']
    simp
  · have hne : ¬ IntOp.cmpi CmpIPredicate.eq w (BitVec.ofNat 32 c.val) = 1#1 := by
      rw [StableHlo.Predicate.cmpi_eq_iff]; intro hw'; apply h; rw [hw', hc]
    rcases BitVec.eq_zero_or_eq_one (IntOp.cmpi CmpIPredicate.eq w (BitVec.ofNat 32 c.val)) with h0 | h1
    · rw [if_neg h, h0]; simp
    · exact absurd h1 hne

/-- A sum against a one-hot column reads the one entry: `x * 0 = 0` and `x * 1 = x` on all extended reals. -/
theorem sum_oneHot (f : Fin 256 → EReal) (k : Fin 256) :
    ∑ c : Fin 256, f c * (if c = k then (1 : EReal) else 0) = f k := by
  rw [Finset.sum_eq_single k]
  · rw [if_pos rfl, mul_one]
  · intro c _ hck; rw [if_neg hck, mul_zero]
  · intro hk; exact absurd (Finset.mem_univ k) hk

/-! ## The L1 sum -/

/-- A sum over four coordinates from zero is the three additions. -/
theorem sum_four (g : Fin 4 → EReal) : (0 : EReal) + ∑ k : Fin 4, g k = ((g 0 + g 1) + g 2) + g 3 := by
  rw [Fin.sum_univ_four, zero_add]

end Cert.MatchCost.Core

end
-- ==== Proof.Agree.lean ====
/-
  The two spellings of the pair cost agree wherever the scores and the boxes are finite.

  The class cost: a clamped label is a class, its one-hot column has a single `1`, so the sum over the 256 classes
  reads the one score at the label's column; there the sigmoid is a real, a square is the second power, and a
  difference from zero is a negation. The L1 distance: a sum over four coordinates from zero is three additions.
  The box term: corners, intersection, union and hull of finite boxes are finite, and for finite `I`, `U`, `A`
  `-(I/U - (A - U)/A) = (1 - I/U) - U/A`, the quotients by zero included. The outer sum commutes.
-/
import proofs.«425634_j60129542923_3_alg».proof.Proof.Spec
import proofs.«425634_j60129542923_3_alg».proof.Proof.MathCore

noncomputable section

namespace Cert.MatchCost

open Idealize.ShloMosaic Idealize.ShloMosaic.ValueIdx
open Cert.MatchCost.Core
open scoped BigOperators

/-! ## The class cost of one finite score -/

/-- The sigmoid spelt as a quotient is the sigmoid. -/
theorem sigR_eq (x : EReal) : sigR x = Ideal.logistic x := by
  unfold sigR Ideal.logistic
  rw [ofBits_one]

/-- At a finite score the focal cost with squares as products is the positive part less the negative part with
    squares as powers. -/
theorem focalK_eq (r : ℝ) : focalK (r : EReal) = posR (r : EReal) - negR (r : EReal) := by
  unfold focalK posR negR
  simp only [sigR_eq]
  rw [ofBits_one, ofBits_two, Ideal.ofBits_zero_f32]
  exact focal_eq _ _ _ r

/-! ## Finite boxes -/

theorem isReal_c0 : IsReal (Ideal.ofBits FTy.f32 0x00000000#32) := ⟨0, Ideal.ofBits_zero_f32⟩
theorem isReal_chalf : IsReal (Ideal.ofBits FTy.f32 0x3F000000#32) := ⟨1 / 2, ofBits_half⟩

theorem isReal_lo {c s : EReal} (hc : IsReal c) (hs : IsReal s) : IsReal (lo c s) := by
  unfold lo; exact hc.sub (isReal_chalf.mul hs)
theorem isReal_hi {c s : EReal} (hc : IsReal c) (hs : IsReal s) : IsReal (hi c s) := by
  unfold hi; exact hc.add (isReal_chalf.mul hs)

section
variable {x0a y0a x1a y1a x0b y0b x1b y1b : EReal}
  (h0a : IsReal x0a) (h1a : IsReal y0a) (h2a : IsReal x1a) (h3a : IsReal y1a)
  (h0b : IsReal x0b) (h1b : IsReal y0b) (h2b : IsReal x1b) (h3b : IsReal y1b)
include h0a h1a h2a h3a h0b h1b h2b h3b

theorem isReal_inter : IsReal (inter x0a y0a x1a y1a x0b y0b x1b y1b) := by
  unfold inter
  exact (isReal_c0.max ((h2a.min h2b).sub (h0a.max h0b))).mul (isReal_c0.max ((h3a.min h3b).sub (h1a.max h1b)))

theorem isReal_union : IsReal (union x0a y0a x1a y1a x0b y0b x1b y1b) := by
  unfold union
  exact ((((h2a.sub h0a).mul (h3a.sub h1a)).add ((h2b.sub h0b).mul (h3b.sub h1b)))).sub
    (isReal_inter h0a h1a h2a h3a h0b h1b h2b h3b)

theorem isReal_hull : IsReal (hull x0a y0a x1a y1a x0b y0b x1b y1b) := by
  unfold hull
  exact (isReal_c0.max ((h2a.max h2b).sub (h0a.min h0b))).mul (isReal_c0.max ((h3a.max h3b).sub (h1a.min h1b)))

/-- On finite corners the two spellings of the box term agree: the identity at the intersection, the union and the
    hull's area. -/
theorem giouK_eq_giouR :
    giouK x0a y0a x1a y1a x0b y0b x1b y1b = giouR x0a y0a x1a y1a x0b y0b x1b y1b := by
  obtain ⟨I, hI⟩ := isReal_inter h0a h1a h2a h3a h0b h1b h2b h3b
  obtain ⟨V, hV⟩ := isReal_union h0a h1a h2a h3a h0b h1b h2b h3b
  obtain ⟨A, hA⟩ := isReal_hull h0a h1a h2a h3a h0b h1b h2b h3b
  unfold giouK giouR
  rw [hI, hV, hA, ofBits_one]
  exact (giou_identity I V A).symm

end

/-! ## A clamped label as a class -/

theorem clipw_toNat_le (l : BitVec 32) : (clipw l).toNat ≤ 255 := by
  unfold clipw; exact clip_toNat_le l

theorem wrapw_clipw (l : BitVec 32) : wrapw (clipw l) = clipw l := by
  unfold wrapw; exact wrap_small _ (clipw_toNat_le l)

/-- The class of a label is its clamped word's value. -/
theorem cls_val (l : BitVec 32) : (cls l).val = (clipw l).toNat := by
  unfold cls
  show min (wrapw (clipw l)).toInt.toNat (256 - 1) = (clipw l).toNat
  rw [wrapw_clipw, toInt_small _ (clipw_toNat_le l)]
  have := clipw_toNat_le l
  omega

/-- The one-hot column of a clamped label has its `1` at the label's class. -/
theorem oneHot_clipw (l : BitVec 32) (c : Fin 256) :
    oneHot (clipw l) c = if c = cls l then (1 : EReal) else 0 := by
  unfold oneHot
  rw [oneHot_small _ (clipw_toNat_le l) c]
  by_cases h : c = cls l
  · rw [if_pos h, if_pos (by rw [h, cls_val])]
  · rw [if_neg h, if_neg (fun hv => h (Fin.ext (by rw [hv, cls_val])))]

/-! ## The pair cost -/

theorem costK_eq_costR (L : SL.Idx → EReal) (B : SB.Idx → EReal) (lab : SLab.Idx → BitVec 32) (T : ST.Idx → EReal)
    (hL : ∀ i, ∃ r : ℝ, L i = (r : EReal)) (hB : ∀ i, ∃ r : ℝ, B i = (r : EReal)) (hT : ∀ i, ∃ r : ℝ, T i = (r : EReal))
    (n : Fin 16000) (m : Fin 1600) : costK L B lab T n m = costR L B lab T n m := by
  obtain ⟨r, hr⟩ := hL (ix2 n (cls (lab (ix1 m))))
  have hB' : ∀ k : Fin 4, IsReal (B (ix2 n k)) := fun k => hB _
  have hT' : ∀ k : Fin 4, IsReal (T (ix2 m k)) := fun k => hT _
  -- the class cost: the one-hot sum reads the label's column
  have hsum : ∑ c : Fin 256, focalK (L (ix2 n c)) * oneHot (clipw (lab (ix1 m))) c
      = posR (L (ix2 n (cls (lab (ix1 m))))) - negR (L (ix2 n (cls (lab (ix1 m))))) := by
    simp only [oneHot_clipw]
    rw [sum_oneHot (fun c => focalK (L (ix2 n c))) (cls (lab (ix1 m)))]
    show focalK (L (ix2 n (cls (lab (ix1 m))))) = _
    rw [hr]; exact focalK_eq r
  -- the L1 distance: four coordinates from zero
  have hl1 : Ideal.ofBits FTy.f32 0x00000000#32 + ∑ k : Fin 4, absE (B (ix2 n k) - T (ix2 m k))
      = ((absE (B (ix2 n (0 : Fin 4)) - T (ix2 m (0 : Fin 4))) + absE (B (ix2 n (1 : Fin 4)) - T (ix2 m (1 : Fin 4))))
          + absE (B (ix2 n (2 : Fin 4)) - T (ix2 m (2 : Fin 4)))) + absE (B (ix2 n (3 : Fin 4)) - T (ix2 m (3 : Fin 4))) := by
    rw [Ideal.ofBits_zero_f32]
    exact sum_four (fun k => absE (B (ix2 n k) - T (ix2 m k)))
  -- the box term on finite corners
  have hg := giouK_eq_giouR
    (isReal_lo (hB' 0) (hB' 2)) (isReal_lo (hB' 1) (hB' 3)) (isReal_hi (hB' 0) (hB' 2)) (isReal_hi (hB' 1) (hB' 3))
    (isReal_lo (hT' 0) (hT' 2)) (isReal_lo (hT' 1) (hT' 3)) (isReal_hi (hT' 0) (hT' 2)) (isReal_hi (hT' 1) (hT' 3))
  unfold costK costR cellK qRow tRow
  simp only [boxRow]
  rw [hsum, hl1, hg]
  exact congrArg (· + _) (add_comm _ _)

theorem tableK_eq_tableR (L : SL.Idx → EReal) (B : SB.Idx → EReal) (lab : SLab.Idx → BitVec 32) (T : ST.Idx → EReal)
    (hL : ∀ i, ∃ r : ℝ, L i = (r : EReal)) (hB : ∀ i, ∃ r : ℝ, B i = (r : EReal)) (hT : ∀ i, ∃ r : ℝ, T i = (r : EReal)) :
    tableK L B lab T = tableR L B lab T := by
  funext i
  exact costK_eq_costR L B lab T hL hB hT (i 0) (i 1)

end Cert.MatchCost

end
-- ==== Proof.PreFinite.lean ====
/-
  From the precondition to "every entry of the three float arguments is a real".

  The precondition says that the conjunction of three tests is 1 on every device; each test is the conjunction,
  over every entry x of one float argument, of |x| < +∞, where |x| = max x (−x) in the extended reals. A
  conjunction of one-bit words that is 1 has every word 1, so every entry x has max x (−x) < ⊤; then x is
  neither ⊤ (max ⊤ _ = ⊤) nor ⊥ (−⊥ = ⊤), hence a real. An entry of a reshaped array is an entry of the array.
-/
import proofs.«425634_j60129542923_3_alg».proof.Defs
import proofs.«425634_j60129542923_3_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.SL.Sem

namespace PreFinite

/-- The shape with no axis has one index. -/
local instance subsingleton_scalar_idx : Subsingleton Cert.Pre_finite_inputs.S_.Idx :=
  ⟨fun a b => funext fun d => d.elim0⟩

/-- The pattern 0x7F800000 denotes +∞. -/
theorem ofBits_inf_f32 : Ideal.ofBits .f32 0x7F800000#32 = ⊤ := by simp [Ideal.ofBits, Ideal.ieee]

/-- An extended real x with max x (−x) < +∞ is a real: x = ⊤ makes the maximum ⊤, and x = ⊥ makes −x = ⊤. -/
theorem real_of_abs_lt_inf (x : EReal)
    (h : Ideal.cmp .olt (max x (-x)) (Ideal.ofBits .f32 0x7F800000#32) = 1#1) : ∃ r : ℝ, x = (r : EReal) := by
  rw [ofBits_inf_f32] at h
  unfold Ideal.cmp at h
  have hlt : max x (-x) < ⊤ := by
    by_contra hn
    simp [hn] at h
  induction x using EReal.rec with
  | bot => simp at hlt
  | coe r => exact ⟨r, rfl⟩
  | top => simp at hlt

/-- One test of the precondition, over any shape: if the conjunction over all entries of |x| < +∞ is 1, every entry is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, (x i : EReal) = (r : EReal) :=
  real_of_abs_lt_inf (x i) (Host.reduce_andi_all _ _ hr hu ValueIdx.ix0 e i)

end PreFinite

open PreFinite in
/-- Under the precondition, on every device, every entry of the flattened class scores, of the flattened query boxes
    and of the target boxes is a real: the three tests of the conjunction, each read back entry by entry; an entry
    of a flattened array is the entry of the array at the index with the same row-major position. -/
theorem finite_of_pre [hP : Cert.Pre_finite_inputs.Facts] [hK : Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (shapeCast Cert.KernelIdeal.S16000x256 (m ((c.tc : Thread Cert.KernelIdeal.nD Cert.KernelIdeal.τ).loc Cert.KernelIdeal.main_arg0)) Cert.KernelIdeal.Facts₀.shapeCasts_S16x1000x256_S16000x256 : Cert.KernelIdeal.S16000x256.Idx → EReal) i = (r : EReal))
    ∧ (∀ i, ∃ r : ℝ, (shapeCast Cert.KernelIdeal.S16000x4 (m ((c.tc : Thread Cert.KernelIdeal.nD Cert.KernelIdeal.τ).loc Cert.KernelIdeal.main_arg1)) Cert.KernelIdeal.Facts₀.shapeCasts_S16x1000x4_S16000x4 : Cert.KernelIdeal.S16000x4.Idx → EReal) i = (r : EReal))
    ∧ (∀ i, ∃ r : ℝ, (m ((c.tc : Thread Cert.KernelIdeal.nD Cert.KernelIdeal.τ).loc Cert.KernelIdeal.main_arg3) : Cert.KernelIdeal.S1600x4.Idx → EReal) i = (r : EReal)) := by
  have h0 := congrFun (h c) ValueIdx.ix0
  dsimp only [Cert.Pre_finite_inputs.fn] at h0
  obtain ⟨h01, h3⟩ := IntOp.andi_eq_one.1 h0
  obtain ⟨h1, h2⟩ := IntOp.andi_eq_one.1 h01
  refine ⟨fun i => ?_, fun i => ?_, fun i => ?_⟩
  · exact real_of_all (m ((c.tc : Thread Cert.KernelIdeal.nD Cert.KernelIdeal.τ).loc Cert.KernelIdeal.main_arg0)) _ _ _ h1
      (Shape.reshapeEquiv Cert.KernelIdeal.Facts₀.shapeCasts_S16x1000x256_S16000x256 i)
  · exact real_of_all (m ((c.tc : Thread Cert.KernelIdeal.nD Cert.KernelIdeal.τ).loc Cert.KernelIdeal.main_arg1)) _ _ _ h2
      (Shape.reshapeEquiv Cert.KernelIdeal.Facts₀.shapeCasts_S16x1000x4_S16000x4 i)
  · exact real_of_all (m ((c.tc : Thread Cert.KernelIdeal.nD Cert.KernelIdeal.τ).loc Cert.KernelIdeal.main_arg3)) _ _ _ h3 i

end Cert.KernelIdeal.Hand

end
-- ==== Proof.lean ====
/-
  The certificate of the matching-cost kernel against its jnp reference.

  Both programs build, for 16000 queries and 1600 targets, the table
    cost[n, m] = 2 · (focal class cost of target m's label at query n) + 5 · (L1 distance of the two boxes)
                 + 2 · (1 - generalized IoU of the two boxes).
  The kernel program (Proof/KIValue.lean) leaves the table in the spelling `Cert.MatchCost.tableK`: the class cost a
  sum over the 256 classes against a one-hot column (a matrix product), squares as products, `1 - giou` as
  `1 - I/U - U/A`. The reference (Proof/RefValue.lean) computes it in the spelling `tableR`: the class cost read at
  the label's column, squares as powers, `-giou` as `-(I/U - (A - U)/A)`. On finite scores and boxes the two
  spellings are one function (Proof/Agree.lean): a product with a one-hot column is the entry at the hot class;
  `p ^ 2 = p · p` for a real `p`; and the two forms of the IoU term agree for all real intersection, union and hull
  areas, also where an area is zero and the quotient takes the division's convention at zero. Finiteness of the
  entries is what the precondition says (Proof/PreFinite.lean).

  The frames: each kernel program runs its host operations, its one launch over 40 grid points and its final
  reshape to the end and leaves the arguments as they were (Proof/KIFrame.lean, Proof/KFrame.lean); the reference
  is a list of host operations, and its frame is its run with the result dropped.
-/
import proofs.«425634_j60129542923_3_alg».proof.Defs
import proofs.«425634_j60129542923_3_alg».proof.Proof.Gen.Kernel
import proofs.«425634_j60129542923_3_alg».proof.Proof.Gen.Kernel.Skeleton
import proofs.«425634_j60129542923_3_alg».proof.Proof.Gen.Kernel.Launch
import proofs.«425634_j60129542923_3_alg».proof.Proof.Gen.Kernel.Points
import proofs.«425634_j60129542923_3_alg».proof.Proof.Gen.KernelIdeal
import proofs.«425634_j60129542923_3_alg».proof.Proof.Gen.KernelIdeal.Skeleton
import proofs.«425634_j60129542923_3_alg».proof.Proof.Gen.KernelIdeal.Launch
import proofs.«425634_j60129542923_3_alg».proof.Proof.Gen.KernelIdeal.Points
import proofs.«425634_j60129542923_3_alg».proof.Proof.Gen.ReferenceIdeal
import proofs.«425634_j60129542923_3_alg».proof.Proof.Gen.Pre_finite_inputs
import proofs.«425634_j60129542923_3_alg».proof.Proof.Gen.ReferenceIdeal.Run
import proofs.«425634_j60129542923_3_alg».proof.Proof.Gen.ReferenceIdeal.Read
import proofs.«425634_j60129542923_3_alg».proof.Proof.KFrame
import proofs.«425634_j60129542923_3_alg».proof.Proof.KIValue
import proofs.«425634_j60129542923_3_alg».proof.Proof.RefValue
import proofs.«425634_j60129542923_3_alg».proof.Proof.Agree
import proofs.«425634_j60129542923_3_alg».proof.Proof.PreFinite
import Idealize.ShloMosaic.Adequacy
import Idealize.ShloMosaic.Init

noncomputable section

namespace Cert.Proof

open Idealize.ShloMosaic Idealize.SL.Sem Cert.MatchCost

/-- The word-level kernel program runs to the end and leaves its arguments as they were. -/
theorem frame_k [Cert.Kernel.Facts] [Cert.Pre_finite_inputs.Facts] : Cert.frame_Kernel :=
  fun m ρ _ => Cert.Kernel.Hand.frame m ρ

/-- So does the idealized kernel program. -/
theorem frame_ki [Cert.KernelIdeal.Facts] [Cert.Pre_finite_inputs.Facts] : Cert.frame_KernelIdeal :=
  fun m ρ _ => Cert.KernelIdeal.Hand.frame m ρ

/-- The reference's frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From arguments that agree, the kernel program ends at the cost table in its first spelling and the reference at
    the table in its second spelling, each reshaped the same way; the entries being finite, the two tables are one. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨hL, hB, hT⟩ := Cert.KernelIdeal.Hand.finite_of_pre m hpre c
  refine (Cert.ReferenceIdeal.RefValue.res_eq m' c).trans ?_
  rw [(hagree c).1, (hagree c).2.1, (hagree c).2.2.1, (hagree c).2.2.2]
  exact congrArg (fun x => shapeCast Cert.KernelIdeal.S16x1000x1600 x Cert.KernelIdeal.Facts₀.shapeCasts_S16000x1600_S16x1000x1600)
    (tableK_eq_tableR _ _ _ _ hL hB hT).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
